-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x800000 : Shape := ⟨2, ![2, 800000]⟩
abbrev S100000 : Shape := ⟨1, ![100000]⟩
abbrev S96x96 : Shape := ⟨2, ![96, 96]⟩
abbrev S96 : Shape := ⟨1, ![96]⟩
abbrev S96x16 : Shape := ⟨2, ![96, 16]⟩
abbrev S_ : Shape := ⟨0, ![]⟩
abbrev S1x800000 : Shape := ⟨2, ![1, 800000]⟩
abbrev S800000 : Shape := ⟨1, ![800000]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x16 : S_.BroadcastsInDim S96x16 (![] : Fin 0 → Fin S96x16.rank)
  reducesTo_S96x16_S_d0_1 : S96x16.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg9 : FVec F S96x16 .f32) (main_v33 : IVec S_ 1) : IVec S_ 1 :=
  let main_v34 : FVec F S96x16 .f32 := Host.absf main_arg9
  let main_cst_12 : FVec F S_ .f32 := constant S_ .f32 0x7F800000#32
  let main_v35 : FVec F S96x16 .f32 := broadcastInDim S96x16 ![] bcast_S_S96x16 main_cst_12
  let main_v36 : IVec S96x16 1 := cmpf .olt main_v34 main_v35
  let main_c_13 : IVec S_ 1 := constantI S_ 1 1#1
  let main_v37 : IVec S_ 1 := (fun x v => Host.reduce IntOp.andi x v reducesTo_S96x16_S_d0_1 h_S_) main_v36 main_c_13
  let main_v38 : IVec S_ 1 := andi main_v33 main_v37
  let main_v39 : IVec S1x800000 32 := (extractStridedSlice S1x800000 ![1, 0] · slices_S2x800000_S1x800000_1_0) main_arg1
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_c_15 : IVec S_ 1 := constantI S_ 1 1#1
  let main_v43 : IVec S_ 1 := (fun x v => Host.reduce IntOp.andi x v reducesTo_S800000_S_d0 h_S_) main_v42 main_c_15
  let main_v44 : IVec S_ 1 := andi main_v38 main_v43
  main_v44

def fn_part1 {F : FTy → Type} [FloatOps F] (main_arg1 : IVec S2x800000 32) (main_arg6 : FVec F S96 .f32) (main_arg7 : FVec F S96x96 .f32) (main_arg8 : FVec F S96 .f32) (main_arg9 : FVec F S96x16 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg1 main_arg9 main_v33

def fn {F : FTy → Type} [FloatOps F] (main_arg0 : FVec F S100000x96 .f32) (main_arg1 : IVec S2x800000 32) (main_arg2 : IVec S100000 32) (main_arg3 : FVec F S96x96 .f32) (main_arg4 : FVec F S96 .f32) (main_arg5 : FVec F S96x96 .f32) (main_arg6 : FVec F S96 .f32) (main_arg7 : FVec F S96x96 .f32) (main_arg8 : FVec F S96 .f32) (main_arg9 : FVec F S96x16 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg1 main_arg6 main_arg7 main_arg8 main_arg9 main_v13 main_v16
-- ==== Kernel.lean ====
abbrev S100000x96 : Shape := ⟨2, ![100000, 96]⟩
abbrev S2x800000 : Shape := ⟨2, ![2, 800000]⟩
abbrev S100000 : Shape := ⟨1, ![100000]⟩
abbrev S96x96 : Shape := ⟨2, ![96, 96]⟩
abbrev S96 : Shape := ⟨1, ![96]⟩
abbrev S96x16 : Shape := ⟨2, ![96, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x1 : Shape := ⟨2, ![100000, 1]⟩
abbrev S1x96 : Shape := ⟨2, ![1, 96]⟩
abbrev S5000x96 : Shape := ⟨2, ![5000, 96]⟩
abbrev S800000x96 : Shape := ⟨2, ![800000, 96]⟩
abbrev S5000x1 : Shape := ⟨2, ![5000, 1]⟩
abbrev S256 : Shape := ⟨1, ![256]⟩
abbrev S256x1 : Shape := ⟨2, ![256, 1]⟩
abbrev S256x16 : Shape := ⟨2, ![256, 16]⟩
abbrev S256x96 : Shape := ⟨2, ![256, 96]⟩
abbrev S5000x256 : Shape := ⟨2, ![5000, 256]⟩

abbrev nBuf : Space → Nat
  | .hbm => 107
  | .vmem => 42
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S100000, .i32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96x16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S100000, .f32⟩
  | .hbm, ⟨18, _⟩ => ⟨S800000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000x1, .f32⟩
  | .hbm, ⟨46, _⟩ => ⟨S1x96, .f32⟩
  | .hbm, ⟨47, _⟩ => ⟨S1x96, .f32⟩
  | .hbm, ⟨48, _⟩ => ⟨S1x96, .f32⟩
  | .hbm, ⟨49, _⟩ => ⟨S100000x96, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x96, .f32⟩
  | .hbm, ⟨59, _⟩ => ⟨S800000x96, .f32⟩
  | .hbm, ⟨60, _⟩ => ⟨S800000x96, .f32⟩
  | .hbm, ⟨61, _⟩ => ⟨S_, .f32⟩
  | .hbm, ⟨62, _⟩ => ⟨S100000x96, .f32⟩
  | .hbm, ⟨63, _⟩ => ⟨S800000x1, .i32⟩
  | .hbm, ⟨64, _⟩ => ⟨S100000x96, .f32⟩
  | .hbm, ⟨65, _⟩ => ⟨S100000x96, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x96, .f32⟩
  | .hbm, ⟨75, _⟩ => ⟨S800000x96, .f32⟩
  | .hbm, ⟨76, _⟩ => ⟨S800000x96, .f32⟩
  | .hbm, ⟨77, _⟩ => ⟨S_, .f32⟩
  | .hbm, ⟨78, _⟩ => ⟨S100000x96, .f32⟩
  | .hbm, ⟨79, _⟩ => ⟨S800000x1, .i32⟩
  | .hbm, ⟨80, _⟩ => ⟨S100000x96, .f32⟩
  | .hbm, ⟨81, _⟩ => ⟨S100000x96, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x96, .f32⟩
  | .hbm, ⟨91, _⟩ => ⟨S800000x96, .f32⟩
  | .hbm, ⟨92, _⟩ => ⟨S800000x96, .f32⟩
  | .hbm, ⟨93, _⟩ => ⟨S_, .f32⟩
  | .hbm, ⟨94, _⟩ => ⟨S100000x96, .f32⟩
  | .hbm, ⟨95, _⟩ => ⟨S800000x1, .i32⟩
  | .hbm, ⟨96, _⟩ => ⟨S100000x96, .f32⟩
  | .hbm, ⟨97, _⟩ => ⟨S100000x96, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S256, .f32⟩
  | .hbm, ⟨102, _⟩ => ⟨S100000x1, .i32⟩
  | .hbm, ⟨103, _⟩ => ⟨S256, .f32⟩
  | .hbm, ⟨104, _⟩ => ⟨S256x1, .f32⟩
  | .hbm, ⟨105, _⟩ => ⟨S100000x1, .i32⟩
  | .hbm, ⟨106, _⟩ => ⟨S256x16, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S96x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x1, .f32⟩
  | .local _ .vmem, ⟨20, _⟩ => ⟨S5000x1, .f32⟩
  | .local _ .vmem, ⟨21, _⟩ => ⟨S1x96, .f32⟩
  | .local _ .vmem, ⟨22, _⟩ => ⟨S96x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x1, .f32⟩
  | .local _ .vmem, ⟨30, _⟩ => ⟨S5000x1, .f32⟩
  | .local _ .vmem, ⟨31, _⟩ => ⟨S1x96, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S5000x1, .i32⟩
  | .local _ .vmem, ⟨37, _⟩ => ⟨S5000x1, .i32⟩
  | .local _ .vmem, ⟨38, _⟩ => ⟨S256x1, .f32⟩
  | .local _ .vmem, ⟨39, _⟩ => ⟨S96x16, .f32⟩
  | .local _ .vmem, ⟨40, _⟩ => ⟨S256x16, .f32⟩
  | .local _ .vmem, ⟨41, _⟩ => ⟨S256x96, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  shapeCasts_S800000_S800000x1 : S800000.ShapeCasts S800000x1
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S800000x1_S800000x96_0_1 : S800000x1.BroadcastsInDim S800000x96 (![0, 1] : Fin 2 → Fin S800000x96.rank)
  bcast_S_S100000x96 : S_.BroadcastsInDim S100000x96 (![] : Fin 0 → Fin S100000x96.rank)
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  inb_S256x96_S256x96_0_0 : ∀ a, (![0, 0] : Fin 2 → Nat) a + S256x96.size a ≤ S256x96.size a
  h_S256x96 : 0 < S256x96.numel
  shapeCasts_S256x96_S256x96 : S256x96.ShapeCasts S256x96
  iota_S5000x256_d1_w32 : S5000x256.Iotas .tc 32 [1]
  broadcasts_S5000x1_S5000x256 : S5000x1.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x96 : S256x1.Broadcasts S256x96
  inb_S96x16_S96x16_0_0 : ∀ a, (![0, 0] : Fin 2 → Nat) a + S96x16.size a ≤ S96x16.size a
  h_S96x16 : 0 < S96x16.numel
  inb_S256x16_S256x16_0_0 : ∀ a, (![0, 0] : Fin 2 → Nat) a + S256x16.size a ≤ S256x16.size a
  h_S256x16 : 0 < S256x16.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x96_S96x96_S5000x96_1_0_0_1_n_n_wf : DotDims.WF S5000x96 S96x96 S5000x96 [1] [0] [0] [1] [] []
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S256_S100000x1_S100000_n_0_0_1_wf : ScatterDims.WF S256 S100000x1 S100000 [] [0] [0] 1
  dot_S5000x256_S5000x96_S256x96_0_0_1_1_n_n_wf : DotDims.WF S5000x256 S5000x96 S256x96 [0] [0] [1] [1] [] []
  dot_S256x96_S96x16_S256x16_1_0_0_1_n_n_wf : DotDims.WF S256x96 S96x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S100000x96.size a
  hwx0_0 : ∀ i : grid0.Coords, EltTy.bits .f32 = 32 ∨ (Rect.block (s := S100000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S100000x96.size a
  hwx0_2 : ∀ i : grid0.Coords, EltTy.bits .f32 = 32 ∨ (Rect.block (s := S100000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S100000x96.size a
  hwx1_1 : ∀ i : grid1.Coords, EltTy.bits .f32 = 32 ∨ (Rect.block (s := S100000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S100000x96.size a
  hwx1_5 : ∀ i : grid1.Coords, EltTy.bits .f32 = 32 ∨ (Rect.block (s := S100000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S100000x96.size a
  hwx2_0 : ∀ i : grid2.Coords, EltTy.bits .f32 = 32 ∨ (Rect.block (s := S100000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S100000x96.size a
  hwx2_1 : ∀ i : grid2.Coords, EltTy.bits .f32 = 32 ∨ (Rect.block (s := S100000x96) S5000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S100000x96.size a
  hwx2_5 : ∀ i : grid2.Coords, EltTy.bits .f32 = 32 ∨ (Rect.block (s := S100000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S100000x96.size a
  hwx3_0 : ∀ i : grid3.Coords, EltTy.bits .f32 = 32 ∨ (Rect.block (s := S100000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S100000x96.size a
  hwx3_1 : ∀ i : grid3.Coords, EltTy.bits .f32 = 32 ∨ (Rect.block (s := S100000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S100000x96.size a
  hwx3_4 : ∀ i : grid3.Coords, EltTy.bits .f32 = 32 ∨ (Rect.block (s := S100000x96) S5000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S100000x96.size a
  hwx4_0 : ∀ i : grid4.Coords, EltTy.bits .f32 = 32 ∨ (Rect.block (s := S100000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x1.size a ≤ S256x1.size a
  hwx4_2 : ∀ i : grid4.Coords, EltTy.bits .f32 = 32 ∨ (Rect.block (s := S256x1) S256x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x16.size a ≤ S96x16.size a
  hwx4_3 : ∀ i : grid4.Coords, EltTy.bits .f32 = 32 ∨ (Rect.block (s := S96x16) S96x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x16.size a ≤ S256x16.size a
  hwx4_4 : ∀ i : grid4.Coords, EltTy.bits .f32 = 32 ∨ (Rect.block (s := S256x16) S256x16.size (cc4_transform_4 i) (hinb4_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S5000x256_S5000x96_S256x96_0_0_1_1_n_n : DotDims S5000x256 S5000x96 S256x96 where
  lhsContracting := [0]
  rhsContracting := [0]
  lhsNonContracting := [1]
  rhsNonContracting := [1]
  lhsBatch := []
  rhsBatch := []
  wf := dot_S5000x256_S5000x96_S256x96_0_0_1_1_n_n_wf
def dot_S256x96_S96x16_S256x16_1_0_0_1_n_n : DotDims S256x96 S96x16 S256x16 where
  lhsContracting := [1]
  rhsContracting := [0]
  lhsNonContracting := [0]
  rhsNonContracting := [1]
  lhsBatch := []
  rhsBatch := []
  wf := dot_S256x96_S96x16_S256x16_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S256x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S96x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S256x16.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x96 : Shape := ⟨2, ![100000, 96]⟩
abbrev S2x800000 : Shape := ⟨2, ![2, 800000]⟩
abbrev S100000 : Shape := ⟨1, ![100000]⟩
abbrev S96x96 : Shape := ⟨2, ![96, 96]⟩
abbrev S96 : Shape := ⟨1, ![96]⟩
abbrev S96x16 : Shape := ⟨2, ![96, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S100000x1 : Shape := ⟨2, ![100000, 1]⟩
abbrev S1x96 : Shape := ⟨2, ![1, 96]⟩
abbrev S256x96 : Shape := ⟨2, ![256, 96]⟩
abbrev S256 : Shape := ⟨1, ![256]⟩
abbrev S256x1 : Shape := ⟨2, ![256, 1]⟩
abbrev S256x16 : Shape := ⟨2, ![256, 16]⟩

abbrev nBuf : Space → Nat
  | .hbm => 220
  | .vmem => 0
  | .smem => 0
  | _ => 0

abbrev hbmTy0_0 (i : Nat) : BufTy := match i % 128 with
  | 0 => ⟨S100000x96, .f32⟩
  | 1 => ⟨S2x800000, .i32⟩
  | 2 => ⟨S100000, .i32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96x16, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S100000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x96, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x96, .f32⟩
  | 60 => ⟨S800000x1, .f32⟩
  | 61 => ⟨S800000x96, .f32⟩
  | 62 => ⟨S800000x96, .f32⟩
  | 63 => ⟨S_, .f32⟩
  | 64 => ⟨S100000x96, .f32⟩
  | 65 => ⟨S800000x1, .i32⟩
  | 66 => ⟨S100000x96, .f32⟩
  | 67 => ⟨S100000, .f32⟩
  | 68 => ⟨S100000x1, .f32⟩
  | 69 => ⟨S100000x96, .f32⟩
  | 70 => ⟨S100000x96, .f32⟩
  | 71 => ⟨S100000x96, .f32⟩
  | 72 => ⟨S1x96, .f32⟩
  | 73 => ⟨S100000x96, .f32⟩
  | 74 => ⟨S100000x96, .f32⟩
  | 75 => ⟨S_, .f32⟩
  | 76 => ⟨S100000x96, .f32⟩
  | 77 => ⟨S100000x96, .f32⟩
  | 78 => ⟨S_, .f32⟩
  | 79 => ⟨S100000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S_, .f32⟩
  | 89 => ⟨S800000, .f32⟩
  | 90 => ⟨S100000, .f32⟩
  | 91 => ⟨S_, .f32⟩
  | 92 => ⟨S100000, .f32⟩
  | 93 => ⟨S100000, .f32⟩
  | 94 => ⟨S100000, .f32⟩
  | 95 => ⟨S100000x96, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x96, .f32⟩
  | 124 => ⟨S800000x1, .f32⟩
  | 125 => ⟨S800000x96, .f32⟩
  | 126 => ⟨S800000x96, .f32⟩
  | 127 => ⟨S_, .f32⟩
  | _ => ⟨S100000x96, .f32⟩

abbrev hbmTy0_1 (i : Nat) : BufTy := match i % 128 with
  | 0 => ⟨S100000x96, .f32⟩
  | 1 => ⟨S800000x1, .i32⟩
  | 2 => ⟨S100000x96, .f32⟩
  | 3 => ⟨S100000, .f32⟩
  | 4 => ⟨S100000x1, .f32⟩
  | 5 => ⟨S100000x96, .f32⟩
  | 6 => ⟨S100000x96, .f32⟩
  | 7 => ⟨S100000x96, .f32⟩
  | 8 => ⟨S1x96, .f32⟩
  | 9 => ⟨S100000x96, .f32⟩
  | 10 => ⟨S100000x96, .f32⟩
  | 11 => ⟨S_, .f32⟩
  | 12 => ⟨S100000x96, .f32⟩
  | 13 => ⟨S100000x96, .f32⟩
  | 14 => ⟨S_, .f32⟩
  | 15 => ⟨S100000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x96, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x96, .f32⟩
  | 60 => ⟨S800000x1, .f32⟩
  | 61 => ⟨S800000x96, .f32⟩
  | 62 => ⟨S800000x96, .f32⟩
  | 63 => ⟨S_, .f32⟩
  | 64 => ⟨S100000x96, .f32⟩
  | 65 => ⟨S800000x1, .i32⟩
  | 66 => ⟨S100000x96, .f32⟩
  | 67 => ⟨S100000, .f32⟩
  | 68 => ⟨S100000x1, .f32⟩
  | 69 => ⟨S100000x96, .f32⟩
  | 70 => ⟨S100000x96, .f32⟩
  | 71 => ⟨S100000x96, .f32⟩
  | 72 => ⟨S1x96, .f32⟩
  | 73 => ⟨S100000x96, .f32⟩
  | 74 => ⟨S100000x96, .f32⟩
  | 75 => ⟨S_, .f32⟩
  | 76 => ⟨S256x96, .f32⟩
  | 77 => ⟨S100000x1, .i32⟩
  | 78 => ⟨S256x96, .f32⟩
  | 79 => ⟨S_, .f32⟩
  | 80 => ⟨S100000, .f32⟩
  | 81 => ⟨S_, .f32⟩
  | 82 => ⟨S256, .f32⟩
  | 83 => ⟨S100000x1, .i32⟩
  | 84 => ⟨S256, .f32⟩
  | 85 => ⟨S_, .f32⟩
  | 86 => ⟨S256, .f32⟩
  | 87 => ⟨S256, .f32⟩
  | 88 => ⟨S256x1, .f32⟩
  | 89 => ⟨S256x96, .f32⟩
  | 90 => ⟨S256x96, .f32⟩
  | 91 => ⟨S256x16, .f32⟩
  | _ => ⟨S100000x96, .f32⟩

abbrev hbmTy (i : Nat) : BufTy := match i / 128 with
  | 0 => hbmTy0_0 i
  | 1 => hbmTy0_1 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_19 : Ref sig .tc := ⟨.hbm, 115, rfl⟩
abbrev main_v82 : Ref sig .tc := ⟨.hbm, 116, rfl⟩
abbrev main_v83 : Ref sig .tc := ⟨.hbm, 117, rfl⟩
abbrev main_c_20 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call1_cst : Ref sig .tc := ⟨.hbm, 139, rfl⟩
abbrev main_call1_v0 : Ref sig .tc := ⟨.hbm, 140, rfl⟩
abbrev main_v103 : Ref sig .tc := ⟨.hbm, 141, rfl⟩
abbrev main_cst_22 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_25 : Ref sig .tc := ⟨.hbm, 152, rfl⟩
abbrev main_v111 : Ref sig .tc := ⟨.hbm, 153, rfl⟩
abbrev main_v112 : Ref sig .tc := ⟨.hbm, 154, rfl⟩
abbrev main_cst_26 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_27 : Ref sig .tc := ⟨.hbm, 160, rfl⟩
abbrev main_v117 : Ref sig .tc := ⟨.hbm, 161, rfl⟩
abbrev main_v118 : Ref sig .tc := ⟨.hbm, 162, rfl⟩
abbrev main_c_28 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_29 : Ref sig .tc := ⟨.hbm, 169, rfl⟩
abbrev main_v124 : Ref sig .tc := ⟨.hbm, 170, rfl⟩
abbrev main_v125 : Ref sig .tc := ⟨.hbm, 171, rfl⟩
abbrev main_c_30 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_31 : Ref sig .tc := ⟨.hbm, 179, rfl⟩
abbrev main_v132 : Ref sig .tc := ⟨.hbm, 180, rfl⟩
abbrev main_v133 : Ref sig .tc := ⟨.hbm, 181, rfl⟩
abbrev main_c_32 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_33 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_34 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_35 : Ref sig .tc := ⟨.hbm, 207, rfl⟩
abbrev main_v156 : Ref sig .tc := ⟨.hbm, 208, rfl⟩
abbrev main_cst_36 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_37 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S100000x96 : S_.BroadcastsInDim S100000x96 (![] : Fin 0 → Fin S100000x96.rank)
  bcast_S100000_S100000x1_0 : S100000.BroadcastsInDim S100000x1 (![0] : Fin 1 → Fin S100000x1.rank)
  bcast_S100000x1_S100000x96_0_1 : S100000x1.BroadcastsInDim S100000x96 (![0, 1] : Fin 2 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  bcast_S_S256x96 : S_.BroadcastsInDim S256x96 (![] : Fin 0 → Fin S256x96.rank)
  bcast_S_S256 : S_.BroadcastsInDim S256 (![] : Fin 0 → Fin S256.rank)
  bcast_S256_S256x1_0 : S256.BroadcastsInDim S256x1 (![0] : Fin 1 → Fin S256x1.rank)
  bcast_S256x1_S256x96_0_1 : S256x1.BroadcastsInDim S256x96 (![0, 1] : Fin 2 → Fin S256x96.rank)
  scatter_S100000_S800000x1_S800000_n_0_0_1_wf : ScatterDims.WF S100000 S800000x1 S800000 [] [0] [0] 1
  dot_S100000x96_S96x96_S100000x96_1_0_0_1_n_n_wf : DotDims.WF S100000x96 S96x96 S100000x96 [1] [0] [0] [1] [] []
  gather_S100000_S800000x1_S800000_n_0_n_n_0_1_1_wf : GatherDims.WF S100000 S800000x1 S800000 [] [0] [] [0] [] 1 ![1]
  gather_S100000x96_S800000x1_S800000x96_1_0_n_n_0_1_196_wf : GatherDims.WF S100000x96 S800000x1 S800000x96 [1] [0] [] [0] [] 1 ![1, 96]
  scatter_S100000x96_S800000x1_S800000x96_1_0_0_1_wf : ScatterDims.WF S100000x96 S800000x1 S800000x96 [1] [0] [0] 1
  scatter_S256x96_S100000x1_S100000x96_1_0_0_1_wf : ScatterDims.WF S256x96 S100000x1 S100000x96 [1] [0] [0] 1
  scatter_S256_S100000x1_S100000_n_0_0_1_wf : ScatterDims.WF S256 S100000x1 S100000 [] [0] [0] 1
  dot_S256x96_S96x16_S256x16_1_0_0_1_n_n_wf : DotDims.WF S256x96 S96x16 S256x16 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def scatter_S256x96_S100000x1_S100000x96_1_0_0_1 : ScatterDims S256x96 S100000x1 S100000x96 where
  updateWindowDims := [1]
  insertedWindowDims := [0]
  scatterDimsToOperandDims := [0]
  indexVectorDim := 1
  wf := scatter_S256x96_S100000x1_S100000x96_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x96_S96x16_S256x16_1_0_0_1_n_n : DotDims S256x96 S96x16 S256x16 where
  lhsContracting := [1]
  rhsContracting := [0]
  lhsNonContracting := [0]
  rhsNonContracting := [1]
  lhsBatch := []
  rhsBatch := []
  wf := dot_S256x96_S96x16_S256x16_1_0_0_1_n_n_wf

class Facts : Prop extends Facts₀ where

variable [Facts]
-- ==== Proof.K.Reg0.lean ====
/- First pallas_call (the feature matmul x · W1), one grid point per 5000-row tile of x.
  At a point the pipeline hands the body the tile of x (window 0), the whole weight matrix (window 1) and an
  output tile (window 2); the body stores the product of the two into the output tile. Everything is stated at
  a parameter V: the contents of the core's buffers when the region is entered.
-/
import proofs.«430643_j67972152427189_1_alg».proof.Proof.Gen.Kernel.Launch
import proofs.«430643_j67972152427189_1_alg».proof.Proof.Gen.Kernel.Skeleton
import proofs.«430643_j67972152427189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether it was fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body does -/

abbrev rX0 : Rect S5000x96 := Rect.unit (s := S5000x96) ![0, 0] S5000x96.size inb_S5000x96_S5000x96_0_0
abbrev rW0 : Rect S96x96 := Rect.unit (s := S96x96) ![0, 0] S96x96.size inb_S96x96_S96x96_0_0

/-- The output tile after the body: its one whole-tile store of the product of the two loaded blocks. -/
def out0_2 (x0 : Vec F S5000x96 .f32) (x1 : Vec F S96x96 .f32) : Vec F S5000x96 .f32 :=
  View.canon [⟨rX0, k0_pay1 (View.ld x0 rX0) (View.ld x1 rW0)⟩]

theorem cover0_2 (p0 : Vec F S5000x96 .f32) (y : S5000x96.Idx) :
    ∃ pc ∈ ([⟨rX0, p0⟩] : List (View.Piece (Elt F) S5000x96 .f32)), y ∈ pc.1.set :=
  View.cover_of_tiled [⟨rX0, p0⟩] S5000x96.size (by rfl) y

set_option maxHeartbeats 1000000 in
/-- The body on whole staging memrefs: the inputs are left as read, the output tile ends at out0_2 of them. -/
theorem sound_kernel0 (c : Dev nD) (E : Set ℕ) (i : grid0.Coords) (arg1 : Memref sig .tc .vmem S5000x96 .f32) (harg1 : arg1.IsWhole)
    (arg2 : Memref sig .tc .vmem S96x96 .f32) (harg2 : arg2.IsWhole) (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The pipeline's proof data on core c: the arrays as the region finds them; after the body each input window
    still holds its block and the output window holds out0_2 of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Second pallas_call (the first graph-convolution layer's epilogue fused with the next feature matmul), one grid
  point per 5000-row tile. At a point the pipeline hands the body a tile of the aggregated features (window 0), a
  tile of the self features (window 1), a tile of the per-row scale (window 2), the whole bias row (window 3), the
  whole weight matrix (window 4) and an output tile (window 5); the body stores
  relu(x0 + x1 * scale + bias) · W into the output tile. Everything is stated at a parameter V: the contents of
  the core's buffers when the region is entered.
-/
import proofs.«430643_j67972152427189_1_alg».proof.Proof.Gen.Kernel.Launch
import proofs.«430643_j67972152427189_1_alg».proof.Proof.Gen.Kernel.Skeleton
import proofs.«430643_j67972152427189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, whether it was fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body does -/

abbrev rX1 : Rect S5000x96 := Rect.unit (s := S5000x96) ![0, 0] S5000x96.size inb_S5000x96_S5000x96_0_0
abbrev rD1 : Rect S5000x1 := Rect.unit (s := S5000x1) ![0, 0] S5000x1.size inb_S5000x1_S5000x1_0_0
abbrev rB1 : Rect S1x96 := Rect.unit (s := S1x96) ![0, 0] S1x96.size inb_S1x96_S1x96_0_0
abbrev rW1 : Rect S96x96 := Rect.unit (s := S96x96) ![0, 0] S96x96.size inb_S96x96_S96x96_0_0

/-- The output tile after the body: its one whole-tile store of the payload of the five loaded blocks. -/
def out1_5 (x0 : Vec F S5000x96 .f32) (x1 : Vec F S5000x96 .f32) (x2 : Vec F S5000x1 .f32) (x3 : Vec F S1x96 .f32)
    (x4 : Vec F S96x96 .f32) : Vec F S5000x96 .f32 :=
  View.canon [⟨rX1, k1_pay1 (View.ld x0 rX1) (View.ld x1 rX1) (View.ld x2 rD1) (View.ld x3 rB1) (View.ld x4 rW1)⟩]

theorem cover1_5 (p0 : Vec F S5000x96 .f32) (y : S5000x96.Idx) :
    ∃ pc ∈ ([⟨rX1, p0⟩] : List (View.Piece (Elt F) S5000x96 .f32)), y ∈ pc.1.set :=
  View.cover_of_tiled [⟨rX1, p0⟩] S5000x96.size (by rfl) y

set_option maxHeartbeats 2000000 in
/-- The body on whole staging memrefs: the inputs are left as read, the output tile ends at out1_5 of them. -/
theorem sound_kernel1 (c : Dev nD) (E : Set ℕ) (i : grid1.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S96x96 .f32) (harg5 : arg5.IsWhole)
    (arg6 : Memref sig .tc .vmem S5000x96 .f32) (harg6 : arg6.IsWhole)
    (x0 : Vec F S5000x96 .f32) (x1 : Vec F S5000x96 .f32) (x2 : Vec F S5000x1 .f32) (x3 : Vec F S1x96 .f32) (x4 : Vec F S96x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- The pipeline's proof data on core c: the arrays as the region finds them; after the body each input window
    still holds its block and the output window holds out1_5 of the five blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Third pallas_call: the second graph-convolution layer's epilogue fused with the next feature matmul; the same
  kernel as the second pallas_call on the next layer's arrays. -/
import proofs.«430643_j67972152427189_1_alg».proof.Proof.Gen.Kernel.Launch
import proofs.«430643_j67972152427189_1_alg».proof.Proof.Gen.Kernel.Skeleton
import proofs.«430643_j67972152427189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point, whether it was fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body does -/

abbrev rX2 : Rect S5000x96 := Rect.unit (s := S5000x96) ![0, 0] S5000x96.size inb_S5000x96_S5000x96_0_0
abbrev rD2 : Rect S5000x1 := Rect.unit (s := S5000x1) ![0, 0] S5000x1.size inb_S5000x1_S5000x1_0_0
abbrev rB2 : Rect S1x96 := Rect.unit (s := S1x96) ![0, 0] S1x96.size inb_S1x96_S1x96_0_0
abbrev rW2 : Rect S96x96 := Rect.unit (s := S96x96) ![0, 0] S96x96.size inb_S96x96_S96x96_0_0

/-- The output tile after the body: its one whole-tile store of the payload of the five loaded blocks. -/
def out2_5 (x0 : Vec F S5000x96 .f32) (x1 : Vec F S5000x96 .f32) (x2 : Vec F S5000x1 .f32) (x3 : Vec F S1x96 .f32)
    (x4 : Vec F S96x96 .f32) : Vec F S5000x96 .f32 :=
  View.canon [⟨rX2, k2_pay1 (View.ld x0 rX2) (View.ld x1 rX2) (View.ld x2 rD2) (View.ld x3 rB2) (View.ld x4 rW2)⟩]

theorem cover2_5 (p0 : Vec F S5000x96 .f32) (y : S5000x96.Idx) :
    ∃ pc ∈ ([⟨rX2, p0⟩] : List (View.Piece (Elt F) S5000x96 .f32)), y ∈ pc.1.set :=
  View.cover_of_tiled [⟨rX2, p0⟩] S5000x96.size (by rfl) y

set_option maxHeartbeats 2000000 in
/-- The body on whole staging memrefs: the inputs are left as read, the output tile ends at out2_5 of them. -/
theorem sound_kernel2 (c : Dev nD) (E : Set ℕ) (i : grid2.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S96x96 .f32) (harg5 : arg5.IsWhole)
    (arg6 : Memref sig .tc .vmem S5000x96 .f32) (harg6 : arg6.IsWhole)
    (x0 : Vec F S5000x96 .f32) (x1 : Vec F S5000x96 .f32) (x2 : Vec F S5000x1 .f32) (x3 : Vec F S1x96 .f32) (x4 : Vec F S96x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The pipeline's proof data on core c: the arrays as the region finds them; after the body each input window
    still holds its block and the output window holds out2_5 of the five blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Fourth pallas_call (the last layer's combine: agg + h · dinv + bias), one grid point per 5000-row tile.
  At a point the pipeline hands the body a tile of each of the two 5000x96 operands (windows 0 and 1), the
  matching tile of the 5000x1 column (window 2), the whole 1x96 row (window 3) and an output tile (window 4);
  the body stores the combination of the four into the output tile. Everything is stated at a parameter V:
  the contents of the core's buffers when the region is entered.
-/
import proofs.«430643_j67972152427189_1_alg».proof.Proof.Gen.Kernel.Launch
import proofs.«430643_j67972152427189_1_alg».proof.Proof.Gen.Kernel.Skeleton
import proofs.«430643_j67972152427189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every point, whether it was fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the body does -/

abbrev rX3 : Rect S5000x96 := Rect.unit (s := S5000x96) ![0, 0] S5000x96.size inb_S5000x96_S5000x96_0_0
abbrev rD3 : Rect S5000x1 := Rect.unit (s := S5000x1) ![0, 0] S5000x1.size inb_S5000x1_S5000x1_0_0
abbrev rB3 : Rect S1x96 := Rect.unit (s := S1x96) ![0, 0] S1x96.size inb_S1x96_S1x96_0_0

/-- The output tile after the body: its one whole-tile store of the combination of the four loaded blocks. -/
def out3_4 (x0 : Vec F S5000x96 .f32) (x1 : Vec F S5000x96 .f32) (x2 : Vec F S5000x1 .f32) (x3 : Vec F S1x96 .f32) : Vec F S5000x96 .f32 :=
  View.canon [⟨rX3, k3_pay1 (View.ld x0 rX3) (View.ld x1 rX3) (View.ld x2 rD3) (View.ld x3 rB3)⟩]

theorem cover3_4 (p0 : Vec F S5000x96 .f32) (y : S5000x96.Idx) :
    ∃ pc ∈ ([⟨rX3, p0⟩] : List (View.Piece (Elt F) S5000x96 .f32)), y ∈ pc.1.set :=
  View.cover_of_tiled [⟨rX3, p0⟩] S5000x96.size (by rfl) y

set_option maxHeartbeats 1000000 in
/-- The body on whole staging memrefs: the inputs are left as read, the output tile ends at out3_4 of them. -/
theorem sound_kernel3 (c : Dev nD) (E : Set ℕ) (i : grid3.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S5000x96 .f32) (harg5 : arg5.IsWhole)
    (x0 : Vec F S5000x96 .f32) (x1 : Vec F S5000x96 .f32) (x2 : Vec F S5000x1 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__postproc_kernel i arg1 harg1 arg2 harg2 arg3 harg3 arg4 harg4 arg5 harg5) K := by
  simp only [cc3__postproc_kernel_eq_skeleton]; unfold cc3__postproc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data -/

/-- The pipeline's proof data on core c: the arrays as the region finds them; after the body each input window
    still holds its block and the output window holds out3_4 of the four blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- Fifth pallas_call (the mean pool and the final projection), one grid point per 5000-row tile of the node features.
  At a point the pipeline hands the body the tile of h (window 0), the tile of graph ids (window 1), the per-graph
  counts (window 2), the projection matrix (window 3) and the output block (window 4); beside them the body holds an
  accumulator of per-graph sums that it carries from point to point. At the first point the body zeroes the
  accumulator; at every point it adds to it the one-hot product of the tile; at the last point it divides by the
  counts, projects, and stores the result to the output block, which no earlier point touches. Everything is stated
  at a parameter V: the contents of the core's buffers when the region is entered.
-/
import proofs.«430643_j67972152427189_1_alg».proof.Proof.Gen.Kernel.Launch
import proofs.«430643_j67972152427189_1_alg».proof.Proof.Gen.Kernel.Skeleton
import proofs.«430643_j67972152427189_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window holds its block at every point, whether it was fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, decided over the grid -/

/-- The condition under which the body zeroes the accumulator: the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The condition under which the body stores the output block: the grid coordinate is 19. -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last point the output window is idle and is not written back; at the last point it is live. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## What the body does -/

abbrev rH4 : Rect S5000x96 := Rect.unit (s := S5000x96) ![0, 0] S5000x96.size inb_S5000x96_S5000x96_0_0
abbrev rB4 : Rect S5000x1 := Rect.unit (s := S5000x1) ![0, 0] S5000x1.size inb_S5000x1_S5000x1_0_0
abbrev rC4 : Rect S256x1 := Rect.unit (s := S256x1) ![0, 0] S256x1.size inb_S256x1_S256x1_0_0
abbrev rW4 : Rect S96x16 := Rect.unit (s := S96x16) ![0, 0] S96x16.size inb_S96x16_S96x16_0_0
abbrev rO4 : Rect S256x16 := Rect.unit (s := S256x16) ![0, 0] S256x16.size inb_S256x16_S256x16_0_0
abbrev rS4 : Rect S256x96 := Rect.unit (s := S256x96) ![0, 0] S256x96.size inb_S256x96_S256x96_0_0

theorem hz4 : (![0, 0] : Fin 2 → Nat) = fun _ => 0 := by
  funext a; match a with | ⟨0, _⟩ => rfl | ⟨1, _⟩ => rfl

theorem cover4_S (p0 : Vec F S256x96 .f32) (L : List (View.Piece (Elt F) S256x96 .f32)) (y : S256x96.Idx) :
    ∃ pc ∈ ((⟨rS4, p0⟩ : View.Piece (Elt F) S256x96 .f32) :: L), y ∈ pc.1.set :=
  ⟨_, List.mem_cons_self, View.mem_set_unit_zero hz4 inb_S256x96_S256x96_0_0 y⟩
theorem cover4_O (p0 : Vec F S256x16 .f32) (L : List (View.Piece (Elt F) S256x16 .f32)) (y : S256x16.Idx) :
    ∃ pc ∈ ((⟨rO4, p0⟩ : View.Piece (Elt F) S256x16 .f32) :: L), y ∈ pc.1.set :=
  ⟨_, List.mem_cons_self, View.mem_set_unit_zero hz4 inb_S256x16_S256x16_0_0 y⟩

set_option maxHeartbeats 1000000 in
/-- The body at the first point, on whole memrefs: it zeroes the accumulator and adds the tile's one-hot product;
    the inputs are left as read and the output block is left as found. -/
theorem sound_kernel4_first (c : Dev nD) (E : Set ℕ) (i : grid4.Coords) (hc0 : cond4_0 i) (hc1 : ¬cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (x4 : Vec F S256x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay2 x1 x0 (k4_pay1 (F := F)))) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover4_S _ _), View.canon_cons_unit_zero (S := S256x96) hz4]
  simp only [View.readAt_eq_ld, View.readCov_unit_zero (S := S256x96) _ hz4, View.ld_unit_zero (S := S5000x1) hz4,
    View.ld_unit_zero (S := S5000x96) hz4]

set_option maxHeartbeats 1000000 in
/-- The body at a point that is neither the first nor the last: it adds the tile's one-hot product to the accumulator. -/
theorem sound_kernel4_mid (c : Dev nD) (E : Set ℕ) (i : grid4.Coords) (hc0 : ¬cond4_0 i) (hc1 : ¬cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (x4 : Vec F S256x16 .f32) (a : Vec F S256x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay2 x1 x0 a)) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover4_S _ _), View.canon_unit_zero (S := S256x96) hz4]
  simp only [View.readAt_eq_ld, View.ld_unit_zero (S := S5000x1) hz4, View.ld_unit_zero (S := S5000x96) hz4,
    View.ld_unit_zero (S := S256x96) hz4]

set_option maxHeartbeats 1000000 in
/-- The body at the last point: it adds the tile's one-hot product to the accumulator, then stores to the output
    block the projection of the accumulator divided by the counts. -/
theorem sound_kernel4_last (c : Dev nD) (E : Set ℕ) (i : grid4.Coords) (hc0 : ¬cond4_0 i) (hc1 : cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (a : Vec F S256x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k4_pay3 (k4_pay2 x1 x0 a) x2 x3)
            ∗ owns (c : Thread nD τ) arg6 fullShare (k4_pay2 x1 x0 a)) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover4_O _ _), View.canon_unit_zero (S := S256x16) hz4]
    simp only [View.readAt_eq_ld, View.readCov_unit_zero (S := S256x96) _ hz4, View.ld_unit_zero (S := S5000x1) hz4,
      View.ld_unit_zero (S := S5000x96) hz4, View.ld_unit_zero (S := S256x96) hz4, View.ld_unit_zero (S := S256x1) hz4,
      View.ld_unit_zero (S := S96x16) hz4]
  iexists _; isplitr
  swap; · iexact H6
  ipureintro
  sl_unfold_words
  rw [View.read_writes_eq_canon _ _ _ (cover4_S _ _), View.canon_unit_zero (S := S256x96) hz4]
  simp only [View.readAt_eq_ld, View.ld_unit_zero (S := S5000x1) hz4, View.ld_unit_zero (S := S5000x96) hz4,
    View.ld_unit_zero (S := S256x96) hz4]

/-! ## The accumulator, point by point -/

theorem N4_pos : 0 < cfg4.N := lt_of_lt_of_eq (by omega : 0 < 20) (show cfg4.N = 20 from N_4).symm

/-- The accumulator after point n: at the first point the tile's one-hot product added to zeros, at each later point
    the tile's one-hot product added to what the point before left. -/
def acc4 (c : Dev nD) : ℕ → Vec F S256x96 .f32
  | 0 => k4_pay2 (iblk4 V c 1 ⟨0, N4_pos⟩) (iblk4 V c 0 ⟨0, N4_pos⟩) (k4_pay1 (F := F))
  | n + 1 => if h : n + 1 < cfg4.N then k4_pay2 (iblk4 V c 1 ⟨n + 1, h⟩) (iblk4 V c 0 ⟨n + 1, h⟩) (acc4 c n) else acc4 c n

theorem acc4_zero (c : Dev nD) :
    acc4 V c 0 = k4_pay2 (iblk4 V c 1 ⟨0, N4_pos⟩) (iblk4 V c 0 ⟨0, N4_pos⟩) (k4_pay1 (F := F)) := by
  unfold acc4; rfl

theorem acc4_succ (c : Dev nD) (n : ℕ) (h : n + 1 < cfg4.N) :
    acc4 V c (n + 1) = k4_pay2 (iblk4 V c 1 ⟨n + 1, h⟩) (iblk4 V c 0 ⟨n + 1, h⟩) (acc4 V c n) := by
  rw [acc4, dif_pos h]

/-- The accumulator after the first point, stated at the point. -/
theorem acc4_at_zero (c : Dev nD) (t : Fin cfg4.N) (h : t.val = 0) :
    acc4 V c t.val = k4_pay2 (iblk4 V c 1 t) (iblk4 V c 0 t) (k4_pay1 (F := F)) := by
  obtain ⟨n, hn⟩ := t
  cases n with
  | zero => exact acc4_zero V c
  | succ n => exact absurd h (Nat.succ_ne_zero n)

/-- The accumulator after a later point, stated at the point. -/
theorem acc4_at_pos (c : Dev nD) (t : Fin cfg4.N) (h : t.val ≠ 0) :
    acc4 V c t.val = k4_pay2 (iblk4 V c 1 t) (iblk4 V c 0 t) (acc4 V c (t.val - 1)) := by
  obtain ⟨n, hn⟩ := t
  cases n with
  | zero => exact absurd rfl h
  | succ n => exact acc4_succ V c n hn

/-- The output block after the last point's store: the projection of the accumulator divided by the counts. -/
def out4_4 (a : Vec F S256x96 .f32) (cnt : Vec F S256x1 .f32) (w : Vec F S96x16 .f32) : Vec F S256x16 .f32 :=
  k4_pay3 a cnt w

/-! ## The proof data -/

/-- The accumulator's buffer, passed to the body beside the windows. -/
abbrev scM4 : Memref sig .tc .vmem S256x96 .f32 := Memref.whole cc4_scratch0

/-- The invariant between points: before the first point the accumulator's buffer holds anything; after point n it
    holds acc4 n; beside it the other scoped buffers and the generator register, untouched. -/
def Phi4 (c : Dev nD) : ℕ → sProp 𝕄
  | 0 => iprop((∃ d, owns (c : Thread nD τ) scM4 fullShare d)
      ∗ Pipeline.scopedRestBut (Ix := Unit) (Name := ℕ) (U := UR sig nD τ) (Lvl := ℕ) (Val := Elt F) spec4 c [cc4_scratch0]
      ∗ ∃ r, prngReg c r)
  | n + 1 => iprop(owns (c : Thread nD τ) scM4 fullShare (acc4 V c n)
      ∗ Pipeline.scopedRestBut (Ix := Unit) (Name := ℕ) (U := UR sig nD τ) (Lvl := ℕ) (Val := Elt F) spec4 c [cc4_scratch0]
      ∗ ∃ r, prngReg c r)

theorem Phi4_zero (c : Dev nD) (n : ℕ) (h : n = 0) :
    Phi4 V c n = iprop((∃ d, owns (c : Thread nD τ) scM4 fullShare d)
      ∗ Pipeline.scopedRestBut (Ix := Unit) (Name := ℕ) (U := UR sig nD τ) (Lvl := ℕ) (Val := Elt F) spec4 c [cc4_scratch0]
      ∗ ∃ r, prngReg c r) := by
  subst h; rfl

theorem Phi4_succ (c : Dev nD) (n : ℕ) :
    Phi4 V c (n + 1) = iprop(owns (c : Thread nD τ) scM4 fullShare (acc4 V c n)
      ∗ Pipeline.scopedRestBut (Ix := Unit) (Name := ℕ) (U := UR sig nD τ) (Lvl := ℕ) (Val := Elt F) spec4 c [cc4_scratch0]
      ∗ ∃ r, prngReg c r) := rfl

theorem Phi4_pos (c : Dev nD) (n : ℕ) (h : n ≠ 0) :
    Phi4 V c n = iprop(owns (c : Thread nD τ) scM4 fullShare (acc4 V c (n - 1))
      ∗ Pipeline.scopedRestBut (Ix := Unit) (Name := ℕ) (U := UR sig nD τ) (Lvl := ℕ) (Val := Elt F) spec4 c [cc4_scratch0]
      ∗ ∃ r, prngReg c r) := by
  cases n with
  | zero => exact absurd rfl h
  | succ n => rfl

/-- The pipeline's proof data on core c: the arrays as the region finds them; after the body each input window still
    holds its block; the output window, where the body stores to it, holds out4_4 of the accumulator and the two
    whole-array blocks; between points the accumulator's buffer holds acc4. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (acc4 V c t.val) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (acc4 V c t.val) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem Phi4_castSucc (c : Dev nD) (t : Fin cfg4.N) : (dat4 V c).Φ t.castSucc = Phi4 V c t.val := by
  dsimp only [dat4]; simp only [Fin.coe_castSucc]
theorem Phi4_fsucc (c : Dev nD) (t : Fin cfg4.N) : (dat4 V c).Φ t.succ = Phi4 V c (t.val + 1) := by
  dsimp only [dat4]; simp only [Fin.val_succ]

/-- An input window's buffer after the body holds its block. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]
/-- At the last point the output window's buffer holds the stored projection. -/
theorem leaves4_4_last (c : Dev nD) (t : Fin cfg4.N) (h : cond4_1 (grid4.coords t)) :
    (dat4 V c).leavesExact 4 t
      = owns (c : Thread nD τ) (st4_4 t) fullShare (out4_4 (acc4 V c t.val) (iblk4 V c 2 t) (iblk4 V c 3 t)) := by
  unfold Dat.leavesExact; rw [liveAt4_4 t h, after4_4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 2000000 in
/-- The body at any point: the inputs' buffers hold their blocks; the point is the first, a middle one or the last,
    and in each case the body runs as stated above, the invariant handing it the accumulator at what the point
    before left (at anything at the first point) and taking it back at this point's value; away from the last point
    the output block is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [Phi4_castSucc, Phi4_fsucc, Phi4_succ, leaves4_0, leaves4_1, leaves4_2, leaves4_3]
  have hN : t.val < 20 := lt_of_lt_of_eq t.isLt (show cfg4.N = 20 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1)]
    rw [Phi4_zero V c _ h0, acc4_at_zero V c t h0]
    iintro ⟨⟨HS, Hr, Hg⟩, Ho, ⟨%d0, H0⟩, ⟨%d1, H1⟩, ⟨%d2, H2⟩, ⟨%d3, H3⟩, ⟨%d4, H4⟩⟩
    iapply (sound_kernel4_first c Set.univ (grid4.coords t) hc0 hc1 _ _ _ _ _ _ _ _ _ _ _ _
      (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexists d4; iexact H4
  · have hc0 : ¬cond4_0 (grid4.coords t) := fun h => h0 ((hcond4_0 t).mp h)
    rw [Phi4_pos V c _ h0, acc4_at_pos V c t h0]
    by_cases h1 : t.val = 19
    · have hc1 : cond4_1 (grid4.coords t) := (hcond4_1 t).mpr h1
      rw [leaves4_4_last V c t hc1, acc4_at_pos V c t h0]
      unfold out4_4
      iintro ⟨⟨HS, Hr, Hg⟩, Ho, ⟨%d0, H0⟩, ⟨%d1, H1⟩, ⟨%d2, H2⟩, ⟨%d3, H3⟩, ⟨%d4, H4⟩⟩
      iapply (sound_kernel4_last c Set.univ (grid4.coords t) hc0 hc1 _ _ _ _ _ _ _ _ _ _ _ _
        (iblk4 V c 0 t) (iblk4 V c 1 t) (iblk4 V c 2 t) (iblk4 V c 3 t) (acc4 V c (t.val - 1)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨HS, Hr, Hg⟩, Ho, ⟨%d0, H0⟩, ⟨%d1, H1⟩, ⟨%d2, H2⟩, ⟨%d3, H3⟩, ⟨%d4, H4⟩⟩
      iapply (sound_kernel4_mid c Set.univ (grid4.coords t) hc0 hc1 _ _ _ _ _ _ _ _ _ _ _ _
        (iblk4 V c 0 t) (iblk4 V c 1 t) (iblk4 V c 2 t) (iblk4 V c 3 t) ((dat4 V c).before 4 t d4) (acc4 V c (t.val - 1)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4

theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point: the accumulator's buffer, one of the
    scoped buffers, at some contents. -/
theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, Phi4_zero V c 0 rfl, scopedRest4_split]
  simp only [scM4, owns_whole]
  iintro ⟨Hg, HS, Hr⟩
  isplitl [HS]; · iexact HS
  isplitl [Hr]; · iexact Hr
  iexact Hg

/-- After the last point the invariant gives the scoped buffers back: the accumulator's contents are forgotten. -/
theorem hout4 (c : Dev nD) :
    (dat4 V c).Φ (Fin.last cfg4.N)
      ⊢ iprop(Pipeline.scopedRest (Ix := Unit) (Name := ℕ) (U := UR sig nD τ) (Lvl := ℕ) (Val := Elt F) spec4 c ∗ ∃ r, prngReg c r) := by
  rw [show (dat4 V c).Φ (Fin.last cfg4.N) = Phi4 V c (Fin.last cfg4.N).val from rfl,
    Phi4_pos V c _ (by rw [Fin.val_last]; have : cfg4.N = 20 := N_4; omega), scopedRest4_split]
  simp only [scM4, owns_whole]
  iintro ⟨HS, Hr, Hg⟩
  isplitl [HS Hr]
  · isplitl [HS]; · iexists _; iexact HS
    iexact Hr
  iexact Hg

end Cert.Kernel.Hand

end
-- ==== Proof.K.Run.lean ====
/- The kernel program's entry function as a chain of segments: five host stretches and five pallas_call regions.
  W(2K+1) is the valuation of the core's buffers when region K is entered (the host stretch before it applied to
  the valuation before), W(2K+2) the one it leaves: the region's arrays at what its write-backs leave, every other
  buffer untouched. Each region is entered with every unscoped buffer held at its entry valuation, the generator
  register at some state and nothing owed, and left in the same form at its exit valuation. -/
import proofs.«430643_j67972152427189_1_alg».proof.Proof.K.RunCond
import proofs.«430643_j67972152427189_1_alg».proof.Proof.K.Reg0
import proofs.«430643_j67972152427189_1_alg».proof.Proof.K.Reg1
import proofs.«430643_j67972152427189_1_alg».proof.Proof.K.Reg2
import proofs.«430643_j67972152427189_1_alg».proof.Proof.K.Reg3
import proofs.«430643_j67972152427189_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations at the segment boundaries -/

abbrev W0 : Dev nD → Valuation τ sig (Elt F) := fun c => V0 m c
abbrev W1 : Dev nD → Valuation τ sig (Elt F) := fun c => StableHlo.after hostOps0 (W0 m c)
abbrev VV1 : (c : Dev nD) → (b : Ref sig .tc) → Buf (Elt F) ((c : Thread nD τ).loc b) := fun c b => W1 m c b

/-- The valuation region 0 leaves: its arrays at what the write-backs leave, the rest as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- Region 0 changes its output array only: an input array is never written back. -/
theorem W2_keep (c : Dev nD) (b : Ref sig .tc) (hb : b ≠ main_v32) :
    W2 m c (Proc.devRef .tc b) = W1 m c (Proc.devRef .tc b) := by
  by_cases h : ∃ w, Pipeline.arrRef spec0 w = b
  · obtain ⟨w, rfl⟩ := h
    have hw : (cfg0.win w).isOut = false :=
      (by decide : ∀ w : Fin 3, Pipeline.arrRef spec0 w ≠ main_v32 → (cfg0.win w).isOut = false) w hb
    exact (W2_arr m c w).trans (((dat0 (VV1 m) c).arrAt_in w hw _).trans (A_eq0 (VV1 m) c w))
  · exact W2_of_ne m c b fun w e => h ⟨w, e⟩

abbrev W3 : Dev nD → Valuation τ sig (Elt F) := fun c => StableHlo.after hostOps1 (W2 m c)
abbrev VV3 : (c : Dev nD) → (b : Ref sig .tc) → Buf (Elt F) ((c : Thread nD τ).loc b) := fun c b => W3 m c b

/-- The valuation region 1 leaves: its arrays at what the write-backs leave, the rest as entered. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- Region 1 changes its output array only: an input array is never written back. -/
theorem W4_keep (c : Dev nD) (b : Ref sig .tc) (hb : b ≠ main_v45) :
    W4 m c (Proc.devRef .tc b) = W3 m c (Proc.devRef .tc b) := by
  by_cases h : ∃ w, Pipeline.arrRef spec1 w = b
  · obtain ⟨w, rfl⟩ := h
    have hw : (cfg1.win w).isOut = false :=
      (by decide : ∀ w : Fin 6, Pipeline.arrRef spec1 w ≠ main_v45 → (cfg1.win w).isOut = false) w hb
    exact (W4_arr m c w).trans (((dat1 (VV3 m) c).arrAt_in w hw _).trans (A_eq1 (VV3 m) c w))
  · exact W4_of_ne m c b fun w e => h ⟨w, e⟩

abbrev W5 : Dev nD → Valuation τ sig (Elt F) := fun c => StableHlo.after hostOps2 (W4 m c)
abbrev VV5 : (c : Dev nD) → (b : Ref sig .tc) → Buf (Elt F) ((c : Thread nD τ).loc b) := fun c b => W5 m c b

/-- The valuation region 2 leaves: its arrays at what the write-backs leave, the rest as entered. -/
def W6 (c : Dev nD) : Valuation τ sig (Elt F) :=
  Pipeline.withArrays spec2 c (W5 m c) fun w => (dat2 (VV5 m) c).arrAt w cfg2.N
theorem W6_arr (c : Dev nD) (w : Fin cfg2.W) :
    W6 m c (Proc.devRef .tc (Pipeline.arrRef spec2 w)) = (dat2 (VV5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VV6 : (c : Dev nD) → (b : Ref sig .tc) → Buf (Elt F) ((c : Thread nD τ).loc b) := fun c b => W6 m c b
theorem hF2 (c : Dev nD) (w : Fin cfg2.W) : (dat2 (VV5 m) c).arrAt w cfg2.N = VV6 m c (Pipeline.arrRef spec2 w) :=
  (W6_arr m c w).symm
theorem hrest2 (c : Dev nD) : ∀ b, b ∉ Finset.univ.image (Pipeline.arrRef spec2) → VV6 m c b = VV5 m c b :=
  fun b hb => W6_of_ne m c b fun w e => hb (Finset.mem_image.mpr ⟨w, Finset.mem_univ _, e⟩)
/-- Region 2 changes its output array only: an input array is never written back. -/
theorem W6_keep (c : Dev nD) (b : Ref sig .tc) (hb : b ≠ main_v58) :
    W6 m c (Proc.devRef .tc b) = W5 m c (Proc.devRef .tc b) := by
  by_cases h : ∃ w, Pipeline.arrRef spec2 w = b
  · obtain ⟨w, rfl⟩ := h
    have hw : (cfg2.win w).isOut = false :=
      (by decide : ∀ w : Fin 6, Pipeline.arrRef spec2 w ≠ main_v58 → (cfg2.win w).isOut = false) w hb
    exact (W6_arr m c w).trans (((dat2 (VV5 m) c).arrAt_in w hw _).trans (A_eq2 (VV5 m) c w))
  · exact W6_of_ne m c b fun w e => h ⟨w, e⟩

abbrev W7 : Dev nD → Valuation τ sig (Elt F) := fun c => StableHlo.after hostOps3 (W6 m c)
abbrev VV7 : (c : Dev nD) → (b : Ref sig .tc) → Buf (Elt F) ((c : Thread nD τ).loc b) := fun c b => W7 m c b

/-- The valuation region 3 leaves: its arrays at what the write-backs leave, the rest as entered. -/
def W8 (c : Dev nD) : Valuation τ sig (Elt F) :=
  Pipeline.withArrays spec3 c (W7 m c) fun w => (dat3 (VV7 m) c).arrAt w cfg3.N
theorem W8_arr (c : Dev nD) (w : Fin cfg3.W) :
    W8 m c (Proc.devRef .tc (Pipeline.arrRef spec3 w)) = (dat3 (VV7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev VV8 : (c : Dev nD) → (b : Ref sig .tc) → Buf (Elt F) ((c : Thread nD τ).loc b) := fun c b => W8 m c b
theorem hF3 (c : Dev nD) (w : Fin cfg3.W) : (dat3 (VV7 m) c).arrAt w cfg3.N = VV8 m c (Pipeline.arrRef spec3 w) :=
  (W8_arr m c w).symm
theorem hrest3 (c : Dev nD) : ∀ b, b ∉ Finset.univ.image (Pipeline.arrRef spec3) → VV8 m c b = VV7 m c b :=
  fun b hb => W8_of_ne m c b fun w e => hb (Finset.mem_image.mpr ⟨w, Finset.mem_univ _, e⟩)
/-- Region 3 changes its output array only: an input array is never written back. -/
theorem W8_keep (c : Dev nD) (b : Ref sig .tc) (hb : b ≠ main_v71) :
    W8 m c (Proc.devRef .tc b) = W7 m c (Proc.devRef .tc b) := by
  by_cases h : ∃ w, Pipeline.arrRef spec3 w = b
  · obtain ⟨w, rfl⟩ := h
    have hw : (cfg3.win w).isOut = false :=
      (by decide : ∀ w : Fin 5, Pipeline.arrRef spec3 w ≠ main_v71 → (cfg3.win w).isOut = false) w hb
    exact (W8_arr m c w).trans (((dat3 (VV7 m) c).arrAt_in w hw _).trans (A_eq3 (VV7 m) c w))
  · exact W8_of_ne m c b fun w e => h ⟨w, e⟩

abbrev W9 : Dev nD → Valuation τ sig (Elt F) := fun c => StableHlo.after hostOps4 (W8 m c)
abbrev VV9 : (c : Dev nD) → (b : Ref sig .tc) → Buf (Elt F) ((c : Thread nD τ).loc b) := fun c b => W9 m c b

/-- The valuation region 4 leaves: its arrays at what the write-backs leave, the rest as entered. -/
def W10 (c : Dev nD) : Valuation τ sig (Elt F) :=
  Pipeline.withArrays spec4 c (W9 m c) fun w => (dat4 (VV9 m) c).arrAt w cfg4.N
theorem W10_arr (c : Dev nD) (w : Fin cfg4.W) :
    W10 m c (Proc.devRef .tc (Pipeline.arrRef spec4 w)) = (dat4 (VV9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev VV10 : (c : Dev nD) → (b : Ref sig .tc) → Buf (Elt F) ((c : Thread nD τ).loc b) := fun c b => W10 m c b
theorem hF4 (c : Dev nD) (w : Fin cfg4.W) : (dat4 (VV9 m) c).arrAt w cfg4.N = VV10 m c (Pipeline.arrRef spec4 w) :=
  (W10_arr m c w).symm
theorem hrest4 (c : Dev nD) : ∀ b, b ∉ Finset.univ.image (Pipeline.arrRef spec4) → VV10 m c b = VV9 m c b :=
  fun b hb => W10_of_ne m c b fun w e => hb (Finset.mem_image.mpr ⟨w, Finset.mem_univ _, e⟩)
/-- Region 4 changes its output array only: an input array is never written back. -/
theorem W10_keep (c : Dev nD) (b : Ref sig .tc) (hb : b ≠ main_v78) :
    W10 m c (Proc.devRef .tc b) = W9 m c (Proc.devRef .tc b) := by
  by_cases h : ∃ w, Pipeline.arrRef spec4 w = b
  · obtain ⟨w, rfl⟩ := h
    have hw : (cfg4.win w).isOut = false :=
      (by decide : ∀ w : Fin 5, Pipeline.arrRef spec4 w ≠ main_v78 → (cfg4.win w).isOut = false) w hb
    exact (W10_arr m c w).trans (((dat4 (VV9 m) c).arrAt_in w hw _).trans (A_eq4 (VV9 m) c w))
  · exact W10_of_ne m c b fun w e => h ⟨w, e⟩

/-! ## The conditional frame's valuations are these -/

/-- What each region leaves in the buffer it may change, for the conditional frame's valuations. -/
def outs : Outs (F := F) := fun j r c =>
  match j with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | _ => W0 m c (Proc.devRef .tc r)

/-- An unscoped buffer is a TensorCore reference's; a valuation is read at those only. -/
theorem V1_eq (c : Dev nD) : V1 m c = W1 m c := rfl
theorem W2_valu_keep (c : Dev nD) (d : DevRef τ sig) (hd : d ≠ Proc.devRef .tc main_v32) : W2 m c d = W1 m c d := by
  by_cases h : ∃ w, Proc.devRef .tc (Pipeline.arrRef spec0 w) = d
  · obtain ⟨w, rfl⟩ := h
    exact W2_keep m c _ fun e => hd (by rw [e])
  · unfold W2 Pipeline.withArrays; rw [dif_neg h]
theorem V2_eq (c : Dev nD) : V2 m (outs m) c = W2 m c := by
  funext d
  unfold V2
  rw [V1_eq]
  by_cases hd : d = Proc.devRef .tc main_v32
  · subst hd; rw [Function.update_self]; rfl
  · rw [Function.update_of_ne hd]
    exact (W2_valu_keep m c d hd).symm
theorem V3_eq (c : Dev nD) : V3 m (outs m) c = W3 m c := by
  unfold V3; rw [V2_eq]
theorem W4_valu_keep (c : Dev nD) (d : DevRef τ sig) (hd : d ≠ Proc.devRef .tc main_v45) : W4 m c d = W3 m c d := by
  by_cases h : ∃ w, Proc.devRef .tc (Pipeline.arrRef spec1 w) = d
  · obtain ⟨w, rfl⟩ := h
    exact W4_keep m c _ fun e => hd (by rw [e])
  · unfold W4 Pipeline.withArrays; rw [dif_neg h]
theorem V4_eq (c : Dev nD) : V4 m (outs m) c = W4 m c := by
  funext d
  unfold V4
  rw [V3_eq]
  by_cases hd : d = Proc.devRef .tc main_v45
  · subst hd; rw [Function.update_self]; rfl
  · rw [Function.update_of_ne hd]
    exact (W4_valu_keep m c d hd).symm
theorem V5_eq (c : Dev nD) : V5 m (outs m) c = W5 m c := by
  unfold V5; rw [V4_eq]
theorem W6_valu_keep (c : Dev nD) (d : DevRef τ sig) (hd : d ≠ Proc.devRef .tc main_v58) : W6 m c d = W5 m c d := by
  by_cases h : ∃ w, Proc.devRef .tc (Pipeline.arrRef spec2 w) = d
  · obtain ⟨w, rfl⟩ := h
    exact W6_keep m c _ fun e => hd (by rw [e])
  · unfold W6 Pipeline.withArrays; rw [dif_neg h]
theorem V6_eq (c : Dev nD) : V6 m (outs m) c = W6 m c := by
  funext d
  unfold V6
  rw [V5_eq]
  by_cases hd : d = Proc.devRef .tc main_v58
  · subst hd; rw [Function.update_self]; rfl
  · rw [Function.update_of_ne hd]
    exact (W6_valu_keep m c d hd).symm
theorem V7_eq (c : Dev nD) : V7 m (outs m) c = W7 m c := by
  unfold V7; rw [V6_eq]
theorem W8_valu_keep (c : Dev nD) (d : DevRef τ sig) (hd : d ≠ Proc.devRef .tc main_v71) : W8 m c d = W7 m c d := by
  by_cases h : ∃ w, Proc.devRef .tc (Pipeline.arrRef spec3 w) = d
  · obtain ⟨w, rfl⟩ := h
    exact W8_keep m c _ fun e => hd (by rw [e])
  · unfold W8 Pipeline.withArrays; rw [dif_neg h]
theorem V8_eq (c : Dev nD) : V8 m (outs m) c = W8 m c := by
  funext d
  unfold V8
  rw [V7_eq]
  by_cases hd : d = Proc.devRef .tc main_v71
  · subst hd; rw [Function.update_self]; rfl
  · rw [Function.update_of_ne hd]
    exact (W8_valu_keep m c d hd).symm
theorem V9_eq (c : Dev nD) : V9 m (outs m) c = W9 m c := by
  unfold V9; rw [V8_eq]
theorem W10_valu_keep (c : Dev nD) (d : DevRef τ sig) (hd : d ≠ Proc.devRef .tc main_v78) : W10 m c d = W9 m c d := by
  by_cases h : ∃ w, Proc.devRef .tc (Pipeline.arrRef spec4 w) = d
  · obtain ⟨w, rfl⟩ := h
    exact W10_keep m c _ fun e => hd (by rw [e])
  · unfold W10 Pipeline.withArrays; rw [dif_neg h]
theorem V10_eq (c : Dev nD) : V10 m (outs m) c = W10 m c := by
  funext d
  unfold V10
  rw [V9_eq]
  by_cases hd : d = Proc.devRef .tc main_v78
  · subst hd; rw [Function.update_self]; rfl
  · rw [Function.update_of_ne hd]
    exact (W10_valu_keep m c d hd).symm

/-! ## The proof data family and the thread state -/

/-- Every pipeline's proof data, each at its region's entry valuation. -/
def pdats : (p : Fin 5) → (c : Dev nD) → Dat τ (Elt F) Unit ℕ (UR sig nD τ) ℕ (cfgs p) c
  | ⟨0, _⟩ => fun c => dat0 (VV1 m) c
  | ⟨1, _⟩ => fun c => dat1 (VV3 m) c
  | ⟨2, _⟩ => fun c => dat2 (VV5 m) c
  | ⟨3, _⟩ => fun c => dat3 (VV7 m) c
  | ⟨4, _⟩ => fun c => dat4 (VV9 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 as a segment: entered with every unscoped buffer at W1, left with them at W2. Its arrays are split
    out of the unscoped buffers at entry and put back at exit; the generator register enters the region's invariant
    and comes back; nothing is owed; the kernel has no semaphore of its own. -/
def reg0 : RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ Lv lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at W3, left with them at W4. Its arrays are split
    out of the unscoped buffers at entry and put back at exit; the generator register enters the region's invariant
    and comes back; nothing is owed; the kernel has no semaphore of its own. -/
def reg1 : RegionSeg (pcfgs (F := F)) adm (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ Lv lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at W5, left with them at W6. Its arrays are split
    out of the unscoped buffers at entry and put back at exit; the generator register enters the region's invariant
    and comes back; nothing is owed; the kernel has no semaphore of its own. -/
def reg2 : RegionSeg (pcfgs (F := F)) adm (pdats m) () defs₀ 𝒱₀ Lv lv 2 where
  win := launch2.win.to₀
  block_pos := launch2.block_pos
  stage_whole := launch2.stage_whole
  K := PEmpty
  osem k := k.elim
  ho := Pipeline.OwnSemFacts.none _
  hbody c := (body_obligation2 (VV5 m) c).loose
  hwaits := Pipeline.hwaits_of_owed_zero _ _ _ _ Lv lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV5 m c) (VV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at W7, left with them at W8. Its arrays are split
    out of the unscoped buffers at entry and put back at exit; the generator register enters the region's invariant
    and comes back; nothing is owed; the kernel has no semaphore of its own. -/
def reg3 : RegionSeg (pcfgs (F := F)) adm (pdats m) () defs₀ 𝒱₀ Lv lv 3 where
  win := launch3.win.to₀
  block_pos := launch3.block_pos
  stage_whole := launch3.stage_whole
  K := PEmpty
  osem k := k.elim
  ho := Pipeline.OwnSemFacts.none _
  hbody c := (body_obligation3 (VV7 m) c).loose
  hwaits := Pipeline.hwaits_of_owed_zero _ _ _ _ Lv lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (VV7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV7 m c) (VV8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at W9, left with them at W10. Its arrays are split
    out of the unscoped buffers at entry and put back at exit; the generator register enters the region's invariant
    and comes back; nothing is owed; the kernel has no semaphore of its own. -/
def reg4 : RegionSeg (pcfgs (F := F)) adm (pdats m) () defs₀ 𝒱₀ Lv lv 4 where
  win := launch4.win.to₀
  block_pos := launch4.block_pos
  stage_whole := launch4.stage_whole
  K := PEmpty
  osem k := k.elim
  ho := Pipeline.OwnSemFacts.none _
  hbody c := (body_obligation4 (VV9 m) c).loose
  hwaits := Pipeline.hwaits_of_owed_zero _ _ _ _ Lv lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (VV9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (VV9 m) c).Φ 0 from rfl]
    iintro ⟨Hp, -, Hr⟩
    iapply (hin4 (VV9 m) c)
    isplitl [Hp]; · iexact Hp
    iexact Hr
  hout c := by
    rw [Pipeline.ownSems0_none, show (pdats m 4 c).Φ (Fin.last _) = (dat4 (VV9 m) c).Φ (Fin.last cfg4.N) from rfl]
    iintro H
    ihave H' := (hout4 (VV9 m) c) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VV9 m c) (VV10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the launch gives a core beside its buffers makes the state that rides through the segments. -/
theorem launchR (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ R c := by
  iintro ⟨-, HO, -, Hp, -⟩
  isplitl [Hp]; · iexists _; iexact Hp
  iexists ∅; iexact HO

set_option backward.isDefEq.respectTransparency.types false in
/-- Every weakly fair execution of the entry function terminates, nothing faulting, and every unscoped buffer ends
    at the last valuation W10. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c.tc : Thread nD τ)).1, b) = W10 m c b) := by
  have h := run_cond m (emb₁ (Ix := Unit) (Val := Elt F) (Name := ℕ) (Lvl := ℕ) (A := UR sig nD τ)) () 𝒱₀ Lv lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) : sProp 𝕄)
          ⊢ bigSep Finset.univ (fun c : Dev nD => R c) :=
        bigSep_mono fun c _ => launchR ρ c
      iintro ⟨H, -⟩
      imodintro
      iapply hm
      iexact H)
    (hE5 := fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
  refine (θ_run defs _ _).mono (fun r hr c b hb => (hr c b hb).trans ?_) h
  rw [V10_eq m c]

/-! ## The argument arrays end as launched -/

/-- A buffer no host stretch writes and no region puts out holds at the end what it held at launch. -/
theorem W10_arg (c : Dev nD) (b : Ref sig .tc) (n0 : b ≠ main_v32) (n1 : b ≠ main_v45) (n2 : b ≠ main_v58) (n3 : b ≠ main_v71) (n4 : b ≠ main_v78)
    (h0 : b ∉ hostOps0_W) (h1 : b ∉ hostOps1_W) (h2 : b ∉ hostOps2_W) (h3 : b ∉ hostOps3_W) (h4 : b ∉ hostOps4_W) :
    W10 m c (Proc.devRef .tc b) = m ((c : Thread nD τ).loc b) :=
  (W10_keep m c b n4).trans <| (StableHlo.after_of_writes_sub hostOps4 _ hostOps4_writes h4).trans <|
  (W8_keep m c b n3).trans <| (StableHlo.after_of_writes_sub hostOps3 _ hostOps3_writes h3).trans <|
  (W6_keep m c b n2).trans <| (StableHlo.after_of_writes_sub hostOps2 _ hostOps2_writes h2).trans <|
  (W4_keep m c b n1).trans <| (StableHlo.after_of_writes_sub hostOps1 _ hostOps1_writes h1).trans <|
  (W2_keep m c b n0).trans <| (StableHlo.after_of_writes_sub hostOps0 _ hostOps0_writes h0).trans rfl

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide))⟩) (run m ρ)

/-- The run with the result array named: it ends at the last valuation's contents, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v78) = W10 m c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v78 (by decide)),
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide))⟩) (run m ρ)

end Cert.Kernel.Hand

end
-- ==== Proof.KI.Reg0.lean ====
/-
  First pallas_call (the feature matmul x · W1), one grid point per 5000-row tile of x.
  At a point the pipeline hands the body the tile of x (window 0), the whole weight matrix (window 1) and an
  output tile (window 2); the body stores the product of the two into the output tile. Everything is stated at
  a parameter V: the contents of the core's buffers when the region is entered.
-/
import proofs.«430643_j67972152427189_1_alg».proof.Proof.Gen.KernelIdeal.Launch
import proofs.«430643_j67972152427189_1_alg».proof.Proof.Gen.KernelIdeal.Skeleton
import proofs.«430643_j67972152427189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether it was fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body does -/

abbrev rX0 : Rect S5000x96 := Rect.unit (s := S5000x96) ![0, 0] S5000x96.size inb_S5000x96_S5000x96_0_0
abbrev rW0 : Rect S96x96 := Rect.unit (s := S96x96) ![0, 0] S96x96.size inb_S96x96_S96x96_0_0

/-- The output tile after the body: its one whole-tile store of the product of the two loaded blocks. -/
def out0_2 (x0 : Vec F S5000x96 .f32) (x1 : Vec F S96x96 .f32) : Vec F S5000x96 .f32 :=
  View.canon [⟨rX0, k0_pay1 (View.ld x0 rX0) (View.ld x1 rW0)⟩]

theorem cover0_2 (p0 : Vec F S5000x96 .f32) (y : S5000x96.Idx) :
    ∃ pc ∈ ([⟨rX0, p0⟩] : List (View.Piece (Elt F) S5000x96 .f32)), y ∈ pc.1.set :=
  View.cover_of_tiled [⟨rX0, p0⟩] S5000x96.size (by rfl) y

set_option maxHeartbeats 1000000 in
/-- The body on whole staging memrefs: the inputs are left as read, the output tile ends at out0_2 of them. -/
theorem sound_kernel0 (c : Dev nD) (E : Set ℕ) (i : grid0.Coords) (arg1 : Memref sig .tc .vmem S5000x96 .f32) (harg1 : arg1.IsWhole)
    (arg2 : Memref sig .tc .vmem S96x96 .f32) (harg2 : arg2.IsWhole) (arg3 : Memref sig .tc .vmem S5000x96 .f32) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The pipeline's proof data on core c: the arrays as the region finds them; after the body each input window
    still holds its block and the output window holds out0_2 of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Second pallas_call (the first graph-convolution layer's epilogue fused with the next feature matmul), one grid
  point per 5000-row tile. At a point the pipeline hands the body a tile of the aggregated features (window 0), a
  tile of the self features (window 1), a tile of the per-row scale (window 2), the whole bias row (window 3), the
  whole weight matrix (window 4) and an output tile (window 5); the body stores
  relu(x0 + x1 * scale + bias) · W into the output tile. Everything is stated at a parameter V: the contents of
  the core's buffers when the region is entered.
-/
import proofs.«430643_j67972152427189_1_alg».proof.Proof.Gen.KernelIdeal.Launch
import proofs.«430643_j67972152427189_1_alg».proof.Proof.Gen.KernelIdeal.Skeleton
import proofs.«430643_j67972152427189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, whether it was fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body does -/

abbrev rX1 : Rect S5000x96 := Rect.unit (s := S5000x96) ![0, 0] S5000x96.size inb_S5000x96_S5000x96_0_0
abbrev rD1 : Rect S5000x1 := Rect.unit (s := S5000x1) ![0, 0] S5000x1.size inb_S5000x1_S5000x1_0_0
abbrev rB1 : Rect S1x96 := Rect.unit (s := S1x96) ![0, 0] S1x96.size inb_S1x96_S1x96_0_0
abbrev rW1 : Rect S96x96 := Rect.unit (s := S96x96) ![0, 0] S96x96.size inb_S96x96_S96x96_0_0

/-- The output tile after the body: its one whole-tile store of the payload of the five loaded blocks. -/
def out1_5 (x0 : Vec F S5000x96 .f32) (x1 : Vec F S5000x96 .f32) (x2 : Vec F S5000x1 .f32) (x3 : Vec F S1x96 .f32)
    (x4 : Vec F S96x96 .f32) : Vec F S5000x96 .f32 :=
  View.canon [⟨rX1, k1_pay1 (View.ld x0 rX1) (View.ld x1 rX1) (View.ld x2 rD1) (View.ld x3 rB1) (View.ld x4 rW1)⟩]

theorem cover1_5 (p0 : Vec F S5000x96 .f32) (y : S5000x96.Idx) :
    ∃ pc ∈ ([⟨rX1, p0⟩] : List (View.Piece (Elt F) S5000x96 .f32)), y ∈ pc.1.set :=
  View.cover_of_tiled [⟨rX1, p0⟩] S5000x96.size (by rfl) y

set_option maxHeartbeats 2000000 in
/-- The body on whole staging memrefs: the inputs are left as read, the output tile ends at out1_5 of them. -/
theorem sound_kernel1 (c : Dev nD) (E : Set ℕ) (i : grid1.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S96x96 .f32) (harg5 : arg5.IsWhole)
    (arg6 : Memref sig .tc .vmem S5000x96 .f32) (harg6 : arg6.IsWhole)
    (x0 : Vec F S5000x96 .f32) (x1 : Vec F S5000x96 .f32) (x2 : Vec F S5000x1 .f32) (x3 : Vec F S1x96 .f32) (x4 : Vec F S96x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- The pipeline's proof data on core c: the arrays as the region finds them; after the body each input window
    still holds its block and the output window holds out1_5 of the five blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Third pallas_call: the second graph-convolution layer's epilogue fused with the next feature matmul; the same
  kernel as the second pallas_call on the next layer's arrays. -/
import proofs.«430643_j67972152427189_1_alg».proof.Proof.Gen.KernelIdeal.Launch
import proofs.«430643_j67972152427189_1_alg».proof.Proof.Gen.KernelIdeal.Skeleton
import proofs.«430643_j67972152427189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point, whether it was fetched there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body does -/

abbrev rX2 : Rect S5000x96 := Rect.unit (s := S5000x96) ![0, 0] S5000x96.size inb_S5000x96_S5000x96_0_0
abbrev rD2 : Rect S5000x1 := Rect.unit (s := S5000x1) ![0, 0] S5000x1.size inb_S5000x1_S5000x1_0_0
abbrev rB2 : Rect S1x96 := Rect.unit (s := S1x96) ![0, 0] S1x96.size inb_S1x96_S1x96_0_0
abbrev rW2 : Rect S96x96 := Rect.unit (s := S96x96) ![0, 0] S96x96.size inb_S96x96_S96x96_0_0

/-- The output tile after the body: its one whole-tile store of the payload of the five loaded blocks. -/
def out2_5 (x0 : Vec F S5000x96 .f32) (x1 : Vec F S5000x96 .f32) (x2 : Vec F S5000x1 .f32) (x3 : Vec F S1x96 .f32)
    (x4 : Vec F S96x96 .f32) : Vec F S5000x96 .f32 :=
  View.canon [⟨rX2, k2_pay1 (View.ld x0 rX2) (View.ld x1 rX2) (View.ld x2 rD2) (View.ld x3 rB2) (View.ld x4 rW2)⟩]

theorem cover2_5 (p0 : Vec F S5000x96 .f32) (y : S5000x96.Idx) :
    ∃ pc ∈ ([⟨rX2, p0⟩] : List (View.Piece (Elt F) S5000x96 .f32)), y ∈ pc.1.set :=
  View.cover_of_tiled [⟨rX2, p0⟩] S5000x96.size (by rfl) y

set_option maxHeartbeats 2000000 in
/-- The body on whole staging memrefs: the inputs are left as read, the output tile ends at out2_5 of them. -/
theorem sound_kernel2 (c : Dev nD) (E : Set ℕ) (i : grid2.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S96x96 .f32) (harg5 : arg5.IsWhole)
    (arg6 : Memref sig .tc .vmem S5000x96 .f32) (harg6 : arg6.IsWhole)
    (x0 : Vec F S5000x96 .f32) (x1 : Vec F S5000x96 .f32) (x2 : Vec F S5000x1 .f32) (x3 : Vec F S1x96 .f32) (x4 : Vec F S96x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- The pipeline's proof data on core c: the arrays as the region finds them; after the body each input window
    still holds its block and the output window holds out2_5 of the five blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Fourth pallas_call (the last layer's combine: agg + h · dinv + bias), one grid point per 5000-row tile.
  At a point the pipeline hands the body a tile of each of the two 5000x96 operands (windows 0 and 1), the
  matching tile of the 5000x1 column (window 2), the whole 1x96 row (window 3) and an output tile (window 4);
  the body stores the combination of the four into the output tile. Everything is stated at a parameter V:
  the contents of the core's buffers when the region is entered.
-/
import proofs.«430643_j67972152427189_1_alg».proof.Proof.Gen.KernelIdeal.Launch
import proofs.«430643_j67972152427189_1_alg».proof.Proof.Gen.KernelIdeal.Skeleton
import proofs.«430643_j67972152427189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every point, whether it was fetched there or kept from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the body does -/

abbrev rX3 : Rect S5000x96 := Rect.unit (s := S5000x96) ![0, 0] S5000x96.size inb_S5000x96_S5000x96_0_0
abbrev rD3 : Rect S5000x1 := Rect.unit (s := S5000x1) ![0, 0] S5000x1.size inb_S5000x1_S5000x1_0_0
abbrev rB3 : Rect S1x96 := Rect.unit (s := S1x96) ![0, 0] S1x96.size inb_S1x96_S1x96_0_0

/-- The output tile after the body: its one whole-tile store of the combination of the four loaded blocks. -/
def out3_4 (x0 : Vec F S5000x96 .f32) (x1 : Vec F S5000x96 .f32) (x2 : Vec F S5000x1 .f32) (x3 : Vec F S1x96 .f32) : Vec F S5000x96 .f32 :=
  View.canon [⟨rX3, k3_pay1 (View.ld x0 rX3) (View.ld x1 rX3) (View.ld x2 rD3) (View.ld x3 rB3)⟩]

theorem cover3_4 (p0 : Vec F S5000x96 .f32) (y : S5000x96.Idx) :
    ∃ pc ∈ ([⟨rX3, p0⟩] : List (View.Piece (Elt F) S5000x96 .f32)), y ∈ pc.1.set :=
  View.cover_of_tiled [⟨rX3, p0⟩] S5000x96.size (by rfl) y

set_option maxHeartbeats 1000000 in
/-- The body on whole staging memrefs: the inputs are left as read, the output tile ends at out3_4 of them. -/
theorem sound_kernel3 (c : Dev nD) (E : Set ℕ) (i : grid3.Coords) (arg1 : Memref sig .tc .vmem S5000x96 .f32) (harg1 : arg1.IsWhole)
    (arg2 : Memref sig .tc .vmem S5000x96 .f32) (harg2 : arg2.IsWhole) (arg3 : Memref sig .tc .vmem S5000x1 .f32) (harg3 : arg3.IsWhole)
    (arg4 : Memref sig .tc .vmem S1x96 .f32) (harg4 : arg4.IsWhole) (arg5 : Memref sig .tc .vmem S5000x96 .f32) (harg5 : arg5.IsWhole)
    (x0 : Vec F S5000x96 .f32) (x1 : Vec F S5000x96 .f32) (x2 : Vec F S5000x1 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__postproc_kernel i arg1 harg1 arg2 harg2 arg3 harg3 arg4 harg4 arg5 harg5) K := by
  simp only [cc3__postproc_kernel_eq_skeleton]; unfold cc3__postproc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data -/

/-- The pipeline's proof data on core c: the arrays as the region finds them; after the body each input window
    still holds its block and the output window holds out3_4 of the four blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Fifth pallas_call (the mean pool and the final projection), one grid point per 5000-row tile of the node features.
  At a point the pipeline hands the body the tile of h (window 0), the tile of graph ids (window 1), the per-graph
  counts (window 2), the projection matrix (window 3) and the output block (window 4); beside them the body holds an
  accumulator of per-graph sums that it carries from point to point. At the first point the body zeroes the
  accumulator; at every point it adds to it the one-hot product of the tile; at the last point it divides by the
  counts, projects, and stores the result to the output block, which no earlier point touches. Everything is stated
  at a parameter V: the contents of the core's buffers when the region is entered.
-/
import proofs.«430643_j67972152427189_1_alg».proof.Proof.Gen.KernelIdeal.Launch
import proofs.«430643_j67972152427189_1_alg».proof.Proof.Gen.KernelIdeal.Skeleton
import proofs.«430643_j67972152427189_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window w at grid point t, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window holds its block at every point, whether it was fetched there or kept from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, decided over the grid -/

/-- The condition under which the body zeroes the accumulator: the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The condition under which the body stores the output block: the grid coordinate is 19. -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last point the output window is idle and is not written back; at the last point it is live. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## What the body does -/

abbrev rH4 : Rect S5000x96 := Rect.unit (s := S5000x96) ![0, 0] S5000x96.size inb_S5000x96_S5000x96_0_0
abbrev rB4 : Rect S5000x1 := Rect.unit (s := S5000x1) ![0, 0] S5000x1.size inb_S5000x1_S5000x1_0_0
abbrev rC4 : Rect S256x1 := Rect.unit (s := S256x1) ![0, 0] S256x1.size inb_S256x1_S256x1_0_0
abbrev rW4 : Rect S96x16 := Rect.unit (s := S96x16) ![0, 0] S96x16.size inb_S96x16_S96x16_0_0
abbrev rO4 : Rect S256x16 := Rect.unit (s := S256x16) ![0, 0] S256x16.size inb_S256x16_S256x16_0_0
abbrev rS4 : Rect S256x96 := Rect.unit (s := S256x96) ![0, 0] S256x96.size inb_S256x96_S256x96_0_0

theorem hz4 : (![0, 0] : Fin 2 → Nat) = fun _ => 0 := by
  funext a; match a with | ⟨0, _⟩ => rfl | ⟨1, _⟩ => rfl

theorem cover4_S (p0 : Vec F S256x96 .f32) (L : List (View.Piece (Elt F) S256x96 .f32)) (y : S256x96.Idx) :
    ∃ pc ∈ ((⟨rS4, p0⟩ : View.Piece (Elt F) S256x96 .f32) :: L), y ∈ pc.1.set :=
  ⟨_, List.mem_cons_self, View.mem_set_unit_zero hz4 inb_S256x96_S256x96_0_0 y⟩
theorem cover4_O (p0 : Vec F S256x16 .f32) (L : List (View.Piece (Elt F) S256x16 .f32)) (y : S256x16.Idx) :
    ∃ pc ∈ ((⟨rO4, p0⟩ : View.Piece (Elt F) S256x16 .f32) :: L), y ∈ pc.1.set :=
  ⟨_, List.mem_cons_self, View.mem_set_unit_zero hz4 inb_S256x16_S256x16_0_0 y⟩

set_option maxHeartbeats 1000000 in
/-- The body at the first point, on whole memrefs: it zeroes the accumulator and adds the tile's one-hot product;
    the inputs are left as read and the output block is left as found. -/
theorem sound_kernel4_first (c : Dev nD) (E : Set ℕ) (i : grid4.Coords) (hc0 : cond4_0 i) (hc1 : ¬cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (x4 : Vec F S256x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay2 x1 x0 (k4_pay1 (F := F)))) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover4_S _ _), View.canon_cons_unit_zero (S := S256x96) hz4]
  simp only [View.readAt_eq_ld, View.readCov_unit_zero (S := S256x96) _ hz4, View.ld_unit_zero (S := S5000x1) hz4,
    View.ld_unit_zero (S := S5000x96) hz4]

set_option maxHeartbeats 1000000 in
/-- The body at a point that is neither the first nor the last: it adds the tile's one-hot product to the accumulator. -/
theorem sound_kernel4_mid (c : Dev nD) (E : Set ℕ) (i : grid4.Coords) (hc0 : ¬cond4_0 i) (hc1 : ¬cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (x4 : Vec F S256x16 .f32) (a : Vec F S256x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay2 x1 x0 a)) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  rw [View.read_writes_eq_canon _ _ _ (cover4_S _ _), View.canon_unit_zero (S := S256x96) hz4]
  simp only [View.readAt_eq_ld, View.ld_unit_zero (S := S5000x1) hz4, View.ld_unit_zero (S := S5000x96) hz4,
    View.ld_unit_zero (S := S256x96) hz4]

set_option maxHeartbeats 1000000 in
/-- The body at the last point: it adds the tile's one-hot product to the accumulator, then stores to the output
    block the projection of the accumulator divided by the counts. -/
theorem sound_kernel4_last (c : Dev nD) (E : Set ℕ) (i : grid4.Coords) (hc0 : ¬cond4_0 i) (hc1 : cond4_1 i)
    (arg1 : Memref sig .tc .vmem S5000x96 .f32) (harg1 : arg1.IsWhole)
    (arg2 : Memref sig .tc .vmem S5000x1 .i32) (harg2 : arg2.IsWhole) (arg3 : Memref sig .tc .vmem S256x1 .f32) (harg3 : arg3.IsWhole)
    (arg4 : Memref sig .tc .vmem S96x16 .f32) (harg4 : arg4.IsWhole) (arg5 : Memref sig .tc .vmem S256x16 .f32) (harg5 : arg5.IsWhole)
    (arg6 : Memref sig .tc .vmem S256x96 .f32) (harg6 : arg6.IsWhole)
    (x0 : Vec F S5000x96 .f32) (x1 : Vec F S5000x1 .i32) (x2 : Vec F S256x1 .f32) (x3 : Vec F S96x16 .f32) (a : Vec F S256x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k4_pay3 (k4_pay2 x1 x0 a) x2 x3)
            ∗ owns (c : Thread nD τ) arg6 fullShare (k4_pay2 x1 x0 a)) -∗ K ⟨⟩))
      ⊢ wp frame (wpE (defs₀ (F := F)) Variants.none c none) E (cc4__pool_final_kernel i arg1 harg1 arg2 harg2 arg3 harg3 arg4 harg4 arg5 harg5 arg6 harg6) K := by
  simp only [cc4__pool_final_kernel_eq_skeleton]; unfold cc4__pool_final_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover4_O _ _), View.canon_unit_zero (S := S256x16) hz4]
    simp only [View.readAt_eq_ld, View.readCov_unit_zero (S := S256x96) _ hz4, View.ld_unit_zero (S := S5000x1) hz4,
      View.ld_unit_zero (S := S5000x96) hz4, View.ld_unit_zero (S := S256x96) hz4, View.ld_unit_zero (S := S256x1) hz4,
      View.ld_unit_zero (S := S96x16) hz4]
  iexists _; isplitr
  swap; · iexact H6
  ipureintro
  sl_unfold_words
  rw [View.read_writes_eq_canon _ _ _ (cover4_S _ _), View.canon_unit_zero (S := S256x96) hz4]
  simp only [View.readAt_eq_ld, View.ld_unit_zero (S := S5000x1) hz4, View.ld_unit_zero (S := S5000x96) hz4,
    View.ld_unit_zero (S := S256x96) hz4]

/-! ## The accumulator, point by point -/

theorem N4_pos : 0 < cfg4.N := lt_of_lt_of_eq (by omega : 0 < 20) (show cfg4.N = 20 from N_4).symm

/-- The accumulator after point n: at the first point the tile's one-hot product added to zeros, at each later point
    the tile's one-hot product added to what the point before left. -/
def acc4 (c : Dev nD) : ℕ → Vec F S256x96 .f32
  | 0 => k4_pay2 (iblk4 V c 1 ⟨0, N4_pos⟩) (iblk4 V c 0 ⟨0, N4_pos⟩) (k4_pay1 (F := F))
  | n + 1 => if h : n + 1 < cfg4.N then k4_pay2 (iblk4 V c 1 ⟨n + 1, h⟩) (iblk4 V c 0 ⟨n + 1, h⟩) (acc4 c n) else acc4 c n

theorem acc4_zero (c : Dev nD) :
    acc4 V c 0 = k4_pay2 (iblk4 V c 1 ⟨0, N4_pos⟩) (iblk4 V c 0 ⟨0, N4_pos⟩) (k4_pay1 (F := F)) := by
  unfold acc4; rfl

theorem acc4_succ (c : Dev nD) (n : ℕ) (h : n + 1 < cfg4.N) :
    acc4 V c (n + 1) = k4_pay2 (iblk4 V c 1 ⟨n + 1, h⟩) (iblk4 V c 0 ⟨n + 1, h⟩) (acc4 V c n) := by
  rw [acc4, dif_pos h]

/-- The accumulator after the first point, stated at the point. -/
theorem acc4_at_zero (c : Dev nD) (t : Fin cfg4.N) (h : t.val = 0) :
    acc4 V c t.val = k4_pay2 (iblk4 V c 1 t) (iblk4 V c 0 t) (k4_pay1 (F := F)) := by
  obtain ⟨n, hn⟩ := t
  cases n with
  | zero => exact acc4_zero V c
  | succ n => exact absurd h (Nat.succ_ne_zero n)

/-- The accumulator after a later point, stated at the point. -/
theorem acc4_at_pos (c : Dev nD) (t : Fin cfg4.N) (h : t.val ≠ 0) :
    acc4 V c t.val = k4_pay2 (iblk4 V c 1 t) (iblk4 V c 0 t) (acc4 V c (t.val - 1)) := by
  obtain ⟨n, hn⟩ := t
  cases n with
  | zero => exact absurd rfl h
  | succ n => exact acc4_succ V c n hn

/-- The output block after the last point's store: the projection of the accumulator divided by the counts. -/
def out4_4 (a : Vec F S256x96 .f32) (cnt : Vec F S256x1 .f32) (w : Vec F S96x16 .f32) : Vec F S256x16 .f32 :=
  k4_pay3 a cnt w

/-! ## The proof data -/

/-- The accumulator's buffer, passed to the body beside the windows. -/
abbrev scM4 : Memref sig .tc .vmem S256x96 .f32 := Memref.whole cc4_scratch0

/-- The invariant between points: before the first point the accumulator's buffer holds anything; after point n it
    holds acc4 n; beside it the other scoped buffers and the generator register, untouched. -/
def Phi4 (c : Dev nD) : ℕ → sProp 𝕄
  | 0 => iprop((∃ d, owns (c : Thread nD τ) scM4 fullShare d)
      ∗ Pipeline.scopedRestBut (Ix := Unit) (Name := ℕ) (U := UR sig nD τ) (Lvl := ℕ) (Val := Elt F) spec4 c [cc4_scratch0]
      ∗ ∃ r, prngReg c r)
  | n + 1 => iprop(owns (c : Thread nD τ) scM4 fullShare (acc4 V c n)
      ∗ Pipeline.scopedRestBut (Ix := Unit) (Name := ℕ) (U := UR sig nD τ) (Lvl := ℕ) (Val := Elt F) spec4 c [cc4_scratch0]
      ∗ ∃ r, prngReg c r)

theorem Phi4_zero (c : Dev nD) (n : ℕ) (h : n = 0) :
    Phi4 V c n = iprop((∃ d, owns (c : Thread nD τ) scM4 fullShare d)
      ∗ Pipeline.scopedRestBut (Ix := Unit) (Name := ℕ) (U := UR sig nD τ) (Lvl := ℕ) (Val := Elt F) spec4 c [cc4_scratch0]
      ∗ ∃ r, prngReg c r) := by
  subst h; rfl

theorem Phi4_succ (c : Dev nD) (n : ℕ) :
    Phi4 V c (n + 1) = iprop(owns (c : Thread nD τ) scM4 fullShare (acc4 V c n)
      ∗ Pipeline.scopedRestBut (Ix := Unit) (Name := ℕ) (U := UR sig nD τ) (Lvl := ℕ) (Val := Elt F) spec4 c [cc4_scratch0]
      ∗ ∃ r, prngReg c r) := rfl

theorem Phi4_pos (c : Dev nD) (n : ℕ) (h : n ≠ 0) :
    Phi4 V c n = iprop(owns (c : Thread nD τ) scM4 fullShare (acc4 V c (n - 1))
      ∗ Pipeline.scopedRestBut (Ix := Unit) (Name := ℕ) (U := UR sig nD τ) (Lvl := ℕ) (Val := Elt F) spec4 c [cc4_scratch0]
      ∗ ∃ r, prngReg c r) := by
  cases n with
  | zero => exact absurd rfl h
  | succ n => rfl

/-- The pipeline's proof data on core c: the arrays as the region finds them; after the body each input window still
    holds its block; the output window, where the body stores to it, holds out4_4 of the accumulator and the two
    whole-array blocks; between points the accumulator's buffer holds acc4. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (acc4 V c t.val) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (acc4 V c t.val) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem Phi4_castSucc (c : Dev nD) (t : Fin cfg4.N) : (dat4 V c).Φ t.castSucc = Phi4 V c t.val := by
  dsimp only [dat4]; simp only [Fin.coe_castSucc]
theorem Phi4_fsucc (c : Dev nD) (t : Fin cfg4.N) : (dat4 V c).Φ t.succ = Phi4 V c (t.val + 1) := by
  dsimp only [dat4]; simp only [Fin.val_succ]

/-- An input window's buffer after the body holds its block. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]
/-- At the last point the output window's buffer holds the stored projection. -/
theorem leaves4_4_last (c : Dev nD) (t : Fin cfg4.N) (h : cond4_1 (grid4.coords t)) :
    (dat4 V c).leavesExact 4 t
      = owns (c : Thread nD τ) (st4_4 t) fullShare (out4_4 (acc4 V c t.val) (iblk4 V c 2 t) (iblk4 V c 3 t)) := by
  unfold Dat.leavesExact; rw [liveAt4_4 t h, after4_4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 2000000 in
/-- The body at any point: the inputs' buffers hold their blocks; the point is the first, a middle one or the last,
    and in each case the body runs as stated above, the invariant handing it the accumulator at what the point
    before left (at anything at the first point) and taking it back at this point's value; away from the last point
    the output block is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [Phi4_castSucc, Phi4_fsucc, Phi4_succ, leaves4_0, leaves4_1, leaves4_2, leaves4_3]
  have hN : t.val < 20 := lt_of_lt_of_eq t.isLt (show cfg4.N = 20 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1)]
    rw [Phi4_zero V c _ h0, acc4_at_zero V c t h0]
    iintro ⟨⟨HS, Hr, Hg⟩, Ho, ⟨%d0, H0⟩, ⟨%d1, H1⟩, ⟨%d2, H2⟩, ⟨%d3, H3⟩, ⟨%d4, H4⟩⟩
    iapply (sound_kernel4_first c Set.univ (grid4.coords t) hc0 hc1 _ _ _ _ _ _ _ _ _ _ _ _
      (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexists d4; iexact H4
  · have hc0 : ¬cond4_0 (grid4.coords t) := fun h => h0 ((hcond4_0 t).mp h)
    rw [Phi4_pos V c _ h0, acc4_at_pos V c t h0]
    by_cases h1 : t.val = 19
    · have hc1 : cond4_1 (grid4.coords t) := (hcond4_1 t).mpr h1
      rw [leaves4_4_last V c t hc1, acc4_at_pos V c t h0]
      unfold out4_4
      iintro ⟨⟨HS, Hr, Hg⟩, Ho, ⟨%d0, H0⟩, ⟨%d1, H1⟩, ⟨%d2, H2⟩, ⟨%d3, H3⟩, ⟨%d4, H4⟩⟩
      iapply (sound_kernel4_last c Set.univ (grid4.coords t) hc0 hc1 _ _ _ _ _ _ _ _ _ _ _ _
        (iblk4 V c 0 t) (iblk4 V c 1 t) (iblk4 V c 2 t) (iblk4 V c 3 t) (acc4 V c (t.val - 1)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨HS, Hr, Hg⟩, Ho, ⟨%d0, H0⟩, ⟨%d1, H1⟩, ⟨%d2, H2⟩, ⟨%d3, H3⟩, ⟨%d4, H4⟩⟩
      iapply (sound_kernel4_mid c Set.univ (grid4.coords t) hc0 hc1 _ _ _ _ _ _ _ _ _ _ _ _
        (iblk4 V c 0 t) (iblk4 V c 1 t) (iblk4 V c 2 t) (iblk4 V c 3 t) ((dat4 V c).before 4 t d4) (acc4 V c (t.val - 1)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4

theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point: the accumulator's buffer, one of the
    scoped buffers, at some contents. -/
theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, Phi4_zero V c 0 rfl, scopedRest4_split]
  simp only [scM4, owns_whole]
  iintro ⟨Hg, HS, Hr⟩
  isplitl [HS]; · iexact HS
  isplitl [Hr]; · iexact Hr
  iexact Hg

/-- After the last point the invariant gives the scoped buffers back: the accumulator's contents are forgotten. -/
theorem hout4 (c : Dev nD) :
    (dat4 V c).Φ (Fin.last cfg4.N)
      ⊢ iprop(Pipeline.scopedRest (Ix := Unit) (Name := ℕ) (U := UR sig nD τ) (Lvl := ℕ) (Val := Elt F) spec4 c ∗ ∃ r, prngReg c r) := by
  rw [show (dat4 V c).Φ (Fin.last cfg4.N) = Phi4 V c (Fin.last cfg4.N).val from rfl,
    Phi4_pos V c _ (by rw [Fin.val_last]; have : cfg4.N = 20 := N_4; omega), scopedRest4_split]
  simp only [scM4, owns_whole]
  iintro ⟨HS, Hr, Hg⟩
  isplitl [HS Hr]
  · isplitl [HS]; · iexists _; iexact HS
    iexact Hr
  iexact Hg

end Cert.KernelIdeal.Hand

end
-- ==== Proof.KI.Run.lean ====
/- The kernel program's entry function as a chain of segments: five host stretches and five pallas_call regions.
  W(2K+1) is the valuation of the core's buffers when region K is entered (the host stretch before it applied to
  the valuation before), W(2K+2) the one it leaves: the region's arrays at what its write-backs leave, every other
  buffer untouched. Each region is entered with every unscoped buffer held at its entry valuation, the generator
  register at some state and nothing owed, and left in the same form at its exit valuation. -/
import proofs.«430643_j67972152427189_1_alg».proof.Proof.KI.RunCond
import proofs.«430643_j67972152427189_1_alg».proof.Proof.KI.Reg0
import proofs.«430643_j67972152427189_1_alg».proof.Proof.KI.Reg1
import proofs.«430643_j67972152427189_1_alg».proof.Proof.KI.Reg2
import proofs.«430643_j67972152427189_1_alg».proof.Proof.KI.Reg3
import proofs.«430643_j67972152427189_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations at the segment boundaries -/

abbrev W0 : Dev nD → Valuation τ sig (Elt F) := fun c => V0 m c
abbrev W1 : Dev nD → Valuation τ sig (Elt F) := fun c => StableHlo.after hostOps0 (W0 m c)
abbrev VV1 : (c : Dev nD) → (b : Ref sig .tc) → Buf (Elt F) ((c : Thread nD τ).loc b) := fun c b => W1 m c b

/-- The valuation region 0 leaves: its arrays at what the write-backs leave, the rest as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- Region 0 changes its output array only: an input array is never written back. -/
theorem W2_keep (c : Dev nD) (b : Ref sig .tc) (hb : b ≠ main_v32) :
    W2 m c (Proc.devRef .tc b) = W1 m c (Proc.devRef .tc b) := by
  by_cases h : ∃ w, Pipeline.arrRef spec0 w = b
  · obtain ⟨w, rfl⟩ := h
    have hw : (cfg0.win w).isOut = false :=
      (by decide : ∀ w : Fin 3, Pipeline.arrRef spec0 w ≠ main_v32 → (cfg0.win w).isOut = false) w hb
    exact (W2_arr m c w).trans (((dat0 (VV1 m) c).arrAt_in w hw _).trans (A_eq0 (VV1 m) c w))
  · exact W2_of_ne m c b fun w e => h ⟨w, e⟩

abbrev W3 : Dev nD → Valuation τ sig (Elt F) := fun c => StableHlo.after hostOps1 (W2 m c)
abbrev VV3 : (c : Dev nD) → (b : Ref sig .tc) → Buf (Elt F) ((c : Thread nD τ).loc b) := fun c b => W3 m c b

/-- The valuation region 1 leaves: its arrays at what the write-backs leave, the rest as entered. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- Region 1 changes its output array only: an input array is never written back. -/
theorem W4_keep (c : Dev nD) (b : Ref sig .tc) (hb : b ≠ main_v45) :
    W4 m c (Proc.devRef .tc b) = W3 m c (Proc.devRef .tc b) := by
  by_cases h : ∃ w, Pipeline.arrRef spec1 w = b
  · obtain ⟨w, rfl⟩ := h
    have hw : (cfg1.win w).isOut = false :=
      (by decide : ∀ w : Fin 6, Pipeline.arrRef spec1 w ≠ main_v45 → (cfg1.win w).isOut = false) w hb
    exact (W4_arr m c w).trans (((dat1 (VV3 m) c).arrAt_in w hw _).trans (A_eq1 (VV3 m) c w))
  · exact W4_of_ne m c b fun w e => h ⟨w, e⟩

abbrev W5 : Dev nD → Valuation τ sig (Elt F) := fun c => StableHlo.after hostOps2 (W4 m c)
abbrev VV5 : (c : Dev nD) → (b : Ref sig .tc) → Buf (Elt F) ((c : Thread nD τ).loc b) := fun c b => W5 m c b

/-- The valuation region 2 leaves: its arrays at what the write-backs leave, the rest as entered. -/
def W6 (c : Dev nD) : Valuation τ sig (Elt F) :=
  Pipeline.withArrays spec2 c (W5 m c) fun w => (dat2 (VV5 m) c).arrAt w cfg2.N
theorem W6_arr (c : Dev nD) (w : Fin cfg2.W) :
    W6 m c (Proc.devRef .tc (Pipeline.arrRef spec2 w)) = (dat2 (VV5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VV6 : (c : Dev nD) → (b : Ref sig .tc) → Buf (Elt F) ((c : Thread nD τ).loc b) := fun c b => W6 m c b
theorem hF2 (c : Dev nD) (w : Fin cfg2.W) : (dat2 (VV5 m) c).arrAt w cfg2.N = VV6 m c (Pipeline.arrRef spec2 w) :=
  (W6_arr m c w).symm
theorem hrest2 (c : Dev nD) : ∀ b, b ∉ Finset.univ.image (Pipeline.arrRef spec2) → VV6 m c b = VV5 m c b :=
  fun b hb => W6_of_ne m c b fun w e => hb (Finset.mem_image.mpr ⟨w, Finset.mem_univ _, e⟩)
/-- Region 2 changes its output array only: an input array is never written back. -/
theorem W6_keep (c : Dev nD) (b : Ref sig .tc) (hb : b ≠ main_v58) :
    W6 m c (Proc.devRef .tc b) = W5 m c (Proc.devRef .tc b) := by
  by_cases h : ∃ w, Pipeline.arrRef spec2 w = b
  · obtain ⟨w, rfl⟩ := h
    have hw : (cfg2.win w).isOut = false :=
      (by decide : ∀ w : Fin 6, Pipeline.arrRef spec2 w ≠ main_v58 → (cfg2.win w).isOut = false) w hb
    exact (W6_arr m c w).trans (((dat2 (VV5 m) c).arrAt_in w hw _).trans (A_eq2 (VV5 m) c w))
  · exact W6_of_ne m c b fun w e => h ⟨w, e⟩

abbrev W7 : Dev nD → Valuation τ sig (Elt F) := fun c => StableHlo.after hostOps3 (W6 m c)
abbrev VV7 : (c : Dev nD) → (b : Ref sig .tc) → Buf (Elt F) ((c : Thread nD τ).loc b) := fun c b => W7 m c b

/-- The valuation region 3 leaves: its arrays at what the write-backs leave, the rest as entered. -/
def W8 (c : Dev nD) : Valuation τ sig (Elt F) :=
  Pipeline.withArrays spec3 c (W7 m c) fun w => (dat3 (VV7 m) c).arrAt w cfg3.N
theorem W8_arr (c : Dev nD) (w : Fin cfg3.W) :
    W8 m c (Proc.devRef .tc (Pipeline.arrRef spec3 w)) = (dat3 (VV7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev VV8 : (c : Dev nD) → (b : Ref sig .tc) → Buf (Elt F) ((c : Thread nD τ).loc b) := fun c b => W8 m c b
theorem hF3 (c : Dev nD) (w : Fin cfg3.W) : (dat3 (VV7 m) c).arrAt w cfg3.N = VV8 m c (Pipeline.arrRef spec3 w) :=
  (W8_arr m c w).symm
theorem hrest3 (c : Dev nD) : ∀ b, b ∉ Finset.univ.image (Pipeline.arrRef spec3) → VV8 m c b = VV7 m c b :=
  fun b hb => W8_of_ne m c b fun w e => hb (Finset.mem_image.mpr ⟨w, Finset.mem_univ _, e⟩)
/-- Region 3 changes its output array only: an input array is never written back. -/
theorem W8_keep (c : Dev nD) (b : Ref sig .tc) (hb : b ≠ main_v71) :
    W8 m c (Proc.devRef .tc b) = W7 m c (Proc.devRef .tc b) := by
  by_cases h : ∃ w, Pipeline.arrRef spec3 w = b
  · obtain ⟨w, rfl⟩ := h
    have hw : (cfg3.win w).isOut = false :=
      (by decide : ∀ w : Fin 5, Pipeline.arrRef spec3 w ≠ main_v71 → (cfg3.win w).isOut = false) w hb
    exact (W8_arr m c w).trans (((dat3 (VV7 m) c).arrAt_in w hw _).trans (A_eq3 (VV7 m) c w))
  · exact W8_of_ne m c b fun w e => h ⟨w, e⟩

abbrev W9 : Dev nD → Valuation τ sig (Elt F) := fun c => StableHlo.after hostOps4 (W8 m c)
abbrev VV9 : (c : Dev nD) → (b : Ref sig .tc) → Buf (Elt F) ((c : Thread nD τ).loc b) := fun c b => W9 m c b

/-- The valuation region 4 leaves: its arrays at what the write-backs leave, the rest as entered. -/
def W10 (c : Dev nD) : Valuation τ sig (Elt F) :=
  Pipeline.withArrays spec4 c (W9 m c) fun w => (dat4 (VV9 m) c).arrAt w cfg4.N
theorem W10_arr (c : Dev nD) (w : Fin cfg4.W) :
    W10 m c (Proc.devRef .tc (Pipeline.arrRef spec4 w)) = (dat4 (VV9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev VV10 : (c : Dev nD) → (b : Ref sig .tc) → Buf (Elt F) ((c : Thread nD τ).loc b) := fun c b => W10 m c b
theorem hF4 (c : Dev nD) (w : Fin cfg4.W) : (dat4 (VV9 m) c).arrAt w cfg4.N = VV10 m c (Pipeline.arrRef spec4 w) :=
  (W10_arr m c w).symm
theorem hrest4 (c : Dev nD) : ∀ b, b ∉ Finset.univ.image (Pipeline.arrRef spec4) → VV10 m c b = VV9 m c b :=
  fun b hb => W10_of_ne m c b fun w e => hb (Finset.mem_image.mpr ⟨w, Finset.mem_univ _, e⟩)
/-- Region 4 changes its output array only: an input array is never written back. -/
theorem W10_keep (c : Dev nD) (b : Ref sig .tc) (hb : b ≠ main_v78) :
    W10 m c (Proc.devRef .tc b) = W9 m c (Proc.devRef .tc b) := by
  by_cases h : ∃ w, Pipeline.arrRef spec4 w = b
  · obtain ⟨w, rfl⟩ := h
    have hw : (cfg4.win w).isOut = false :=
      (by decide : ∀ w : Fin 5, Pipeline.arrRef spec4 w ≠ main_v78 → (cfg4.win w).isOut = false) w hb
    exact (W10_arr m c w).trans (((dat4 (VV9 m) c).arrAt_in w hw _).trans (A_eq4 (VV9 m) c w))
  · exact W10_of_ne m c b fun w e => h ⟨w, e⟩

/-! ## The conditional frame's valuations are these -/

/-- What each region leaves in the buffer it may change, for the conditional frame's valuations. -/
def outs : Outs (F := F) := fun j r c =>
  match j with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | _ => W0 m c (Proc.devRef .tc r)

/-- An unscoped buffer is a TensorCore reference's; a valuation is read at those only. -/
theorem V1_eq (c : Dev nD) : V1 m c = W1 m c := rfl
theorem W2_valu_keep (c : Dev nD) (d : DevRef τ sig) (hd : d ≠ Proc.devRef .tc main_v32) : W2 m c d = W1 m c d := by
  by_cases h : ∃ w, Proc.devRef .tc (Pipeline.arrRef spec0 w) = d
  · obtain ⟨w, rfl⟩ := h
    exact W2_keep m c _ fun e => hd (by rw [e])
  · unfold W2 Pipeline.withArrays; rw [dif_neg h]
theorem V2_eq (c : Dev nD) : V2 m (outs m) c = W2 m c := by
  funext d
  unfold V2
  rw [V1_eq]
  by_cases hd : d = Proc.devRef .tc main_v32
  · subst hd; rw [Function.update_self]; rfl
  · rw [Function.update_of_ne hd]
    exact (W2_valu_keep m c d hd).symm
theorem V3_eq (c : Dev nD) : V3 m (outs m) c = W3 m c := by
  unfold V3; rw [V2_eq]
theorem W4_valu_keep (c : Dev nD) (d : DevRef τ sig) (hd : d ≠ Proc.devRef .tc main_v45) : W4 m c d = W3 m c d := by
  by_cases h : ∃ w, Proc.devRef .tc (Pipeline.arrRef spec1 w) = d
  · obtain ⟨w, rfl⟩ := h
    exact W4_keep m c _ fun e => hd (by rw [e])
  · unfold W4 Pipeline.withArrays; rw [dif_neg h]
theorem V4_eq (c : Dev nD) : V4 m (outs m) c = W4 m c := by
  funext d
  unfold V4
  rw [V3_eq]
  by_cases hd : d = Proc.devRef .tc main_v45
  · subst hd; rw [Function.update_self]; rfl
  · rw [Function.update_of_ne hd]
    exact (W4_valu_keep m c d hd).symm
theorem V5_eq (c : Dev nD) : V5 m (outs m) c = W5 m c := by
  unfold V5; rw [V4_eq]
theorem W6_valu_keep (c : Dev nD) (d : DevRef τ sig) (hd : d ≠ Proc.devRef .tc main_v58) : W6 m c d = W5 m c d := by
  by_cases h : ∃ w, Proc.devRef .tc (Pipeline.arrRef spec2 w) = d
  · obtain ⟨w, rfl⟩ := h
    exact W6_keep m c _ fun e => hd (by rw [e])
  · unfold W6 Pipeline.withArrays; rw [dif_neg h]
theorem V6_eq (c : Dev nD) : V6 m (outs m) c = W6 m c := by
  funext d
  unfold V6
  rw [V5_eq]
  by_cases hd : d = Proc.devRef .tc main_v58
  · subst hd; rw [Function.update_self]; rfl
  · rw [Function.update_of_ne hd]
    exact (W6_valu_keep m c d hd).symm
theorem V7_eq (c : Dev nD) : V7 m (outs m) c = W7 m c := by
  unfold V7; rw [V6_eq]
theorem W8_valu_keep (c : Dev nD) (d : DevRef τ sig) (hd : d ≠ Proc.devRef .tc main_v71) : W8 m c d = W7 m c d := by
  by_cases h : ∃ w, Proc.devRef .tc (Pipeline.arrRef spec3 w) = d
  · obtain ⟨w, rfl⟩ := h
    exact W8_keep m c _ fun e => hd (by rw [e])
  · unfold W8 Pipeline.withArrays; rw [dif_neg h]
theorem V8_eq (c : Dev nD) : V8 m (outs m) c = W8 m c := by
  funext d
  unfold V8
  rw [V7_eq]
  by_cases hd : d = Proc.devRef .tc main_v71
  · subst hd; rw [Function.update_self]; rfl
  · rw [Function.update_of_ne hd]
    exact (W8_valu_keep m c d hd).symm
theorem V9_eq (c : Dev nD) : V9 m (outs m) c = W9 m c := by
  unfold V9; rw [V8_eq]
theorem W10_valu_keep (c : Dev nD) (d : DevRef τ sig) (hd : d ≠ Proc.devRef .tc main_v78) : W10 m c d = W9 m c d := by
  by_cases h : ∃ w, Proc.devRef .tc (Pipeline.arrRef spec4 w) = d
  · obtain ⟨w, rfl⟩ := h
    exact W10_keep m c _ fun e => hd (by rw [e])
  · unfold W10 Pipeline.withArrays; rw [dif_neg h]
theorem V10_eq (c : Dev nD) : V10 m (outs m) c = W10 m c := by
  funext d
  unfold V10
  rw [V9_eq]
  by_cases hd : d = Proc.devRef .tc main_v78
  · subst hd; rw [Function.update_self]; rfl
  · rw [Function.update_of_ne hd]
    exact (W10_valu_keep m c d hd).symm

/-! ## The proof data family and the thread state -/

/-- Every pipeline's proof data, each at its region's entry valuation. -/
def pdats : (p : Fin 5) → (c : Dev nD) → Dat τ (Elt F) Unit ℕ (UR sig nD τ) ℕ (cfgs p) c
  | ⟨0, _⟩ => fun c => dat0 (VV1 m) c
  | ⟨1, _⟩ => fun c => dat1 (VV3 m) c
  | ⟨2, _⟩ => fun c => dat2 (VV5 m) c
  | ⟨3, _⟩ => fun c => dat3 (VV7 m) c
  | ⟨4, _⟩ => fun c => dat4 (VV9 m) c
abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 as a segment: entered with every unscoped buffer at W1, left with them at W2. Its arrays are split
    out of the unscoped buffers at entry and put back at exit; the generator register enters the region's invariant
    and comes back; nothing is owed; the kernel has no semaphore of its own. -/
def reg0 : RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ Lv lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at W3, left with them at W4. Its arrays are split
    out of the unscoped buffers at entry and put back at exit; the generator register enters the region's invariant
    and comes back; nothing is owed; the kernel has no semaphore of its own. -/
def reg1 : RegionSeg (pcfgs (F := F)) adm (pdats m) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ Lv lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at W5, left with them at W6. Its arrays are split
    out of the unscoped buffers at entry and put back at exit; the generator register enters the region's invariant
    and comes back; nothing is owed; the kernel has no semaphore of its own. -/
def reg2 : RegionSeg (pcfgs (F := F)) adm (pdats m) () defs₀ 𝒱₀ Lv lv 2 where
  win := launch2.win.to₀
  block_pos := launch2.block_pos
  stage_whole := launch2.stage_whole
  K := PEmpty
  osem k := k.elim
  ho := Pipeline.OwnSemFacts.none _
  hbody c := (body_obligation2 (VV5 m) c).loose
  hwaits := Pipeline.hwaits_of_owed_zero _ _ _ _ Lv lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VV5 m c) (VV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at W7, left with them at W8. Its arrays are split
    out of the unscoped buffers at entry and put back at exit; the generator register enters the region's invariant
    and comes back; nothing is owed; the kernel has no semaphore of its own. -/
def reg3 : RegionSeg (pcfgs (F := F)) adm (pdats m) () defs₀ 𝒱₀ Lv lv 3 where
  win := launch3.win.to₀
  block_pos := launch3.block_pos
  stage_whole := launch3.stage_whole
  K := PEmpty
  osem k := k.elim
  ho := Pipeline.OwnSemFacts.none _
  hbody c := (body_obligation3 (VV7 m) c).loose
  hwaits := Pipeline.hwaits_of_owed_zero _ _ _ _ Lv lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (VV7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VV7 m c) (VV8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at W9, left with them at W10. Its arrays are split
    out of the unscoped buffers at entry and put back at exit; the generator register enters the region's invariant
    and comes back; nothing is owed; the kernel has no semaphore of its own. -/
def reg4 : RegionSeg (pcfgs (F := F)) adm (pdats m) () defs₀ 𝒱₀ Lv lv 4 where
  win := launch4.win.to₀
  block_pos := launch4.block_pos
  stage_whole := launch4.stage_whole
  K := PEmpty
  osem k := k.elim
  ho := Pipeline.OwnSemFacts.none _
  hbody c := (body_obligation4 (VV9 m) c).loose
  hwaits := Pipeline.hwaits_of_owed_zero _ _ _ _ Lv lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (VV9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (VV9 m) c).Φ 0 from rfl]
    iintro ⟨Hp, -, Hr⟩
    iapply (hin4 (VV9 m) c)
    isplitl [Hp]; · iexact Hp
    iexact Hr
  hout c := by
    rw [Pipeline.ownSems0_none, show (pdats m 4 c).Φ (Fin.last _) = (dat4 (VV9 m) c).Φ (Fin.last cfg4.N) from rfl]
    iintro H
    ihave H' := (hout4 (VV9 m) c) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VV9 m c) (VV10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the launch gives a core beside its buffers makes the state that rides through the segments. -/
theorem launchR (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ R c := by
  iintro ⟨-, HO, -, Hp, -⟩
  isplitl [Hp]; · iexists _; iexact Hp
  iexists ∅; iexact HO

set_option backward.isDefEq.respectTransparency.types false in
/-- Every weakly fair execution of the entry function terminates, nothing faulting, and every unscoped buffer ends
    at the last valuation W10. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c.tc : Thread nD τ)).1, b) = W10 m c b) := by
  have h := run_cond m (emb₁ (Ix := Unit) (Val := Elt F) (Name := ℕ) (Lvl := ℕ) (A := UR sig nD τ)) () 𝒱₀ Lv lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) : sProp 𝕄)
          ⊢ bigSep Finset.univ (fun c : Dev nD => R c) :=
        bigSep_mono fun c _ => launchR ρ c
      iintro ⟨H, -⟩
      imodintro
      iapply hm
      iexact H)
    (hE5 := fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
  refine (θ_run defs _ _).mono (fun r hr c b hb => (hr c b hb).trans ?_) h
  rw [V10_eq m c]

/-! ## The argument arrays end as launched -/

/-- A buffer no host stretch writes and no region puts out holds at the end what it held at launch. -/
theorem W10_arg (c : Dev nD) (b : Ref sig .tc) (n0 : b ≠ main_v32) (n1 : b ≠ main_v45) (n2 : b ≠ main_v58) (n3 : b ≠ main_v71) (n4 : b ≠ main_v78)
    (h0 : b ∉ hostOps0_W) (h1 : b ∉ hostOps1_W) (h2 : b ∉ hostOps2_W) (h3 : b ∉ hostOps3_W) (h4 : b ∉ hostOps4_W) :
    W10 m c (Proc.devRef .tc b) = m ((c : Thread nD τ).loc b) :=
  (W10_keep m c b n4).trans <| (StableHlo.after_of_writes_sub hostOps4 _ hostOps4_writes h4).trans <|
  (W8_keep m c b n3).trans <| (StableHlo.after_of_writes_sub hostOps3 _ hostOps3_writes h3).trans <|
  (W6_keep m c b n2).trans <| (StableHlo.after_of_writes_sub hostOps2 _ hostOps2_writes h2).trans <|
  (W4_keep m c b n1).trans <| (StableHlo.after_of_writes_sub hostOps1 _ hostOps1_writes h1).trans <|
  (W2_keep m c b n0).trans <| (StableHlo.after_of_writes_sub hostOps0 _ hostOps0_writes h0).trans rfl

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide))⟩) (run m ρ)

/-- The run with the result array named: it ends at the last valuation's contents, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v78) = W10 m c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v78 (by decide)),
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide)),
    (h c _ (mem_uc main_arg6 (by decide))).trans (W10_arg m c main_arg6 (by decide) (by decide) (by decide) (by decide) (by decide) (by decide) (by decide) (by decide) (by decide) (by decide)),
    (h c _ (mem_uc main_arg7 (by decide))).trans (W10_arg m c main_arg7 (by decide) (by decide) (by decide) (by decide) (by decide) (by decide) (by decide) (by decide) (by decide) (by decide)),
    (h c _ (mem_uc main_arg8 (by decide))).trans (W10_arg m c main_arg8 (by decide) (by decide) (by decide) (by decide) (by decide) (by decide) (by decide) (by decide) (by decide) (by decide)),
    (h c _ (mem_uc main_arg9 (by decide))).trans (W10_arg m c main_arg9 (by decide) (by decide) (by decide) (by decide) (by decide) (by decide) (by decide) (by decide) (by decide) (by decide))⟩) (run m ρ)

end Cert.KernelIdeal.Hand

end
-- ==== Proof.Bridge.Host.lean ====
/-
  The host operations the kernel program and the reference share, compared as whole functions, and the one
  place they differ.

  Both programs slice edge_index into its source row and its destination row, count in-degrees by a scatter-add
  of ones at the destinations, take dinv = rsqrt(deg + 1), and aggregate h[src] * dinv[src] * dinv[dst] by a
  scatter-add at the destinations. Two spellings differ.
  (a) The reference scatters the degree at the NORMALISED destination (a negative index has the node count
      added); the kernel scatters it at the raw destination. Where every destination is nonnegative the
      normalisation is the identity, and the added precondition says exactly that.
  (b) The kernel makes the per-edge coefficient a column by a reshape, the reference by a broadcast along the
      new unit axis. The two are the same function.
  The last section reads the kernel's other column and row reshapes at an index.
-/
import proofs.«430643_j67972152427189_1_alg».proof.KernelIdeal
import proofs.«430643_j67972152427189_1_alg».proof.ReferenceIdeal
import proofs.«430643_j67972152427189_1_alg».proof.Pre_finite_inputs
import Idealize.ShloMosaic.Lib.ValueIdx
import Idealize.ShloMosaic.Lib.Pipeline.Value
import Idealize.ShloMosaic.Lib.ValueLayout
import Idealize.ShloMosaic.Lib.Affine
import Idealize.ShloMosaic.Lib.ReduceAll

noncomputable section

namespace Cert.Bridge

open Idealize.ShloMosaic Idealize.ShloMosaic.ValueIdx

variable {F : FTy → Type} [FloatOps F]

/-! ## Facts at any size -/

/-- Index normalisation (add the extent where the index is negative) leaves a vector of nonnegative words alone. -/
theorem norm_of_nonneg {s : Shape} (hb : (⟨0, ![]⟩ : Shape).BroadcastsInDim s ![]) (N : BitVec 32) (v : IVec s 32)
    (h : ∀ e, IntOp.cmpi .sge (v e) 0#32 = 1#1) :
    select (cmpi .slt v (broadcastInDim s ![] hb (constantI ⟨0, ![]⟩ 32 0#32)))
      (addi v (broadcastInDim s ![] hb (constantI ⟨0, ![]⟩ 32 N))) v = v := by
  funext e
  have h1 : ¬ (IntOp.cmpi .slt (v e) 0#32 = 1#1) := fun hc => by
    have a := IntOp.cmpi_slt.1 hc
    have b := IntOp.cmpi_sge.1 (h e)
    omega
  show Scalar.select (IntOp.cmpi .slt (v e) 0#32) _ (v e) = v e
  exact if_neg h1

/-- A vector reshaped to a column reads, at (i, u), the vector at i. -/
theorem shapeCast_col_apply {α : Type} {n : Nat} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along a new trailing unit axis reads, at (i, u), the vector at i. -/
theorem bcast_col_apply {α : Type} {n : Nat} (x : (⟨1, ![n]⟩ : Shape).Idx → α)
    (hb : (⟨1, ![n]⟩ : Shape).BroadcastsInDim ⟨2, ![n, 1]⟩ ![0]) (i : Fin n) (u : Fin 1) :
    broadcastInDim ⟨2, ![n, 1]⟩ ![0] hb x (ix2 i u) = x (ix1 i) :=
  broadcastInDim_apply ![0] hb x _ _ (fun a => by
    have ha : a = 0 := Subsingleton.elim _ _
    subst ha
    show i.val = if n = 1 then 0 else i.val
    have hi := i.isLt
    split
    · next h1 => omega
    · rfl)

/-- Making a vector a column by a reshape and by a broadcast along the new unit axis give the same column. -/
theorem col_eq_gen {α : Type} {n : Nat} (x : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ x h = broadcastInDim ⟨2, ![n, 1]⟩ ![0] hb x := by
  funext j
  have e : j = ix2 (n0 := n) (n1 := 1) (j 0) (j 1) := eq_ix2 j
  calc shapeCast ⟨2, ![n, 1]⟩ x h j
      = shapeCast ⟨2, ![n, 1]⟩ x h (ix2 (n0 := n) (n1 := 1) (j 0) (j 1)) := congrArg _ e
    _ = x (ix1 (j 0)) := shapeCast_col_apply x h (j 0) (j 1)
    _ = broadcastInDim ⟨2, ![n, 1]⟩ ![0] hb x (ix2 (n0 := n) (n1 := 1) (j 0) (j 1)) := (bcast_col_apply x hb (j 0) (j 1)).symm
    _ = broadcastInDim ⟨2, ![n, 1]⟩ ![0] hb x j := congrArg _ e.symm

/-! ## The kernel program's host terms, as printed -/

section K
open Cert.KernelIdeal Cert.KernelIdeal.Facts₀
variable [Cert.KernelIdeal.Facts₀]

/-- The source row of edge_index (kernel %1). -/
def kSrc (ei : IVec S2x800000 32) : IVec S800000 32 :=
  shapeCast S800000 (extractStridedSlice S1x800000 ![0, 0] ei slices_S2x800000_S1x800000_0_0) shapeCasts_S1x800000_S800000
/-- The destination row of edge_index (kernel %3). -/
def kDst (ei : IVec S2x800000 32) : IVec S800000 32 :=
  shapeCast S800000 (extractStridedSlice S1x800000 ![1, 0] ei slices_S2x800000_S1x800000_1_0) shapeCasts_S1x800000_S800000
/-- Index normalisation as the kernel program prints it (kernel %17, %24, %37). -/
def kNorm (v : IVec S800000 32) : IVec S800000 32 :=
  select (cmpi .slt v (broadcastInDim S800000 ![] bcast_S_S800000 (constantI S_ 32 0#32)))
    (addi v (broadcastInDim S800000 ![] bcast_S_S800000 (constantI S_ 32 100000#32))) v
/-- The in-degree count (kernel %7): ones scattered at the RAW destinations. -/
def kDeg (ei : IVec S2x800000 32) : FVec F S100000 .f32 :=
  Host.scatterAdd scatter_S100000_S800000x1_S800000_n_0_0_1
    (broadcastInDim S100000 ![] bcast_S_S100000 (constant (F := F) S_ .f32 0x00000000#32))
    (broadcastInDim S800000x1 ![0] bcast_S800000_S800000x1_0 (kDst ei))
    (broadcastInDim S800000 ![] bcast_S_S800000 (constant (F := F) S_ .f32 0x3F800000#32))
/-- dinv = rsqrt(deg + 1) (kernel %10). -/
def kDinv (ei : IVec S2x800000 32) : FVec F S100000 .f32 :=
  Host.rsqrt (addf (kDeg (F := F) ei) (broadcastInDim S100000 ![] bcast_S_S100000 (constant (F := F) S_ .f32 0x3F800000#32)))
/-- The per-edge coefficient dinv[src] * dinv[dst] (kernel %27). -/
def kCoef (ei : IVec S2x800000 32) (dinv : FVec F S100000 .f32) : FVec F S800000 .f32 :=
  mulf (Host.gather gather_S100000_S800000x1_S800000_n_0_n_n_0_1_1 dinv (broadcastInDim S800000x1 ![0] bcast_S800000_S800000x1_0 (kNorm (kSrc ei))))
    (Host.gather gather_S100000_S800000x1_S800000_n_0_n_n_0_1_1 dinv (broadcastInDim S800000x1 ![0] bcast_S800000_S800000x1_0 (kNorm (kDst ei))))
/-- One layer's aggregation (kernel %44 over %28): the coefficient made a column by a RESHAPE. -/
def kAgg (ei : IVec S2x800000 32) (dinv : FVec F S100000 .f32) (h : FVec F S100000x96 .f32) : FVec F S100000x96 .f32 :=
  Host.scatterAdd scatter_S100000x96_S800000x1_S800000x96_1_0_0_1
    (broadcastInDim S100000x96 ![] bcast_S_S100000x96 (constant (F := F) S_ .f32 0x00000000#32))
    (broadcastInDim S800000x1 ![0] bcast_S800000_S800000x1_0 (kDst ei))
    (mulf (Host.gather gather_S100000x96_S800000x1_S800000x96_1_0_n_n_0_1_196 h (broadcastInDim S800000x1 ![0] bcast_S800000_S800000x1_0 (kNorm (kSrc ei))))
      (broadcastInDim S800000x96 ![0, 1] bcast_S800000x1_S800000x96_0_1
        (shapeCast S800000x1 (kCoef ei dinv) shapeCasts_S800000_S800000x1)))
/-- Nodes per graph (kernel %75): ones scattered at the batch ids. -/
def kCounts (batch : IVec S100000 32) : FVec F S256 .f32 :=
  Host.scatterAdd scatter_S256_S100000x1_S100000_n_0_0_1
    (broadcastInDim S256 ![] bcast_S_S256 (constant (F := F) S_ .f32 0x00000000#32))
    (broadcastInDim S100000x1 ![0] bcast_S100000_S100000x1_0 batch)
    (broadcastInDim S100000 ![] bcast_S_S100000 (constant (F := F) S_ .f32 0x3F800000#32))

end K

/-! ## The reference's host terms, as printed -/

section R
open Cert.ReferenceIdeal Cert.ReferenceIdeal.Facts₀
variable [Cert.ReferenceIdeal.Facts₀]

/-- The source row of edge_index (reference %1). -/
def rSrc (ei : IVec S2x800000 32) : IVec S800000 32 :=
  shapeCast S800000 (extractStridedSlice S1x800000 ![0, 0] ei slices_S2x800000_S1x800000_0_0) shapeCasts_S1x800000_S800000
/-- The destination row of edge_index (reference %3). -/
def rDst (ei : IVec S2x800000 32) : IVec S800000 32 :=
  shapeCast S800000 (extractStridedSlice S1x800000 ![1, 0] ei slices_S2x800000_S1x800000_1_0) shapeCasts_S1x800000_S800000
/-- Index normalisation as the reference prints it (reference %9, %21, %28, %36). -/
def rNorm (v : IVec S800000 32) : IVec S800000 32 :=
  select (cmpi .slt v (broadcastInDim S800000 ![] bcast_S_S800000 (constantI S_ 32 0#32)))
    (addi v (broadcastInDim S800000 ![] bcast_S_S800000 (constantI S_ 32 100000#32))) v
/-- The in-degree count (reference %12): ones scattered at the NORMALISED destinations. -/
def rDeg' (ei : IVec S2x800000 32) : FVec F S100000 .f32 :=
  Host.scatterAdd scatter_S100000_S800000x1_S800000_n_0_0_1
    (broadcastInDim S100000 ![] bcast_S_S100000 (constant (F := F) S_ .f32 0x00000000#32))
    (broadcastInDim S800000x1 ![0] bcast_S800000_S800000x1_0 (rNorm (rDst ei)))
    (broadcastInDim S800000 ![] bcast_S_S800000 (constant (F := F) S_ .f32 0x3F800000#32))
/-- dinv = rsqrt(deg + 1) (reference %15). -/
def rDinv' (ei : IVec S2x800000 32) : FVec F S100000 .f32 :=
  Host.rsqrt (addf (rDeg' (F := F) ei) (broadcastInDim S100000 ![] bcast_S_S100000 (constant (F := F) S_ .f32 0x3F800000#32)))
/-- The per-edge coefficient dinv[src] * dinv[dst] (reference %31). -/
def rCoef' (ei : IVec S2x800000 32) (dinv : FVec F S100000 .f32) : FVec F S800000 .f32 :=
  mulf (Host.gather gather_S100000_S800000x1_S800000_n_0_n_n_0_1_1 dinv (broadcastInDim S800000x1 ![0] bcast_S800000_S800000x1_0 (rNorm (rSrc ei))))
    (Host.gather gather_S100000_S800000x1_S800000_n_0_n_n_0_1_1 dinv (broadcastInDim S800000x1 ![0] bcast_S800000_S800000x1_0 (rNorm (rDst ei))))
/-- One layer's aggregation (reference %44 over %39): the coefficient made a column by a BROADCAST. -/
def rAgg' (ei : IVec S2x800000 32) (dinv : FVec F S100000 .f32) (h : FVec F S100000x96 .f32) : FVec F S100000x96 .f32 :=
  Host.scatterAdd scatter_S100000x96_S800000x1_S800000x96_1_0_0_1
    (broadcastInDim S100000x96 ![] bcast_S_S100000x96 (constant (F := F) S_ .f32 0x00000000#32))
    (broadcastInDim S800000x1 ![0] bcast_S800000_S800000x1_0 (rDst ei))
    (mulf (Host.gather gather_S100000x96_S800000x1_S800000x96_1_0_n_n_0_1_196 h (broadcastInDim S800000x1 ![0] bcast_S800000_S800000x1_0 (rNorm (rSrc ei))))
      (broadcastInDim S800000x96 ![0, 1] bcast_S800000x1_S800000x96_0_1
        (broadcastInDim S800000x1 ![0] bcast_S800000_S800000x1_0 (rCoef' ei dinv))))
/-- Nodes per graph (reference %159): ones scattered at the batch ids. -/
def rCounts' (batch : IVec S100000 32) : FVec F S256 .f32 :=
  Host.scatterAdd scatter_S256_S100000x1_S100000_n_0_0_1
    (broadcastInDim S256 ![] bcast_S_S256 (constant (F := F) S_ .f32 0x00000000#32))
    (broadcastInDim S100000x1 ![0] bcast_S100000_S100000x1_0 batch)
    (broadcastInDim S100000 ![] bcast_S_S100000 (constant (F := F) S_ .f32 0x3F800000#32))

end R

/-! ## The two programs' dimension records are the same records -/

section Same
variable [hK : Cert.KernelIdeal.Facts₀] [hR : Cert.ReferenceIdeal.Facts₀]

theorem scatter_deg_eq : Cert.KernelIdeal.scatter_S100000_S800000x1_S800000_n_0_0_1 = Cert.ReferenceIdeal.scatter_S100000_S800000x1_S800000_n_0_0_1 := rfl
theorem scatter_agg_eq : Cert.KernelIdeal.scatter_S100000x96_S800000x1_S800000x96_1_0_0_1 = Cert.ReferenceIdeal.scatter_S100000x96_S800000x1_S800000x96_1_0_0_1 := rfl
theorem scatter_counts_eq : Cert.KernelIdeal.scatter_S256_S100000x1_S100000_n_0_0_1 = Cert.ReferenceIdeal.scatter_S256_S100000x1_S100000_n_0_0_1 := rfl
theorem gather_vec_eq : Cert.KernelIdeal.gather_S100000_S800000x1_S800000_n_0_n_n_0_1_1 = Cert.ReferenceIdeal.gather_S100000_S800000x1_S800000_n_0_n_n_0_1_1 := rfl
theorem gather_rows_eq : Cert.KernelIdeal.gather_S100000x96_S800000x1_S800000x96_1_0_n_n_0_1_196 = Cert.ReferenceIdeal.gather_S100000x96_S800000x1_S800000x96_1_0_n_n_0_1_196 := rfl

/-! ## What the two programs share -/

/-- (1) The two rows of edge_index are the same expressions in both programs. -/
theorem kSrc_eq (ei : IVec Cert.KernelIdeal.S2x800000 32) : kSrc ei = rSrc ei := rfl
theorem kDst_eq (ei : IVec Cert.KernelIdeal.S2x800000 32) : kDst ei = rDst ei := rfl
theorem kNorm_eq (v : IVec Cert.KernelIdeal.S800000 32) : kNorm v = rNorm v := rfl

/-- Normalisation is the identity on a vector of nonnegative words. -/
theorem rNorm_of_nonneg (v : IVec Cert.ReferenceIdeal.S800000 32) (h : ∀ e, IntOp.cmpi .sge (v e) 0#32 = 1#1) : rNorm v = v :=
  norm_of_nonneg _ _ v h
theorem kNorm_of_nonneg (v : IVec Cert.KernelIdeal.S800000 32) (h : ∀ e, IntOp.cmpi .sge (v e) 0#32 = 1#1) : kNorm v = v :=
  norm_of_nonneg _ _ v h

/-- (2) Where every destination is nonnegative, the kernel's raw-index degree is the reference's. -/
theorem kDeg_eq (ei : IVec Cert.KernelIdeal.S2x800000 32) (h : ∀ e, IntOp.cmpi .sge (kDst ei e) 0#32 = 1#1) :
    kDeg (F := F) ei = rDeg' (F := F) ei := by
  unfold rDeg'
  rw [rNorm_of_nonneg (rDst ei) h]
  rfl
theorem kDinv_eq (ei : IVec Cert.KernelIdeal.S2x800000 32) (h : ∀ e, IntOp.cmpi .sge (kDst ei e) 0#32 = 1#1) :
    kDinv (F := F) ei = rDinv' (F := F) ei := by
  unfold kDinv rDinv'
  rw [kDeg_eq ei h]

/-- The coefficient column: a reshape in the kernel program, a broadcast in the reference. -/
theorem col_eq {α : Type} (x : Cert.KernelIdeal.S800000.Idx → α) :
    shapeCast Cert.KernelIdeal.S800000x1 x Cert.KernelIdeal.Facts₀.shapeCasts_S800000_S800000x1
      = broadcastInDim Cert.ReferenceIdeal.S800000x1 ![0] Cert.ReferenceIdeal.Facts₀.bcast_S800000_S800000x1_0 x :=
  col_eq_gen x _ _

theorem kCoef_eq (ei : IVec Cert.KernelIdeal.S2x800000 32) (dinv : FVec F Cert.KernelIdeal.S100000 .f32) :
    kCoef ei dinv = rCoef' ei dinv := rfl

/-- (4) The aggregation chains are the same function of (edge_index, dinv, h). -/
theorem kAgg_eq (ei : IVec Cert.KernelIdeal.S2x800000 32) (dinv : FVec F Cert.KernelIdeal.S100000 .f32)
    (h : FVec F Cert.KernelIdeal.S100000x96 .f32) : kAgg ei dinv h = rAgg' ei dinv h := by
  unfold kAgg
  rw [col_eq (kCoef ei dinv)]
  rfl

/-- The node counts are the same function of batch. -/
theorem kCounts_eq (batch : IVec Cert.KernelIdeal.S100000 32) : kCounts (F := F) batch = rCounts' (F := F) batch := rfl

end Same

/-! ## (3) The precondition gives nonnegative destinations -/

section Pre
variable [hK : Cert.KernelIdeal.Facts₀] [hP : Cert.Pre_finite_inputs.Facts]

/-- The last conjunct of the printed precondition, all(edge_index[1] >= 0), read at an edge. -/
theorem dst_nonneg (a0 : FVec F Cert.Pre_finite_inputs.S100000x96 .f32) (ei : IVec Cert.Pre_finite_inputs.S2x800000 32)
    (a2 : IVec Cert.Pre_finite_inputs.S100000 32) (a3 : FVec F Cert.Pre_finite_inputs.S96x96 .f32) (a4 : FVec F Cert.Pre_finite_inputs.S96 .f32)
    (a5 : FVec F Cert.Pre_finite_inputs.S96x96 .f32) (a6 : FVec F Cert.Pre_finite_inputs.S96 .f32) (a7 : FVec F Cert.Pre_finite_inputs.S96x96 .f32)
    (a8 : FVec F Cert.Pre_finite_inputs.S96 .f32) (a9 : FVec F Cert.Pre_finite_inputs.S96x16 .f32)
    (h : Cert.Pre_finite_inputs.fn (F := F) a0 ei a2 a3 a4 a5 a6 a7 a8 a9 = fun _ => 1#1) :
    ∀ e, IntOp.cmpi .sge (kDst ei e) 0#32 = 1#1 := by
  intro e
  haveI : Subsingleton Cert.Pre_finite_inputs.S_.Idx := ⟨fun a b => funext fun d => d.elim0⟩
  have h0 := congrFun h ix0
  dsimp only [Cert.Pre_finite_inputs.fn, Cert.Pre_finite_inputs.fn_part1, Cert.Pre_finite_inputs.fn_part2] at h0
  have h1 := (IntOp.andi_eq_one.1 h0).2
  exact Host.reduce_andi_all _ _ _ _ _ h1 e

end Pre

/-! ## (5) The kernel's other column and row reshapes, read at an index -/

section Cols
variable [hK : Cert.KernelIdeal.Facts₀]

/-- A 100000-vector (dinv², or the i32 batch ids) as a column reads the vector at the row. -/
theorem col100000_apply {α : Type} (x : Cert.KernelIdeal.S100000.Idx → α) (n : Fin 100000) :
    shapeCast Cert.KernelIdeal.S100000x1 x Cert.KernelIdeal.Facts₀.shapeCasts_S100000_S100000x1 (ix2 n (0 : Fin 1)) = x (ix1 n) :=
  shapeCast_col_apply x _ n 0
/-- The edge coefficient as a column reads the coefficient at the edge. -/
theorem col800000_apply {α : Type} (x : Cert.KernelIdeal.S800000.Idx → α) (e : Fin 800000) :
    shapeCast Cert.KernelIdeal.S800000x1 x Cert.KernelIdeal.Facts₀.shapeCasts_S800000_S800000x1 (ix2 e (0 : Fin 1)) = x (ix1 e) :=
  shapeCast_col_apply x _ e 0
/-- The node counts as a column read the count at the graph. -/
theorem col256_apply {α : Type} (x : Cert.KernelIdeal.S256.Idx → α) (g : Fin 256) :
    shapeCast Cert.KernelIdeal.S256x1 x Cert.KernelIdeal.Facts₀.shapeCasts_S256_S256x1 (ix2 g (0 : Fin 1)) = x (ix1 g) :=
  shapeCast_col_apply x _ g 0
/-- A bias as a one-row matrix reads the bias at the column. -/
theorem row96_apply {α : Type} (b : Cert.KernelIdeal.S96.Idx → α) (q : Fin 96) :
    shapeCast Cert.KernelIdeal.S1x96 b Cert.KernelIdeal.Facts₀.shapeCasts_S96_S1x96 (ix2 (0 : Fin 1) q) = b (ix1 q) :=
  shapeCast_a_1a_apply b _ 0 q

end Cols

end Cert.Bridge

end
-- ==== Proof.KI.Chain.lean ====
/-
  What each stretch of host operations of the kernel program writes, as a function of what it reads, at an
  arbitrary valuation of the buffers.
  The first stretch slices edge_index into its source and destination rows and computes from them the degree
  normalisation dinv, its square as a column, the per-edge coefficient as a column, and the three biases as
  one-row matrices. Each of the next three stretches aggregates the output of the kernel region before it along
  the edges. The last stretch counts the nodes of each graph and makes the graph ids a column.
-/
import proofs.«430643_j67972152427189_1_alg».proof.Proof.Gen.KernelIdeal.Launch
import proofs.«430643_j67972152427189_1_alg».proof.Proof.Bridge.Host
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (Wv : Valuation τ sig (Elt F))

/-! ## The first stretch -/

set_option maxHeartbeats 4000000 in
/-- The source row of edge_index. -/
theorem chain0_src : StableHlo.after (hostOps0 (F := F)) Wv (Proc.devRef .tc main_v1)
    = Cert.Bridge.kSrc (Wv (Proc.devRef .tc main_arg1) : IVec S2x800000 32) := by
  after_results; rfl

set_option maxHeartbeats 4000000 in
/-- The destination row of edge_index. -/
theorem chain0_dst : StableHlo.after (hostOps0 (F := F)) Wv (Proc.devRef .tc main_v3)
    = Cert.Bridge.kDst (Wv (Proc.devRef .tc main_arg1) : IVec S2x800000 32) := by
  after_results; rfl

set_option maxHeartbeats 4000000 in
/-- dinv = rsqrt(deg + 1), the degree counted at the raw destinations. -/
theorem chain0_dinv : StableHlo.after (hostOps0 (F := F)) Wv (Proc.devRef .tc main_v10)
    = Cert.Bridge.kDinv (F := F) (Wv (Proc.devRef .tc main_arg1) : IVec S2x800000 32) := by
  after_results; rfl

set_option maxHeartbeats 4000000 in
/-- dinv squared, as a column. -/
theorem chain0_dinv2 : StableHlo.after (hostOps0 (F := F)) Wv (Proc.devRef .tc main_v12)
    = shapeCast S100000x1 (mulf (Cert.Bridge.kDinv (F := F) (Wv (Proc.devRef .tc main_arg1) : IVec S2x800000 32))
        (Cert.Bridge.kDinv (F := F) (Wv (Proc.devRef .tc main_arg1) : IVec S2x800000 32))) shapeCasts_S100000_S100000x1 := by
  after_results; rfl

set_option maxHeartbeats 4000000 in
/-- The per-edge coefficient dinv[src] * dinv[dst], as a column. -/
theorem chain0_coef : StableHlo.after (hostOps0 (F := F)) Wv (Proc.devRef .tc main_v28)
    = shapeCast S800000x1 (Cert.Bridge.kCoef (Wv (Proc.devRef .tc main_arg1) : IVec S2x800000 32)
        (Cert.Bridge.kDinv (F := F) (Wv (Proc.devRef .tc main_arg1) : IVec S2x800000 32))) shapeCasts_S800000_S800000x1 := by
  after_results; rfl

set_option maxHeartbeats 4000000 in
/-- The first layer's bias as a one-row matrix. -/
theorem chain0_b1 : StableHlo.after (hostOps0 (F := F)) Wv (Proc.devRef .tc main_v29)
    = shapeCast S1x96 (Wv (Proc.devRef .tc main_arg4) : FVec F S96 .f32) shapeCasts_S96_S1x96 := by
  after_results; rfl

set_option maxHeartbeats 4000000 in
/-- The second layer's bias as a one-row matrix. -/
theorem chain0_b2 : StableHlo.after (hostOps0 (F := F)) Wv (Proc.devRef .tc main_v30)
    = shapeCast S1x96 (Wv (Proc.devRef .tc main_arg6) : FVec F S96 .f32) shapeCasts_S96_S1x96 := by
  after_results; rfl

set_option maxHeartbeats 4000000 in
/-- The third layer's bias as a one-row matrix. -/
theorem chain0_b3 : StableHlo.after (hostOps0 (F := F)) Wv (Proc.devRef .tc main_v31)
    = shapeCast S1x96 (Wv (Proc.devRef .tc main_arg8) : FVec F S96 .f32) shapeCasts_S96_S1x96 := by
  after_results; rfl

/-! ## The aggregation stretches -/

/-- One layer's aggregation from the buffers its stretch reads: the rows of h gathered at the normalised sources,
    scaled by the coefficient column, and scatter-added at the raw destinations. -/
def kAggRaw (src dst : IVec S800000 32) (coefcol : FVec F S800000x1 .f32) (h : FVec F S100000x96 .f32) : FVec F S100000x96 .f32 :=
  Host.scatterAdd scatter_S100000x96_S800000x1_S800000x96_1_0_0_1
    (broadcastInDim S100000x96 ![] bcast_S_S100000x96 (constant (F := F) S_ .f32 0x00000000#32))
    (broadcastInDim S800000x1 ![0] bcast_S800000_S800000x1_0 dst)
    (mulf (Host.gather gather_S100000x96_S800000x1_S800000x96_1_0_n_n_0_1_196 h
        (broadcastInDim S800000x1 ![0] bcast_S800000_S800000x1_0 (Cert.Bridge.kNorm src)))
      (broadcastInDim S800000x96 ![0, 1] bcast_S800000x1_S800000x96_0_1 coefcol))

/-- On the first stretch's rows and coefficient column it is the aggregation as a function of edge_index. -/
theorem kAggRaw_eq (ei : IVec S2x800000 32) (dinv : FVec F S100000 .f32) (h : FVec F S100000x96 .f32) :
    kAggRaw (Cert.Bridge.kSrc ei) (Cert.Bridge.kDst ei)
      (shapeCast S800000x1 (Cert.Bridge.kCoef ei dinv) shapeCasts_S800000_S800000x1) h = Cert.Bridge.kAgg ei dinv h := rfl

set_option maxHeartbeats 4000000 in
/-- The stretch after the first kernel region. -/
theorem chain1 : StableHlo.after (hostOps1 (F := F)) Wv (Proc.devRef .tc main_v44)
    = kAggRaw (Wv (Proc.devRef .tc main_v1)) (Wv (Proc.devRef .tc main_v3)) (Wv (Proc.devRef .tc main_v28)) (Wv (Proc.devRef .tc main_v32)) := by
  after_results; rfl

set_option maxHeartbeats 4000000 in
/-- The stretch after the second kernel region. -/
theorem chain2 : StableHlo.after (hostOps2 (F := F)) Wv (Proc.devRef .tc main_v57)
    = kAggRaw (Wv (Proc.devRef .tc main_v1)) (Wv (Proc.devRef .tc main_v3)) (Wv (Proc.devRef .tc main_v28)) (Wv (Proc.devRef .tc main_v45)) := by
  after_results; rfl

set_option maxHeartbeats 4000000 in
/-- The stretch after the third kernel region. -/
theorem chain3 : StableHlo.after (hostOps3 (F := F)) Wv (Proc.devRef .tc main_v70)
    = kAggRaw (Wv (Proc.devRef .tc main_v1)) (Wv (Proc.devRef .tc main_v3)) (Wv (Proc.devRef .tc main_v28)) (Wv (Proc.devRef .tc main_v58)) := by
  after_results; rfl

/-! ## The last stretch -/

set_option maxHeartbeats 4000000 in
/-- The nodes of each graph counted, as a column. -/
theorem chain4_counts : StableHlo.after (hostOps4 (F := F)) Wv (Proc.devRef .tc main_v76)
    = shapeCast S256x1 (Cert.Bridge.kCounts (F := F) (Wv (Proc.devRef .tc main_arg2) : IVec S100000 32)) shapeCasts_S256_S256x1 := by
  after_results; rfl

set_option maxHeartbeats 4000000 in
/-- The graph ids as a column. -/
theorem chain4_batch : StableHlo.after (hostOps4 (F := F)) Wv (Proc.devRef .tc main_v77)
    = shapeCast S100000x1 (Wv (Proc.devRef .tc main_arg2) : IVec S100000 32) shapeCasts_S100000_S100000x1 := by
  after_results; rfl

end Cert.KernelIdeal.Hand

end
-- ==== Proof.KI.Inputs.lean ====
/-
  What each pallas_call region of the kernel program finds in the arrays it stages, as functions of the launch
  memory and of the previous region's output.

  A buffer is followed backwards from the region's entry: through the host stretch before the region (either the
  stretch computes it, or the stretch does not write it), through each earlier region (which changes its own
  output array only) and each earlier host stretch, to the first stretch, which computes the edge rows, dinv, dinv²,
  the edge coefficient and the bias rows from the arguments, or to the launch memory for an argument array.
-/
import proofs.«430643_j67972152427189_1_alg».proof.Proof.KI.Run
import proofs.«430643_j67972152427189_1_alg».proof.Proof.KI.Chain
import proofs.«430643_j67972152427189_1_alg».proof.Proof.Bridge.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! ## A buffer only the first host stretch may write, followed back to the first region's entry -/

/-- At the first region's entry an array no stretch has written yet holds its launch contents. -/
theorem W1_arg (c : Dev nD) (b : Ref sig .tc) (h0 : b ∉ hostOps0_W) :
    W1 m c (Proc.devRef .tc b) = m ((c : Thread nD τ).loc b) :=
  (StableHlo.after_of_writes_sub hostOps0 _ hostOps0_writes h0).trans rfl

/-- From the second region's entry back to the first's. -/
theorem W3_to1 (c : Dev nD) (b : Ref sig .tc) (n0 : b ≠ main_v32) (h1 : b ∉ hostOps1_W) :
    W3 m c (Proc.devRef .tc b) = W1 m c (Proc.devRef .tc b) :=
  (StableHlo.after_of_writes_sub hostOps1 _ hostOps1_writes h1).trans (W2_keep m c b n0)

/-- From the third region's entry back to the first's. -/
theorem W5_to1 (c : Dev nD) (b : Ref sig .tc) (n0 : b ≠ main_v32) (h1 : b ∉ hostOps1_W) (n1 : b ≠ main_v45) (h2 : b ∉ hostOps2_W) :
    W5 m c (Proc.devRef .tc b) = W1 m c (Proc.devRef .tc b) :=
  (StableHlo.after_of_writes_sub hostOps2 _ hostOps2_writes h2).trans <| (W4_keep m c b n1).trans (W3_to1 m c b n0 h1)

/-- From the fourth region's entry back to the first's. -/
theorem W7_to1 (c : Dev nD) (b : Ref sig .tc) (n0 : b ≠ main_v32) (h1 : b ∉ hostOps1_W) (n1 : b ≠ main_v45) (h2 : b ∉ hostOps2_W)
    (n2 : b ≠ main_v58) (h3 : b ∉ hostOps3_W) :
    W7 m c (Proc.devRef .tc b) = W1 m c (Proc.devRef .tc b) :=
  (StableHlo.after_of_writes_sub hostOps3 _ hostOps3_writes h3).trans <| (W6_keep m c b n2).trans (W5_to1 m c b n0 h1 n1 h2)

/-- From the fifth region's entry back to the first's. -/
theorem W9_to1 (c : Dev nD) (b : Ref sig .tc) (n0 : b ≠ main_v32) (h1 : b ∉ hostOps1_W) (n1 : b ≠ main_v45) (h2 : b ∉ hostOps2_W)
    (n2 : b ≠ main_v58) (h3 : b ∉ hostOps3_W) (n3 : b ≠ main_v71) (h4 : b ∉ hostOps4_W) :
    W9 m c (Proc.devRef .tc b) = W1 m c (Proc.devRef .tc b) :=
  (StableHlo.after_of_writes_sub hostOps4 _ hostOps4_writes h4).trans <| (W8_keep m c b n3).trans (W7_to1 m c b n0 h1 n1 h2 n2 h3)

/-! ## What the first host stretch leaves, read at each later region's exit valuation -/

/-- After region 0 the edge rows and the coefficient column are still what the first stretch computed. -/
theorem W2_src (c : Dev nD) : W2 m c (Proc.devRef .tc main_v1) = Cert.Bridge.kSrc (m ((c : Thread nD τ).loc main_arg1)) :=
  (W2_keep m c main_v1 (by decide)).trans (chain0_src (W0 m c))
theorem W2_dst (c : Dev nD) : W2 m c (Proc.devRef .tc main_v3) = Cert.Bridge.kDst (m ((c : Thread nD τ).loc main_arg1)) :=
  (W2_keep m c main_v3 (by decide)).trans (chain0_dst (W0 m c))
theorem W2_coef (c : Dev nD) :
    W2 m c (Proc.devRef .tc main_v28) = shapeCast S800000x1 (Cert.Bridge.kCoef (m ((c : Thread nD τ).loc main_arg1)) (Cert.Bridge.kDinv (F := F) (m ((c : Thread nD τ).loc main_arg1)))) shapeCasts_S800000_S800000x1 :=
  (W2_keep m c main_v28 (by decide)).trans (chain0_coef (W0 m c))

/-- After region 1 the edge rows and the coefficient column are still what the first stretch computed. -/
theorem W4_src (c : Dev nD) : W4 m c (Proc.devRef .tc main_v1) = Cert.Bridge.kSrc (m ((c : Thread nD τ).loc main_arg1)) :=
  ((W4_keep m c main_v1 (by decide)).trans (W3_to1 m c main_v1 (by decide) (by decide))).trans (chain0_src (W0 m c))
theorem W4_dst (c : Dev nD) : W4 m c (Proc.devRef .tc main_v3) = Cert.Bridge.kDst (m ((c : Thread nD τ).loc main_arg1)) :=
  ((W4_keep m c main_v3 (by decide)).trans (W3_to1 m c main_v3 (by decide) (by decide))).trans (chain0_dst (W0 m c))
theorem W4_coef (c : Dev nD) :
    W4 m c (Proc.devRef .tc main_v28) = shapeCast S800000x1 (Cert.Bridge.kCoef (m ((c : Thread nD τ).loc main_arg1)) (Cert.Bridge.kDinv (F := F) (m ((c : Thread nD τ).loc main_arg1)))) shapeCasts_S800000_S800000x1 :=
  ((W4_keep m c main_v28 (by decide)).trans (W3_to1 m c main_v28 (by decide) (by decide))).trans (chain0_coef (W0 m c))

/-- After region 2 the edge rows and the coefficient column are still what the first stretch computed. -/
theorem W6_src (c : Dev nD) : W6 m c (Proc.devRef .tc main_v1) = Cert.Bridge.kSrc (m ((c : Thread nD τ).loc main_arg1)) :=
  ((W6_keep m c main_v1 (by decide)).trans (W5_to1 m c main_v1 (by decide) (by decide) (by decide) (by decide))).trans (chain0_src (W0 m c))
theorem W6_dst (c : Dev nD) : W6 m c (Proc.devRef .tc main_v3) = Cert.Bridge.kDst (m ((c : Thread nD τ).loc main_arg1)) :=
  ((W6_keep m c main_v3 (by decide)).trans (W5_to1 m c main_v3 (by decide) (by decide) (by decide) (by decide))).trans (chain0_dst (W0 m c))
theorem W6_coef (c : Dev nD) :
    W6 m c (Proc.devRef .tc main_v28) = shapeCast S800000x1 (Cert.Bridge.kCoef (m ((c : Thread nD τ).loc main_arg1)) (Cert.Bridge.kDinv (F := F) (m ((c : Thread nD τ).loc main_arg1)))) shapeCasts_S800000_S800000x1 :=
  ((W6_keep m c main_v28 (by decide)).trans (W5_to1 m c main_v28 (by decide) (by decide) (by decide) (by decide))).trans (chain0_coef (W0 m c))

/-! ## Region 0 -/

theorem in0_x (c : Dev nD) : VV1 m c main_arg0 = (m ((c : Thread nD τ).loc main_arg0)) := W1_arg m c main_arg0 (by decide)
theorem in0_w (c : Dev nD) : VV1 m c main_arg3 = (m ((c : Thread nD τ).loc main_arg3)) := W1_arg m c main_arg3 (by decide)

/-! ## Region 1 -/

/-- The aggregated features: the host stretch's scatter of the gathered, scaled rows of the previous region's output. -/
theorem in1_agg (c : Dev nD) :
    VV3 m c main_v44 = Cert.Bridge.kAgg (m ((c : Thread nD τ).loc main_arg1)) (Cert.Bridge.kDinv (F := F) (m ((c : Thread nD τ).loc main_arg1))) (W2 m c (Proc.devRef .tc main_v32)) := by
  refine (chain1 (W2 m c)).trans ?_
  rw [W2_src m c, W2_dst m c, W2_coef m c]
  exact kAggRaw_eq _ _ _
/-- The previous region's output, untouched by the stretch. -/
theorem in1_h (c : Dev nD) : VV3 m c main_v32 = W2 m c (Proc.devRef .tc main_v32) :=
  StableHlo.after_of_writes_sub hostOps1 _ hostOps1_writes (by decide)
/-- dinv² as a column. -/
theorem in1_d2 (c : Dev nD) :
    VV3 m c main_v12 = shapeCast S100000x1 (mulf (Cert.Bridge.kDinv (F := F) (m ((c : Thread nD τ).loc main_arg1))) (Cert.Bridge.kDinv (F := F) (m ((c : Thread nD τ).loc main_arg1)))) shapeCasts_S100000_S100000x1 :=
  (W3_to1 m c main_v12 (by decide) (by decide)).trans (chain0_dinv2 (W0 m c))
/-- The layer's bias as a row. -/
theorem in1_b (c : Dev nD) : VV3 m c main_v29 = shapeCast S1x96 (m ((c : Thread nD τ).loc main_arg4)) shapeCasts_S96_S1x96 :=
  (W3_to1 m c main_v29 (by decide) (by decide)).trans (chain0_b1 (W0 m c))
/-- The next layer's weight matrix. -/
theorem in1_w (c : Dev nD) : VV3 m c main_arg5 = (m ((c : Thread nD τ).loc main_arg5)) :=
  (W3_to1 m c main_arg5 (by decide) (by decide)).trans (W1_arg m c main_arg5 (by decide))

/-! ## Region 2 -/

/-- The aggregated features: the host stretch's scatter of the gathered, scaled rows of the previous region's output. -/
theorem in2_agg (c : Dev nD) :
    VV5 m c main_v57 = Cert.Bridge.kAgg (m ((c : Thread nD τ).loc main_arg1)) (Cert.Bridge.kDinv (F := F) (m ((c : Thread nD τ).loc main_arg1))) (W4 m c (Proc.devRef .tc main_v45)) := by
  refine (chain2 (W4 m c)).trans ?_
  rw [W4_src m c, W4_dst m c, W4_coef m c]
  exact kAggRaw_eq _ _ _
/-- The previous region's output, untouched by the stretch. -/
theorem in2_h (c : Dev nD) : VV5 m c main_v45 = W4 m c (Proc.devRef .tc main_v45) :=
  StableHlo.after_of_writes_sub hostOps2 _ hostOps2_writes (by decide)
/-- dinv² as a column. -/
theorem in2_d2 (c : Dev nD) :
    VV5 m c main_v12 = shapeCast S100000x1 (mulf (Cert.Bridge.kDinv (F := F) (m ((c : Thread nD τ).loc main_arg1))) (Cert.Bridge.kDinv (F := F) (m ((c : Thread nD τ).loc main_arg1)))) shapeCasts_S100000_S100000x1 :=
  (W5_to1 m c main_v12 (by decide) (by decide) (by decide) (by decide)).trans (chain0_dinv2 (W0 m c))
/-- The layer's bias as a row. -/
theorem in2_b (c : Dev nD) : VV5 m c main_v30 = shapeCast S1x96 (m ((c : Thread nD τ).loc main_arg6)) shapeCasts_S96_S1x96 :=
  (W5_to1 m c main_v30 (by decide) (by decide) (by decide) (by decide)).trans (chain0_b2 (W0 m c))
/-- The next layer's weight matrix. -/
theorem in2_w (c : Dev nD) : VV5 m c main_arg7 = (m ((c : Thread nD τ).loc main_arg7)) :=
  (W5_to1 m c main_arg7 (by decide) (by decide) (by decide) (by decide)).trans (W1_arg m c main_arg7 (by decide))

/-! ## Region 3 -/

/-- The aggregated features: the host stretch's scatter of the gathered, scaled rows of the previous region's output. -/
theorem in3_agg (c : Dev nD) :
    VV7 m c main_v70 = Cert.Bridge.kAgg (m ((c : Thread nD τ).loc main_arg1)) (Cert.Bridge.kDinv (F := F) (m ((c : Thread nD τ).loc main_arg1))) (W6 m c (Proc.devRef .tc main_v58)) := by
  refine (chain3 (W6 m c)).trans ?_
  rw [W6_src m c, W6_dst m c, W6_coef m c]
  exact kAggRaw_eq _ _ _
/-- The previous region's output, untouched by the stretch. -/
theorem in3_h (c : Dev nD) : VV7 m c main_v58 = W6 m c (Proc.devRef .tc main_v58) :=
  StableHlo.after_of_writes_sub hostOps3 _ hostOps3_writes (by decide)
/-- dinv² as a column. -/
theorem in3_d2 (c : Dev nD) :
    VV7 m c main_v12 = shapeCast S100000x1 (mulf (Cert.Bridge.kDinv (F := F) (m ((c : Thread nD τ).loc main_arg1))) (Cert.Bridge.kDinv (F := F) (m ((c : Thread nD τ).loc main_arg1)))) shapeCasts_S100000_S100000x1 :=
  (W7_to1 m c main_v12 (by decide) (by decide) (by decide) (by decide) (by decide) (by decide)).trans (chain0_dinv2 (W0 m c))
/-- The layer's bias as a row. -/
theorem in3_b (c : Dev nD) : VV7 m c main_v31 = shapeCast S1x96 (m ((c : Thread nD τ).loc main_arg8)) shapeCasts_S96_S1x96 :=
  (W7_to1 m c main_v31 (by decide) (by decide) (by decide) (by decide) (by decide) (by decide)).trans (chain0_b3 (W0 m c))

/-! ## Region 4 -/

/-- An argument array at the last region's exit from region 3: its launch contents. -/
theorem W8_arg (c : Dev nD) (b : Ref sig .tc) (n0 : b ≠ main_v32) (h1 : b ∉ hostOps1_W) (n1 : b ≠ main_v45) (h2 : b ∉ hostOps2_W)
    (n2 : b ≠ main_v58) (h3 : b ∉ hostOps3_W) (n3 : b ≠ main_v71) (h0 : b ∉ hostOps0_W) :
    W8 m c (Proc.devRef .tc b) = m ((c : Thread nD τ).loc b) :=
  (W8_keep m c b n3).trans <| (W7_to1 m c b n0 h1 n1 h2 n2 h3).trans (W1_arg m c b h0)

/-- The last layer's output, untouched by the stretch. -/
theorem in4_h (c : Dev nD) : VV9 m c main_v71 = W8 m c (Proc.devRef .tc main_v71) :=
  StableHlo.after_of_writes_sub hostOps4 _ hostOps4_writes (by decide)
/-- The graph ids as a column. -/
theorem in4_batch (c : Dev nD) : VV9 m c main_v77 = shapeCast S100000x1 (m ((c : Thread nD τ).loc main_arg2)) shapeCasts_S100000_S100000x1 := by
  refine (chain4_batch (W8 m c)).trans ?_
  rw [W8_arg m c main_arg2 (by decide) (by decide) (by decide) (by decide) (by decide) (by decide) (by decide) (by decide)]
/-- The node counts per graph as a column. -/
theorem in4_counts (c : Dev nD) :
    VV9 m c main_v76 = shapeCast S256x1 (Cert.Bridge.kCounts (F := F) (m ((c : Thread nD τ).loc main_arg2))) shapeCasts_S256_S256x1 := by
  refine (chain4_counts (W8 m c)).trans ?_
  rw [W8_arg m c main_arg2 (by decide) (by decide) (by decide) (by decide) (by decide) (by decide) (by decide) (by decide)]
/-- The last weight matrix. -/
theorem in4_w (c : Dev nD) : VV9 m c main_arg9 = (m ((c : Thread nD τ).loc main_arg9)) :=
  (W9_to1 m c main_arg9 (by decide) (by decide) (by decide) (by decide) (by decide) (by decide) (by decide) (by decide)).trans (W1_arg m c main_arg9 (by decide))

end Cert.KernelIdeal.Hand

end
-- ==== Proof.KI.Pay.lean ====
/-
  The kernels' payloads read at an index, at the ideal values (floats are extended reals; a change of
  format is the identity). Each payload is a chain of pointwise operations, layout operations and at most
  one matrix product; at an output index (p, q) it is the closed form stated below.
-/
import proofs.«430643_j67972152427189_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The [5000, 96] × [96, 96] product at an index

The left operand's axis 0 is the output's axis 0 and its axis 1 is contracted; the right operand's axis 0 is
contracted and its axis 1 is the output's axis 1. -/

theorem lhsA_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhsA_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhsA_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhsA_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The product into the zero splat, at (p, q): the sum over the 96 contracted positions. -/
theorem mmA_apply (x : FVec Ideal S5000x96 .bf16) (y : FVec Ideal S96x96 .bf16) (p : Fin 5000) (q : Fin 96) :
    matmul dot_S5000x96_S96x96_S5000x96_1_0_0_1_n_n none x y (constant (F := Ideal) S5000x96 .f32 0x00000000#32) (ix2 p q)
      = ∑ k : Fin 96, x (ix2 p k) * y (ix2 k q) := by
  simp only [matmul]
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhsA_0 _ _
    | ⟨1, _⟩ => exact (lhsA_1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhsA_0 _ _).trans hk
    | ⟨1, _⟩ => exact rhsA_1 _ _)
  rw [el, er]

/-! ## The [5000, 256]ᵀ × [5000, 96] product at an index

Axis 0 of BOTH operands is contracted; the left operand's axis 1 is the output's axis 0 and the right operand's
axis 1 is the output's axis 1. -/

theorem lhsB_0 (i : S256x96.Idx) (q : dot_S5000x256_S5000x96_S256x96_0_0_1_1_n_n.contr.Idx) :
    (dot_S5000x256_S5000x96_S256x96_0_0_1_1_n_n.lhsIdx i q 0).val = (q ⟨0, by decide⟩).val :=
  dot_S5000x256_S5000x96_S256x96_0_0_1_1_n_n.lhsIdx_val_of_single rfl i q
theorem lhsB_1 (i : S256x96.Idx) (q : dot_S5000x256_S5000x96_S256x96_0_0_1_1_n_n.contr.Idx) :
    (dot_S5000x256_S5000x96_S256x96_0_0_1_1_n_n.lhsIdx i q 1).val = (i 0).val := by
  unfold DotDims.lhsIdx
  rw [dif_neg (show ¬(1 : Fin S5000x256.rank) ∈ dot_S5000x256_S5000x96_S256x96_0_0_1_1_n_n.lhsBatch by decide), dif_pos (show (1 : Fin S5000x256.rank) ∈ dot_S5000x256_S5000x96_S256x96_0_0_1_1_n_n.lhsNonContracting by decide)]
  rfl
theorem rhsB_0 (i : S256x96.Idx) (q : dot_S5000x256_S5000x96_S256x96_0_0_1_1_n_n.contr.Idx) :
    (dot_S5000x256_S5000x96_S256x96_0_0_1_1_n_n.rhsIdx i q 0).val = (q ⟨0, by decide⟩).val :=
  dot_S5000x256_S5000x96_S256x96_0_0_1_1_n_n.rhsIdx_val_of_single rfl i q
theorem rhsB_1 (i : S256x96.Idx) (q : dot_S5000x256_S5000x96_S256x96_0_0_1_1_n_n.contr.Idx) :
    (dot_S5000x256_S5000x96_S256x96_0_0_1_1_n_n.rhsIdx i q 1).val = (i 1).val := by
  unfold DotDims.rhsIdx
  rw [dif_neg (show ¬(1 : Fin S5000x96.rank) ∈ dot_S5000x256_S5000x96_S256x96_0_0_1_1_n_n.rhsBatch by decide), dif_pos (show (1 : Fin S5000x96.rank) ∈ dot_S5000x256_S5000x96_S256x96_0_0_1_1_n_n.rhsNonContracting by decide)]
  rfl

/-- The product into the zero splat, at (p, q): the sum over the 5000 contracted rows. -/
theorem mmB_apply (x : FVec Ideal S5000x256 .bf16) (y : FVec Ideal S5000x96 .bf16) (p : Fin 256) (q : Fin 96) :
    matmul dot_S5000x256_S5000x96_S256x96_0_0_1_1_n_n none x y (constant (F := Ideal) S256x96 .f32 0x00000000#32) (ix2 p q)
      = ∑ k : Fin 5000, x (ix2 k p) * y (ix2 k q) := by
  simp only [matmul]
  rw [Ideal.matmul_constant_zero_apply, ← Equiv.sum_comp (contrEquiv1 dot_S5000x256_S5000x96_S256x96_0_0_1_1_n_n 5000 rfl rfl).symm]
  refine Finset.sum_congr rfl fun k _ => ?_
  have hk := contrEquiv1_symm_val dot_S5000x256_S5000x96_S256x96_0_0_1_1_n_n 5000 rfl rfl k
  have el : dot_S5000x256_S5000x96_S256x96_0_0_1_1_n_n.lhsIdx (ix2 p q) ((contrEquiv1 dot_S5000x256_S5000x96_S256x96_0_0_1_1_n_n 5000 rfl rfl).symm k) = ix2 k p := funext fun a => Fin.ext (by
    match a with
    | ⟨0, _⟩ => exact (lhsB_0 _ _).trans hk
    | ⟨1, _⟩ => exact lhsB_1 _ _)
  have er : dot_S5000x256_S5000x96_S256x96_0_0_1_1_n_n.rhsIdx (ix2 p q) ((contrEquiv1 dot_S5000x256_S5000x96_S256x96_0_0_1_1_n_n 5000 rfl rfl).symm k) = ix2 k q := funext fun a => Fin.ext (by
    match a with
    | ⟨0, _⟩ => exact (rhsB_0 _ _).trans hk
    | ⟨1, _⟩ => exact rhsB_1 _ _)
  rw [el, er]

/-! ## The [256, 96] × [96, 16] product at an index

The same axes as the first product's. -/

theorem lhsC_0 (i : S256x16.Idx) (q : dot_S256x96_S96x16_S256x16_1_0_0_1_n_n.contr.Idx) :
    (dot_S256x96_S96x16_S256x16_1_0_0_1_n_n.lhsIdx i q 0).val = (i 0).val := by
  unfold DotDims.lhsIdx
  rw [dif_neg (show ¬(0 : Fin S256x96.rank) ∈ dot_S256x96_S96x16_S256x16_1_0_0_1_n_n.lhsBatch by decide), dif_pos (show (0 : Fin S256x96.rank) ∈ dot_S256x96_S96x16_S256x16_1_0_0_1_n_n.lhsNonContracting by decide)]
  rfl
theorem lhsC_1 (i : S256x16.Idx) (q : dot_S256x96_S96x16_S256x16_1_0_0_1_n_n.contr.Idx) :
    (dot_S256x96_S96x16_S256x16_1_0_0_1_n_n.lhsIdx i q 1).val = (q ⟨0, by decide⟩).val :=
  dot_S256x96_S96x16_S256x16_1_0_0_1_n_n.lhsIdx_val_of_single rfl i q
theorem rhsC_0 (i : S256x16.Idx) (q : dot_S256x96_S96x16_S256x16_1_0_0_1_n_n.contr.Idx) :
    (dot_S256x96_S96x16_S256x16_1_0_0_1_n_n.rhsIdx i q 0).val = (q ⟨0, by decide⟩).val :=
  dot_S256x96_S96x16_S256x16_1_0_0_1_n_n.rhsIdx_val_of_single rfl i q
theorem rhsC_1 (i : S256x16.Idx) (q : dot_S256x96_S96x16_S256x16_1_0_0_1_n_n.contr.Idx) :
    (dot_S256x96_S96x16_S256x16_1_0_0_1_n_n.rhsIdx i q 1).val = (i 1).val := by
  unfold DotDims.rhsIdx
  rw [dif_neg (show ¬(1 : Fin S96x16.rank) ∈ dot_S256x96_S96x16_S256x16_1_0_0_1_n_n.rhsBatch by decide), dif_pos (show (1 : Fin S96x16.rank) ∈ dot_S256x96_S96x16_S256x16_1_0_0_1_n_n.rhsNonContracting by decide)]
  rfl

/-- The product into the zero splat, at (p, q): the sum over the 96 contracted positions. -/
theorem mmC_apply (x : FVec Ideal S256x96 .bf16) (y : FVec Ideal S96x16 .bf16) (p : Fin 256) (q : Fin 16) :
    matmul dot_S256x96_S96x16_S256x16_1_0_0_1_n_n none x y (constant (F := Ideal) S256x16 .f32 0x00000000#32) (ix2 p q)
      = ∑ k : Fin 96, x (ix2 p k) * y (ix2 k q) := by
  simp only [matmul]
  rw [Ideal.matmul_constant_zero_apply, ← Equiv.sum_comp (contrEquiv1 dot_S256x96_S96x16_S256x16_1_0_0_1_n_n 96 rfl rfl).symm]
  refine Finset.sum_congr rfl fun k _ => ?_
  have hk := contrEquiv1_symm_val dot_S256x96_S96x16_S256x16_1_0_0_1_n_n 96 rfl rfl k
  have el : dot_S256x96_S96x16_S256x16_1_0_0_1_n_n.lhsIdx (ix2 p q) ((contrEquiv1 dot_S256x96_S96x16_S256x16_1_0_0_1_n_n 96 rfl rfl).symm k) = ix2 p k := funext fun a => Fin.ext (by
    match a with
    | ⟨0, _⟩ => exact lhsC_0 _ _
    | ⟨1, _⟩ => exact (lhsC_1 _ _).trans hk)
  have er : dot_S256x96_S96x16_S256x16_1_0_0_1_n_n.rhsIdx (ix2 p q) ((contrEquiv1 dot_S256x96_S96x16_S256x16_1_0_0_1_n_n 96 rfl rfl).symm k) = ix2 k q := funext fun a => Fin.ext (by
    match a with
    | ⟨0, _⟩ => exact (rhsC_0 _ _).trans hk
    | ⟨1, _⟩ => exact rhsC_1 _ _)
  rw [el, er]

/-! ## The first region's payload: x · W -/

theorem pay0_apply (v0 : Vec Ideal S5000x96 .f32) (v2 : Vec Ideal S96x96 .f32) (p : Fin 5000) (q : Fin 96) :
    k0_pay1 (F := Ideal) v0 v2 (ix2 p q) = ∑ k : Fin 96, v0 (ix2 p k) * v2 (ix2 k q) := by
  unfold k0_pay1
  rw [mmA_apply]
  rfl

/-! ## The second and third regions' payload: relu (agg + h · dinv + b) · W -/

theorem pay1_apply (v0 v2 : Vec Ideal S5000x96 .f32) (v4 : Vec Ideal S5000x1 .f32) (v9 : Vec Ideal S1x96 .f32)
    (v16 : Vec Ideal S96x96 .f32) (p : Fin 5000) (q : Fin 96) :
    k1_pay1 (F := Ideal) v0 v2 v4 v9 v16 (ix2 p q)
      = ∑ k : Fin 96, max (v0 (ix2 p k) + v2 (ix2 p k) * v4 (ix2 p 0) + v9 (ix2 0 k)) (Ideal.ofBits .f32 0x00000000#32)
          * v16 (ix2 k q) := by
  unfold k1_pay1
  rw [mmA_apply]
  refine Finset.sum_congr rfl fun k _ => ?_
  rw [truncf_apply, truncf_apply, maximumf_apply, addf_apply, addf_apply, mulf_apply, shapeCast_self, shapeCast_self,
    shapeCast_self, shapeCast_self, broadcastTo_a1_ab_apply, broadcastTo_1b_ab_apply, broadcast_apply]
  rfl

theorem pay2_apply (v0 v2 : Vec Ideal S5000x96 .f32) (v4 : Vec Ideal S5000x1 .f32) (v9 : Vec Ideal S1x96 .f32)
    (v16 : Vec Ideal S96x96 .f32) (p : Fin 5000) (q : Fin 96) :
    k2_pay1 (F := Ideal) v0 v2 v4 v9 v16 (ix2 p q)
      = ∑ k : Fin 96, max (v0 (ix2 p k) + v2 (ix2 p k) * v4 (ix2 p 0) + v9 (ix2 0 k)) (Ideal.ofBits .f32 0x00000000#32)
          * v16 (ix2 k q) := by
  unfold k2_pay1
  rw [mmA_apply]
  refine Finset.sum_congr rfl fun k _ => ?_
  rw [truncf_apply, truncf_apply, maximumf_apply, addf_apply, addf_apply, mulf_apply, shapeCast_self, shapeCast_self,
    shapeCast_self, shapeCast_self, broadcastTo_a1_ab_apply, broadcastTo_1b_ab_apply, broadcast_apply]
  rfl

/-! ## The fourth region's payload: the normalized aggregate plus the bias -/

theorem pay3_apply (v0 v2 : Vec Ideal S5000x96 .f32) (v4 : Vec Ideal S5000x1 .f32) (v9 : Vec Ideal S1x96 .f32)
    (p : Fin 5000) (q : Fin 96) :
    k3_pay1 (F := Ideal) v0 v2 v4 v9 (ix2 p q) = v0 (ix2 p q) + v2 (ix2 p q) * v4 (ix2 p 0) + v9 (ix2 0 q) := by
  unfold k3_pay1
  rw [addf_apply, addf_apply, mulf_apply, shapeCast_self, shapeCast_self, shapeCast_self, shapeCast_self,
    broadcastTo_a1_ab_apply, broadcastTo_1b_ab_apply]

/-! ## The pooling region's payloads -/

/-- The accumulator's reset: the zero word everywhere. -/
theorem pay4_zero (g : Fin 256) (k : Fin 96) :
    (k4_pay1 (F := Ideal)) (ix2 g k) = Ideal.ofBits .f32 0x00000000#32 := by
  unfold k4_pay1
  rw [shapeCast_self, broadcast_apply]
  rfl

/-- … which is the extended real 0. -/
theorem pay4_zero' (g : Fin 256) (k : Fin 96) : (k4_pay1 (F := Ideal)) (ix2 g k) = (0 : EReal) :=
  (pay4_zero g k).trans Ideal.ofBits_zero_f32

/-- A comparison bit widened to a word and converted to a float is 1 where the two words agree and 0 elsewhere. -/
theorem onehot_word (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · have e : IntOp.cmpi .eq a b = 1#1 := by
      show BitVec.ofBool (a == b) = 1#1
      rw [beq_iff_eq.mpr h]; rfl
    rw [e, if_pos h]
    have e1 : ((1#1 : BitVec 1).setWidth 32).toInt = 1 := by decide
    rw [e1]; simp
  · have e : IntOp.cmpi .eq a b = 0#1 := by
      show BitVec.ofBool (a == b) = 0#1
      rw [beq_eq_false_iff_ne.mpr h]; rfl
    rw [e, if_neg h]
    have e0 : ((0#1 : BitVec 1).setWidth 32).toInt = 0 := by decide
    rw [e0]; simp

/-- The one-hot membership matrix at (r, g): 1 where row r's graph number is g. -/
theorem onehot_apply (v3 : Vec Ideal S5000x1 .i32) (r : Fin 5000) (g : Fin 256) :
    (truncf (F := Ideal) .bf16 (sitofp (F := Ideal) .f32 (extui 32 (cmpi .eq
        (broadcastTo S5000x256 (shapeCast S5000x1 v3 shapeCasts_S5000x1_S5000x1) broadcasts_S5000x1_S5000x256)
        (iota .tc S5000x256 32 [1] iota_S5000x256_d1_w32)) natLt_1_32)) bitsLt_bf16_f32) (ix2 r g)
      = if v3 (ix2 r 0) = BitVec.ofNat 32 g.val then (1 : EReal) else 0 := by
  rw [truncf_apply, sitofp_apply, extui_apply]
  show FloatOps.sitofp (F := Ideal) .f32 ((IntOp.cmpi .eq
      (broadcastTo S5000x256 (shapeCast S5000x1 v3 shapeCasts_S5000x1_S5000x1) broadcasts_S5000x1_S5000x256 (ix2 r g))
      (iota .tc S5000x256 32 [1] iota_S5000x256_d1_w32 (ix2 r g))).setWidth 32) = _
  rw [broadcastTo_a1_ab_apply, shapeCast_self, iota_single_apply]
  exact onehot_word _ _

/-- The accumulation step: the running sums plus the one-hot matrix's transpose times the tile of rows. -/
theorem pay4_acc_apply (v3 : Vec Ideal S5000x1 .i32) (v11 : Vec Ideal S5000x96 .f32) (v15 : Vec Ideal S256x96 .f32)
    (g : Fin 256) (k : Fin 96) :
    k4_pay2 (F := Ideal) v3 v11 v15 (ix2 g k)
      = v15 (ix2 g k) + ∑ r : Fin 5000, (if v3 (ix2 r 0) = BitVec.ofNat 32 g.val then (1 : EReal) else 0) * v11 (ix2 r k) := by
  unfold k4_pay2
  rw [shapeCast_self, addf_apply, mmB_apply]
  refine congrArg (v15 (ix2 g k) + ·) (Finset.sum_congr rfl fun r _ => ?_)
  rw [onehot_apply, truncf_apply, shapeCast_self]

/-- The read-out: the sums divided by the clamped counts, times the output weights. -/
theorem pay4_out_apply (v23 : Vec Ideal S256x96 .f32) (v24 : Vec Ideal S256x1 .f32) (v31 : Vec Ideal S96x16 .f32)
    (g : Fin 256) (j : Fin 16) :
    k4_pay3 (F := Ideal) v23 v24 v31 (ix2 g j)
      = ∑ k : Fin 96, Ideal.div (v23 (ix2 g k)) (max (v24 (ix2 g 0)) (Ideal.ofBits .f32 0x3F800000#32)) * v31 (ix2 k j) := by
  unfold k4_pay3
  rw [mmC_apply]
  refine Finset.sum_congr rfl fun k _ => ?_
  rw [truncf_apply, truncf_apply, divf_apply, broadcastTo_a1_ab_apply, maximumf_apply, shapeCast_self, broadcast_apply]
  rfl

end Cert.KernelIdeal.Hand

end
-- ==== Proof.KI.Val0.lean ====
/-
  First pallas_call, the value: after the region the output array holds, at row n and column q, the sum over k of
  x[n, k] · W[k, q], where x and W are the arrays the region finds.
  A grid point t writes back rows 5000·t … 5000·t + 4999: the product of that tile of x with the whole of W. Every
  row lies in exactly the tile of the point n / 5000, so the tiles cover the array.
-/
import proofs.«430643_j67972152427189_1_alg».proof.Proof.KI.Reg0
import proofs.«430643_j67972152427189_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The product of two arrays, index by index. -/
def G0 (x : S100000x96.Idx → EReal) (w : S96x96.Idx → EReal) : S100000x96.Idx → EReal := fun i =>
  ∑ k : Fin 96, x (ix2 (⟨(i 0).val, idx2_lt0 i⟩ : Fin 100000) k) * w (ix2 k (⟨(i 1).val, idx2_lt1 i⟩ : Fin 96))

theorem G0_apply (x : S100000x96.Idx → EReal) (w : S96x96.Idx → EReal) (n : Fin 100000) (q : Fin 96) :
    G0 x w (ix2 n q) = ∑ k : Fin 96, x (ix2 n k) * w (ix2 k q) := rfl

/-- The index maps over the grid: the tile of x and the output tile sit at block row t, the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile of x at point t, at (p, k), is x at row 5000·t + p. -/
theorem iblk0_0_apply (c : Dev nD) (t : Fin cfg0.N) (p : Fin 5000) (k : Fin 96) (n : Fin 100000)
    (hn : n.val = 5000 * t.val + p.val) :
    (iblk0 V c 0 t : S5000x96.Idx → EReal) (ix2 p k) = (V c main_arg0 : S100000x96.Idx → EReal) (ix2 n k) := by
  obtain ⟨e0, e1, -⟩ := idx_facts0 t
  unfold iblk0
  rw [View.read_apply]
  show (V c main_arg0 : S100000x96.Idx → EReal) _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 96 + 1 * k.val = k.val; rw [e1]; omega

/-- The block of the weights at point t is the whole of W. -/
theorem iblk0_1_apply (c : Dev nD) (t : Fin cfg0.N) (k : Fin 96) (q : Fin 96) :
    (iblk0 V c 1 t : S96x96.Idx → EReal) (ix2 k q) = (V c main_arg3 : S96x96.Idx → EReal) (ix2 k q) := by
  obtain ⟨-, -, e0, e1, -⟩ := idx_facts0 t
  unfold iblk0
  rw [View.read_apply]
  show (V c main_arg3 : S96x96.Idx → EReal) _ = V c main_arg3 _
  congr 1
  funext a
  apply Fin.ext
  match a with
  | ⟨0, _⟩ => show win0_1.index t (0 : Fin 2) * 96 + 1 * k.val = k.val; rw [e0]; omega
  | ⟨1, _⟩ => show win0_1.index t (1 : Fin 2) * 96 + 1 * q.val = q.val; rw [e1]; omega

/-- What point t writes back is its tile of the product. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz0]
  simp only [View.ld_unit_zero (S := S5000x96) hz0, View.ld_unit_zero (S := S96x96) hz0]
  obtain ⟨-, -, -, -, e0, e1⟩ := idx_facts0 t
  funext j
  obtain ⟨p, q, rfl⟩ : ∃ (p : Fin 5000) (q : Fin 96), j = ix2 p q := ⟨j 0, j 1, eq_ix2 j⟩
  show k0_pay1 (F := Ideal) (iblk0 V c 0 t) (iblk0 V c 1 t) (ix2 p q) = G0 (V c main_arg0) (V c main_arg3) (((cfg0.win 2).blk t).view.emb (ix2 p q))
  rw [pay0_apply]
  unfold G0
  refine Finset.sum_congr rfl fun k _ => ?_
  refine congrArg₂ (· * ·) (iblk0_0_apply V c t p k _ ?_) ((iblk0_1_apply V c t k q).trans (congrArg _ ?_))
  · show win0_2.index t (0 : Fin 2) * 5000 + 1 * p.val = 5000 * t.val + p.val
    rw [e0]; omega
  · refine congrArg (ix2 k) (Fin.ext ?_)
    show q.val = win0_2.index t (1 : Fin 2) * 96 + 1 * q.val
    rw [e1]; omega

/-- An index of the array is in point t's tile iff each coordinate is in the tile's range on its axis. -/
theorem mem_blk0 (t : Fin cfg0.N) (i : S100000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v32).slice (win0_2.rect t)).set ↔ _
  rw [View.set_slice_whole, Rect.mem_set_unit]
  exact Iff.rfl

/-- Every index is in the tile of the point its row divided by 5000 names. -/
theorem cover0 (i : S100000x96.Idx) : ∃ t : Fin cfg0.N, (cfg0.win 2).flush t = true ∧ i ∈ ((cfg0.win 2).blk t).view.set := by
  have hN : grid0.N = 20 := N_0
  have hi0 : (i 0).val < 100000 := idx2_lt0 i
  have hi1 : (i 1).val < 96 := idx2_lt1 i
  have ht : (i 0).val / 5000 < cfg0.N := by show (i 0).val / 5000 < grid0.N; rw [hN]; omega
  refine ⟨⟨(i 0).val / 5000, ht⟩, flush0_2 _, ?_⟩
  obtain ⟨-, -, -, -, e0, e1⟩ := idx_facts0 ⟨(i 0).val / 5000, ht⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 96 ≤ (i 1).val
      ∧ (i 1).val < win0_2.index ⟨(i 0).val / 5000, ht⟩ (1 : Fin 2) * 96 + 96
    rw [e1]; omega

/-- The output array after the region is the product. -/
theorem arr0_eq (c : Dev nD) : (dat0 V c).arrAt 2 cfg0.N = G0 (V c main_arg0) (V c main_arg3) :=
  (dat0 V c).arrAt_eq_of_cover 2 (G0 (V c main_arg0) (V c main_arg3)) (fun t _ => flushed0_eq V c t) cover0

/-- … read at row n and column q (x and w name the two arrays the region finds). -/
theorem arr0_apply (c : Dev nD) (x : S100000x96.Idx → EReal) (w : S96x96.Idx → EReal) (hx : x = V c main_arg0)
    (hw : w = V c main_arg3) (n : Fin 100000) (q : Fin 96) :
    ((dat0 V c).arrAt 2 cfg0.N : S100000x96.Idx → EReal) (ix2 n q) = ∑ k : Fin 96, x (ix2 n k) * w (ix2 k q) := by
  subst hx; subst hw
  rw [arr0_eq]
  rfl

end Cert.KernelIdeal.Hand

end
-- ==== Proof.KI.Val1.lean ====
/-
  Second pallas_call, the value: after the region the output array holds, at row n and column q, the sum over k of
  relu (a[n, k] + h[n, k] · d[n, 0] + b[0, k]) · W[k, q], where a, h, d, b and W are the arrays the region finds
  (the aggregate, the features, the per-row scale, the bias row and the next layer's weights).
  A grid point t writes back rows 5000·t … 5000·t + 4999 from the same rows of a, h and d and the whole of b and W.
  Every row lies in exactly the tile of the point n / 5000, so the tiles cover the array.
-/
import proofs.«430643_j67972152427189_1_alg».proof.Proof.KI.Reg1
import proofs.«430643_j67972152427189_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The layer's epilogue times the weights, index by index. -/
def G1 (a h : S100000x96.Idx → EReal) (d : S100000x1.Idx → EReal) (b : S1x96.Idx → EReal) (w : S96x96.Idx → EReal) :
    S100000x96.Idx → EReal := fun i =>
  ∑ k : Fin 96, max (a (ix2 (⟨(i 0).val, idx2_lt0 i⟩ : Fin 100000) k)
      + h (ix2 (⟨(i 0).val, idx2_lt0 i⟩ : Fin 100000) k) * d (ix2 (⟨(i 0).val, idx2_lt0 i⟩ : Fin 100000) (0 : Fin 1))
      + b (ix2 (0 : Fin 1) k)) (Ideal.ofBits .f32 0x00000000#32)
    * w (ix2 k (⟨(i 1).val, idx2_lt1 i⟩ : Fin 96))

theorem G1_apply (a h : S100000x96.Idx → EReal) (d : S100000x1.Idx → EReal) (b : S1x96.Idx → EReal) (w : S96x96.Idx → EReal)
    (n : Fin 100000) (q : Fin 96) :
    G1 a h d b w (ix2 n q)
      = ∑ k : Fin 96, max (a (ix2 n k) + h (ix2 n k) * d (ix2 n 0) + b (ix2 0 k)) (Ideal.ofBits .f32 0x00000000#32) * w (ix2 k q) := rfl

/-- The index maps over the grid: the row-tiled windows sit at block row t, the bias row and the weights at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The tile of a at point t, at (p, k), is a at row 5000·t + p. -/
theorem iblk1_0_apply (c : Dev nD) (t : Fin cfg1.N) (p : Fin 5000) (k : Fin 96) (n : Fin 100000) (k' : Fin 96)
    (hn : n.val = 5000 * t.val + p.val) (hk : k'.val = k.val) :
    (iblk1 V c 0 t : S5000x96.Idx → EReal) (ix2 p k) = (V c main_v44 : S100000x96.Idx → EReal) (ix2 n k') := by
  obtain ⟨e0, e1, -⟩ := idx_facts1 t
  unfold iblk1
  rw [View.read_apply]
  show (V c main_v44 : S100000x96.Idx → EReal) _ = V c main_v44 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 96 + 1 * k.val = k'.val; rw [e1, hk]; omega

/-- The tile of h at point t, at (p, k), is h at row 5000·t + p. -/
theorem iblk1_1_apply (c : Dev nD) (t : Fin cfg1.N) (p : Fin 5000) (k : Fin 96) (n : Fin 100000) (k' : Fin 96)
    (hn : n.val = 5000 * t.val + p.val) (hk : k'.val = k.val) :
    (iblk1 V c 1 t : S5000x96.Idx → EReal) (ix2 p k) = (V c main_v32 : S100000x96.Idx → EReal) (ix2 n k') := by
  obtain ⟨-, -, e0, e1, -⟩ := idx_facts1 t
  unfold iblk1
  rw [View.read_apply]
  show (V c main_v32 : S100000x96.Idx → EReal) _ = V c main_v32 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 96 + 1 * k.val = k'.val; rw [e1, hk]; omega

/-- The tile of d at point t, at (p, 0), is d at row 5000·t + p. -/
theorem iblk1_2_apply (c : Dev nD) (t : Fin cfg1.N) (p : Fin 5000) (n : Fin 100000)
    (hn : n.val = 5000 * t.val + p.val) :
    (iblk1 V c 2 t : S5000x1.Idx → EReal) (ix2 p (0 : Fin 1)) = (V c main_v12 : S100000x1.Idx → EReal) (ix2 n (0 : Fin 1)) := by
  obtain ⟨-, -, -, -, e0, e1, -⟩ := idx_facts1 t
  unfold iblk1
  rw [View.read_apply]
  show (V c main_v12 : S100000x1.Idx → EReal) _ = V c main_v12 _
  congr 1
  funext a
  apply Fin.ext
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- The block of the bias row at point t is the whole row. -/
theorem iblk1_3_apply (c : Dev nD) (t : Fin cfg1.N) (k : Fin 96) (k' : Fin 96) (hk : k'.val = k.val) :
    (iblk1 V c 3 t : S1x96.Idx → EReal) (ix2 (0 : Fin 1) k) = (V c main_v29 : S1x96.Idx → EReal) (ix2 (0 : Fin 1) k') := by
  obtain ⟨-, -, -, -, -, -, e0, e1, -⟩ := idx_facts1 t
  unfold iblk1
  rw [View.read_apply]
  show (V c main_v29 : S1x96.Idx → EReal) _ = V c main_v29 _
  congr 1
  funext a
  apply Fin.ext
  match a with
  | ⟨0, _⟩ => show win1_3.index t (0 : Fin 2) * 1 + 1 * 0 = 0; rw [e0]
  | ⟨1, _⟩ => show win1_3.index t (1 : Fin 2) * 96 + 1 * k.val = k'.val; rw [e1, hk]; omega

/-- The block of the weights at point t is the whole of W. -/
theorem iblk1_4_apply (c : Dev nD) (t : Fin cfg1.N) (k : Fin 96) (q : Fin 96) (q' : Fin 96) (hq : q'.val = q.val) :
    (iblk1 V c 4 t : S96x96.Idx → EReal) (ix2 k q) = (V c main_arg5 : S96x96.Idx → EReal) (ix2 k q') := by
  obtain ⟨-, -, -, -, -, -, -, -, e0, e1, -⟩ := idx_facts1 t
  unfold iblk1
  rw [View.read_apply]
  show (V c main_arg5 : S96x96.Idx → EReal) _ = V c main_arg5 _
  congr 1
  funext a
  apply Fin.ext
  match a with
  | ⟨0, _⟩ => show win1_4.index t (0 : Fin 2) * 96 + 1 * k.val = k.val; rw [e0]; omega
  | ⟨1, _⟩ => show win1_4.index t (1 : Fin 2) * 96 + 1 * q.val = q'.val; rw [e1, hq]; omega

/-- What point t writes back is its tile of the epilogue times the weights. -/
theorem flushed1_eq (c : Dev nD) (t : Fin cfg1.N) :
    (dat1 V c).flushed 5 t
      = ((cfg1.win 5).blk t).view.read (Elt Ideal)
          (G1 (V c main_v44) (V c main_v32) (V c main_v12) (V c main_v29) (V c main_arg5)) := by
  show (cfg1.win 5).cut (grid1.coords t) ((dat1 V c).after 5 t) = _
  rw [after1_5]
  unfold out1_5
  rw [View.canon_unit_zero hz1]
  simp only [View.ld_unit_zero (S := S5000x96) hz1, View.ld_unit_zero (S := S5000x1) hz1, View.ld_unit_zero (S := S1x96) hz1,
    View.ld_unit_zero (S := S96x96) hz1]
  obtain ⟨-, -, -, -, -, -, -, -, -, -, e0, e1⟩ := idx_facts1 t
  funext j
  obtain ⟨p, q, rfl⟩ : ∃ (p : Fin 5000) (q : Fin 96), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G1 (V c main_v44) (V c main_v32) (V c main_v12) (V c main_v29) (V c main_arg5) (((cfg1.win 5).blk t).view.emb (ix2 p q))
  rw [pay1_apply]
  unfold G1
  have hn : (((cfg1.win 5).blk t).view.emb (ix2 p q) 0).val = 5000 * t.val + p.val := by
    show win1_5.index t (0 : Fin 2) * 5000 + 1 * p.val = 5000 * t.val + p.val
    rw [e0]; omega
  have hq : (((cfg1.win 5).blk t).view.emb (ix2 p q) 1).val = q.val := by
    show win1_5.index t (1 : Fin 2) * 96 + 1 * q.val = q.val
    rw [e1]; omega
  refine Finset.sum_congr rfl fun k _ => ?_
  exact congrArg₂ (· * ·)
    (congrArg (fun x : EReal => max x (Ideal.ofBits .f32 0x00000000#32))
      (congrArg₂ (· + ·)
        (congrArg₂ (· + ·) (iblk1_0_apply V c t p k _ k hn rfl)
          (congrArg₂ (· * ·) (iblk1_1_apply V c t p k _ k hn rfl) (iblk1_2_apply V c t p _ hn)))
        (iblk1_3_apply V c t k k rfl)))
    (iblk1_4_apply V c t k q _ hq)

/-- An index of the array is in point t's tile iff each coordinate is in the tile's range on its axis. -/
theorem mem_blk1 (t : Fin cfg1.N) (i : S100000x96.Idx) :
    i ∈ ((cfg1.win 5).blk t).view.set ↔ ∀ a : Fin 2, win1_5.index t a * S5000x96.size a ≤ (i a).val
      ∧ (i a).val < win1_5.index t a * S5000x96.size a + S5000x96.size a := by
  show i ∈ ((View.whole main_v45).slice (win1_5.rect t)).set ↔ _
  rw [View.set_slice_whole, Rect.mem_set_unit]
  exact Iff.rfl

/-- Every index is in the tile of the point its row divided by 5000 names. -/
theorem cover1 (i : S100000x96.Idx) : ∃ t : Fin cfg1.N, (cfg1.win 5).flush t = true ∧ i ∈ ((cfg1.win 5).blk t).view.set := by
  have hN : grid1.N = 20 := N_1
  have hi0 : (i 0).val < 100000 := idx2_lt0 i
  have hi1 : (i 1).val < 96 := idx2_lt1 i
  have ht : (i 0).val / 5000 < cfg1.N := by show (i 0).val / 5000 < grid1.N; rw [hN]; omega
  refine ⟨⟨(i 0).val / 5000, ht⟩, flush1_5 _, ?_⟩
  obtain ⟨-, -, -, -, -, -, -, -, -, -, e0, e1⟩ := idx_facts1 ⟨(i 0).val / 5000, ht⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 96 ≤ (i 1).val
      ∧ (i 1).val < win1_5.index ⟨(i 0).val / 5000, ht⟩ (1 : Fin 2) * 96 + 96
    rw [e1]; omega

/-- The output array after the region is the epilogue times the weights. -/
theorem arr1_eq (c : Dev nD) :
    (dat1 V c).arrAt 5 cfg1.N = G1 (V c main_v44) (V c main_v32) (V c main_v12) (V c main_v29) (V c main_arg5) :=
  (dat1 V c).arrAt_eq_of_cover 5 (G1 (V c main_v44) (V c main_v32) (V c main_v12) (V c main_v29) (V c main_arg5))
    (fun t _ => flushed1_eq V c t) cover1

/-- … read at row n and column q (a, h, d, b and w name the five arrays the region finds). -/
theorem arr1_apply (c : Dev nD) (a h : S100000x96.Idx → EReal) (d : S100000x1.Idx → EReal) (b : S1x96.Idx → EReal)
    (w : S96x96.Idx → EReal) (ha : a = V c main_v44) (hh : h = V c main_v32) (hd : d = V c main_v12) (hb : b = V c main_v29)
    (hw : w = V c main_arg5) (n : Fin 100000) (q : Fin 96) :
    ((dat1 V c).arrAt 5 cfg1.N : S100000x96.Idx → EReal) (ix2 n q)
      = ∑ k : Fin 96, max (a (ix2 n k) + h (ix2 n k) * d (ix2 n 0) + b (ix2 0 k)) (Ideal.ofBits .f32 0x00000000#32) * w (ix2 k q) := by
  subst ha; subst hh; subst hd; subst hb; subst hw
  rw [arr1_eq]
  rfl

end Cert.KernelIdeal.Hand

end
-- ==== Proof.KI.Val2.lean ====
/- Third pallas_call, the value: the same statement as the second pallas_call's on the next layer's arrays: after the
  region the output array holds, at row n and column q, the sum over k of
  relu (a[n, k] + h[n, k] · d[n, 0] + b[0, k]) · W[k, q]. -/
import proofs.«430643_j67972152427189_1_alg».proof.Proof.KI.Reg2
import proofs.«430643_j67972152427189_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The layer's epilogue times the weights, index by index. -/
def G2 (a h : S100000x96.Idx → EReal) (d : S100000x1.Idx → EReal) (b : S1x96.Idx → EReal) (w : S96x96.Idx → EReal) :
    S100000x96.Idx → EReal := fun i =>
  ∑ k : Fin 96, max (a (ix2 (⟨(i 0).val, idx2_lt0 i⟩ : Fin 100000) k)
      + h (ix2 (⟨(i 0).val, idx2_lt0 i⟩ : Fin 100000) k) * d (ix2 (⟨(i 0).val, idx2_lt0 i⟩ : Fin 100000) (0 : Fin 1))
      + b (ix2 (0 : Fin 1) k)) (Ideal.ofBits .f32 0x00000000#32)
    * w (ix2 k (⟨(i 1).val, idx2_lt1 i⟩ : Fin 96))

theorem G2_apply (a h : S100000x96.Idx → EReal) (d : S100000x1.Idx → EReal) (b : S1x96.Idx → EReal) (w : S96x96.Idx → EReal)
    (n : Fin 100000) (q : Fin 96) :
    G2 a h d b w (ix2 n q)
      = ∑ k : Fin 96, max (a (ix2 n k) + h (ix2 n k) * d (ix2 n 0) + b (ix2 0 k)) (Ideal.ofBits .f32 0x00000000#32) * w (ix2 k q) := rfl

/-- The index maps over the grid: the row-tiled windows sit at block row t, the bias row and the weights at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The tile of a at point t, at (p, k), is a at row 5000·t + p. -/
theorem iblk2_0_apply (c : Dev nD) (t : Fin cfg2.N) (p : Fin 5000) (k : Fin 96) (n : Fin 100000) (k' : Fin 96)
    (hn : n.val = 5000 * t.val + p.val) (hk : k'.val = k.val) :
    (iblk2 V c 0 t : S5000x96.Idx → EReal) (ix2 p k) = (V c main_v57 : S100000x96.Idx → EReal) (ix2 n k') := by
  obtain ⟨e0, e1, -⟩ := idx_facts2 t
  unfold iblk2
  rw [View.read_apply]
  show (V c main_v57 : S100000x96.Idx → EReal) _ = V c main_v57 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 96 + 1 * k.val = k'.val; rw [e1, hk]; omega

/-- The tile of h at point t, at (p, k), is h at row 5000·t + p. -/
theorem iblk2_1_apply (c : Dev nD) (t : Fin cfg2.N) (p : Fin 5000) (k : Fin 96) (n : Fin 100000) (k' : Fin 96)
    (hn : n.val = 5000 * t.val + p.val) (hk : k'.val = k.val) :
    (iblk2 V c 1 t : S5000x96.Idx → EReal) (ix2 p k) = (V c main_v45 : S100000x96.Idx → EReal) (ix2 n k') := by
  obtain ⟨-, -, e0, e1, -⟩ := idx_facts2 t
  unfold iblk2
  rw [View.read_apply]
  show (V c main_v45 : S100000x96.Idx → EReal) _ = V c main_v45 _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 96 + 1 * k.val = k'.val; rw [e1, hk]; omega

/-- The tile of d at point t, at (p, 0), is d at row 5000·t + p. -/
theorem iblk2_2_apply (c : Dev nD) (t : Fin cfg2.N) (p : Fin 5000) (n : Fin 100000)
    (hn : n.val = 5000 * t.val + p.val) :
    (iblk2 V c 2 t : S5000x1.Idx → EReal) (ix2 p (0 : Fin 1)) = (V c main_v12 : S100000x1.Idx → EReal) (ix2 n (0 : Fin 1)) := by
  obtain ⟨-, -, -, -, e0, e1, -⟩ := idx_facts2 t
  unfold iblk2
  rw [View.read_apply]
  show (V c main_v12 : S100000x1.Idx → EReal) _ = V c main_v12 _
  congr 1
  funext a
  apply Fin.ext
  match a with
  | ⟨0, _⟩ => show win2_2.index t (0 : Fin 2) * 5000 + 1 * p.val = n.val; rw [e0, hn]; omega
  | ⟨1, _⟩ => show win2_2.index t (1 : Fin 2) * 1 + 1 * 0 = 0; rw [e1]

/-- The block of the bias row at point t is the whole row. -/
theorem iblk2_3_apply (c : Dev nD) (t : Fin cfg2.N) (k : Fin 96) (k' : Fin 96) (hk : k'.val = k.val) :
    (iblk2 V c 3 t : S1x96.Idx → EReal) (ix2 (0 : Fin 1) k) = (V c main_v30 : S1x96.Idx → EReal) (ix2 (0 : Fin 1) k') := by
  obtain ⟨-, -, -, -, -, -, e0, e1, -⟩ := idx_facts2 t
  unfold iblk2
  rw [View.read_apply]
  show (V c main_v30 : S1x96.Idx → EReal) _ = V c main_v30 _
  congr 1
  funext a
  apply Fin.ext
  match a with
  | ⟨0, _⟩ => show win2_3.index t (0 : Fin 2) * 1 + 1 * 0 = 0; rw [e0]
  | ⟨1, _⟩ => show win2_3.index t (1 : Fin 2) * 96 + 1 * k.val = k'.val; rw [e1, hk]; omega

/-- The block of the weights at point t is the whole of W. -/
theorem iblk2_4_apply (c : Dev nD) (t : Fin cfg2.N) (k : Fin 96) (q : Fin 96) (q' : Fin 96) (hq : q'.val = q.val) :
    (iblk2 V c 4 t : S96x96.Idx → EReal) (ix2 k q) = (V c main_arg7 : S96x96.Idx → EReal) (ix2 k q') := by
  obtain ⟨-, -, -, -, -, -, -, -, e0, e1, -⟩ := idx_facts2 t
  unfold iblk2
  rw [View.read_apply]
  show (V c main_arg7 : S96x96.Idx → EReal) _ = V c main_arg7 _
  congr 1
  funext a
  apply Fin.ext
  match a with
  | ⟨0, _⟩ => show win2_4.index t (0 : Fin 2) * 96 + 1 * k.val = k.val; rw [e0]; omega
  | ⟨1, _⟩ => show win2_4.index t (1 : Fin 2) * 96 + 1 * q.val = q'.val; rw [e1, hq]; omega

/-- What point t writes back is its tile of the epilogue times the weights. -/
theorem flushed2_eq (c : Dev nD) (t : Fin cfg2.N) :
    (dat2 V c).flushed 5 t
      = ((cfg2.win 5).blk t).view.read (Elt Ideal)
          (G2 (V c main_v57) (V c main_v45) (V c main_v12) (V c main_v30) (V c main_arg7)) := by
  show (cfg2.win 5).cut (grid2.coords t) ((dat2 V c).after 5 t) = _
  rw [after2_5]
  unfold out2_5
  rw [View.canon_unit_zero hz2]
  simp only [View.ld_unit_zero (S := S5000x96) hz2, View.ld_unit_zero (S := S5000x1) hz2, View.ld_unit_zero (S := S1x96) hz2,
    View.ld_unit_zero (S := S96x96) hz2]
  obtain ⟨-, -, -, -, -, -, -, -, -, -, e0, e1⟩ := idx_facts2 t
  funext j
  obtain ⟨p, q, rfl⟩ : ∃ (p : Fin 5000) (q : Fin 96), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G2 (V c main_v57) (V c main_v45) (V c main_v12) (V c main_v30) (V c main_arg7) (((cfg2.win 5).blk t).view.emb (ix2 p q))
  rw [pay2_apply]
  unfold G2
  have hn : (((cfg2.win 5).blk t).view.emb (ix2 p q) 0).val = 5000 * t.val + p.val := by
    show win2_5.index t (0 : Fin 2) * 5000 + 1 * p.val = 5000 * t.val + p.val
    rw [e0]; omega
  have hq : (((cfg2.win 5).blk t).view.emb (ix2 p q) 1).val = q.val := by
    show win2_5.index t (1 : Fin 2) * 96 + 1 * q.val = q.val
    rw [e1]; omega
  refine Finset.sum_congr rfl fun k _ => ?_
  exact congrArg₂ (· * ·)
    (congrArg (fun x : EReal => max x (Ideal.ofBits .f32 0x00000000#32))
      (congrArg₂ (· + ·)
        (congrArg₂ (· + ·) (iblk2_0_apply V c t p k _ k hn rfl)
          (congrArg₂ (· * ·) (iblk2_1_apply V c t p k _ k hn rfl) (iblk2_2_apply V c t p _ hn)))
        (iblk2_3_apply V c t k k rfl)))
    (iblk2_4_apply V c t k q _ hq)

/-- An index of the array is in point t's tile iff each coordinate is in the tile's range on its axis. -/
theorem mem_blk2 (t : Fin cfg2.N) (i : S100000x96.Idx) :
    i ∈ ((cfg2.win 5).blk t).view.set ↔ ∀ a : Fin 2, win2_5.index t a * S5000x96.size a ≤ (i a).val
      ∧ (i a).val < win2_5.index t a * S5000x96.size a + S5000x96.size a := by
  show i ∈ ((View.whole main_v58).slice (win2_5.rect t)).set ↔ _
  rw [View.set_slice_whole, Rect.mem_set_unit]
  exact Iff.rfl

/-- Every index is in the tile of the point its row divided by 5000 names. -/
theorem cover2 (i : S100000x96.Idx) : ∃ t : Fin cfg2.N, (cfg2.win 5).flush t = true ∧ i ∈ ((cfg2.win 5).blk t).view.set := by
  have hN : grid2.N = 20 := N_2
  have hi0 : (i 0).val < 100000 := idx2_lt0 i
  have hi1 : (i 1).val < 96 := idx2_lt1 i
  have ht : (i 0).val / 5000 < cfg2.N := by show (i 0).val / 5000 < grid2.N; rw [hN]; omega
  refine ⟨⟨(i 0).val / 5000, ht⟩, flush2_5 _, ?_⟩
  obtain ⟨-, -, -, -, -, -, -, -, -, -, e0, e1⟩ := idx_facts2 ⟨(i 0).val / 5000, ht⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 96 ≤ (i 1).val
      ∧ (i 1).val < win2_5.index ⟨(i 0).val / 5000, ht⟩ (1 : Fin 2) * 96 + 96
    rw [e1]; omega

/-- The output array after the region is the epilogue times the weights. -/
theorem arr2_eq (c : Dev nD) :
    (dat2 V c).arrAt 5 cfg2.N = G2 (V c main_v57) (V c main_v45) (V c main_v12) (V c main_v30) (V c main_arg7) :=
  (dat2 V c).arrAt_eq_of_cover 5 (G2 (V c main_v57) (V c main_v45) (V c main_v12) (V c main_v30) (V c main_arg7))
    (fun t _ => flushed2_eq V c t) cover2

/-- … read at row n and column q (a, h, d, b and w name the five arrays the region finds). -/
theorem arr2_apply (c : Dev nD) (a h : S100000x96.Idx → EReal) (d : S100000x1.Idx → EReal) (b : S1x96.Idx → EReal)
    (w : S96x96.Idx → EReal) (ha : a = V c main_v57) (hh : h = V c main_v45) (hd : d = V c main_v12) (hb : b = V c main_v30)
    (hw : w = V c main_arg7) (n : Fin 100000) (q : Fin 96) :
    ((dat2 V c).arrAt 5 cfg2.N : S100000x96.Idx → EReal) (ix2 n q)
      = ∑ k : Fin 96, max (a (ix2 n k) + h (ix2 n k) * d (ix2 n 0) + b (ix2 0 k)) (Ideal.ofBits .f32 0x00000000#32) * w (ix2 k q) := by
  subst ha; subst hh; subst hd; subst hb; subst hw
  rw [arr2_eq]
  rfl

end Cert.KernelIdeal.Hand

end
-- ==== Proof.KI.Val3.lean ====
/-
  Fourth pallas_call, the value: after the region the output array holds, at row n and column q,
  a[n, q] + h[n, q] · d[n, 0] + b[0, q], where a, h, d and b are the arrays the region finds (the aggregate, the
  features, the per-row scale and the bias row).
  A grid point t writes back rows 5000·t … 5000·t + 4999 from the same rows of a, h and d and the whole of b. Every
  row lies in exactly the tile of the point n / 5000, so the tiles cover the array.
-/
import proofs.«430643_j67972152427189_1_alg».proof.Proof.KI.Reg3
import proofs.«430643_j67972152427189_1_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The combination of the four arrays, index by index. -/
def G3 (a h : S100000x96.Idx → EReal) (d : S100000x1.Idx → EReal) (b : S1x96.Idx → EReal) : S100000x96.Idx → EReal := fun i =>
  a (ix2 (⟨(i 0).val, idx2_lt0 i⟩ : Fin 100000) (⟨(i 1).val, idx2_lt1 i⟩ : Fin 96))
    + h (ix2 (⟨(i 0).val, idx2_lt0 i⟩ : Fin 100000) (⟨(i 1).val, idx2_lt1 i⟩ : Fin 96))
      * d (ix2 (⟨(i 0).val, idx2_lt0 i⟩ : Fin 100000) (0 : Fin 1))
    + b (ix2 (0 : Fin 1) (⟨(i 1).val, idx2_lt1 i⟩ : Fin 96))

theorem G3_apply (a h : S100000x96.Idx → EReal) (d : S100000x1.Idx → EReal) (b : S1x96.Idx → EReal) (n : Fin 100000) (q : Fin 96) :
    G3 a h d b (ix2 n q) = a (ix2 n q) + h (ix2 n q) * d (ix2 n 0) + b (ix2 0 q) := rfl

/-- The index maps over the grid: the row-tiled windows sit at block row t, the bias row at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The tile of a at point t, at (p, k), is a at row 5000·t + p. -/
theorem iblk3_0_apply (c : Dev nD) (t : Fin cfg3.N) (p : Fin 5000) (k : Fin 96) (n : Fin 100000) (k' : Fin 96)
    (hn : n.val = 5000 * t.val + p.val) (hk : k'.val = k.val) :
    (iblk3 V c 0 t : S5000x96.Idx → EReal) (ix2 p k) = (V c main_v70 : S100000x96.Idx → EReal) (ix2 n k') := by
  obtain ⟨e0, e1, -⟩ := idx_facts3 t
  unfold iblk3
  rw [View.read_apply]
  show (V c main_v70 : S100000x96.Idx → EReal) _ = V c main_v70 _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 96 + 1 * k.val = k'.val; rw [e1, hk]; omega

/-- The tile of h at point t, at (p, k), is h at row 5000·t + p. -/
theorem iblk3_1_apply (c : Dev nD) (t : Fin cfg3.N) (p : Fin 5000) (k : Fin 96) (n : Fin 100000) (k' : Fin 96)
    (hn : n.val = 5000 * t.val + p.val) (hk : k'.val = k.val) :
    (iblk3 V c 1 t : S5000x96.Idx → EReal) (ix2 p k) = (V c main_v58 : S100000x96.Idx → EReal) (ix2 n k') := by
  obtain ⟨-, -, e0, e1, -⟩ := idx_facts3 t
  unfold iblk3
  rw [View.read_apply]
  show (V c main_v58 : S100000x96.Idx → EReal) _ = V c main_v58 _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 96 + 1 * k.val = k'.val; rw [e1, hk]; omega

/-- The tile of d at point t, at (p, 0), is d at row 5000·t + p. -/
theorem iblk3_2_apply (c : Dev nD) (t : Fin cfg3.N) (p : Fin 5000) (n : Fin 100000)
    (hn : n.val = 5000 * t.val + p.val) :
    (iblk3 V c 2 t : S5000x1.Idx → EReal) (ix2 p (0 : Fin 1)) = (V c main_v12 : S100000x1.Idx → EReal) (ix2 n (0 : Fin 1)) := by
  obtain ⟨-, -, -, -, e0, e1, -⟩ := idx_facts3 t
  unfold iblk3
  rw [View.read_apply]
  show (V c main_v12 : S100000x1.Idx → EReal) _ = V c main_v12 _
  congr 1
  funext a
  apply Fin.ext
  match a with
  | ⟨0, _⟩ => show win3_2.index t (0 : Fin 2) * 5000 + 1 * p.val = n.val; rw [e0, hn]; omega
  | ⟨1, _⟩ => show win3_2.index t (1 : Fin 2) * 1 + 1 * 0 = 0; rw [e1]

/-- The block of the bias row at point t is the whole row. -/
theorem iblk3_3_apply (c : Dev nD) (t : Fin cfg3.N) (k : Fin 96) (k' : Fin 96) (hk : k'.val = k.val) :
    (iblk3 V c 3 t : S1x96.Idx → EReal) (ix2 (0 : Fin 1) k) = (V c main_v31 : S1x96.Idx → EReal) (ix2 (0 : Fin 1) k') := by
  obtain ⟨-, -, -, -, -, -, e0, e1, -⟩ := idx_facts3 t
  unfold iblk3
  rw [View.read_apply]
  show (V c main_v31 : S1x96.Idx → EReal) _ = V c main_v31 _
  congr 1
  funext a
  apply Fin.ext
  match a with
  | ⟨0, _⟩ => show win3_3.index t (0 : Fin 2) * 1 + 1 * 0 = 0; rw [e0]
  | ⟨1, _⟩ => show win3_3.index t (1 : Fin 2) * 96 + 1 * k.val = k'.val; rw [e1, hk]; omega

/-- What point t writes back is its tile of the combination. -/
theorem flushed3_eq (c : Dev nD) (t : Fin cfg3.N) :
    (dat3 V c).flushed 4 t
      = ((cfg3.win 4).blk t).view.read (Elt Ideal) (G3 (V c main_v70) (V c main_v58) (V c main_v12) (V c main_v31)) := by
  show (cfg3.win 4).cut (grid3.coords t) ((dat3 V c).after 4 t) = _
  rw [after3_4]
  unfold out3_4
  rw [View.canon_unit_zero hz3]
  simp only [View.ld_unit_zero (S := S5000x96) hz3, View.ld_unit_zero (S := S5000x1) hz3, View.ld_unit_zero (S := S1x96) hz3]
  obtain ⟨-, -, -, -, -, -, -, -, e0, e1⟩ := idx_facts3 t
  funext j
  obtain ⟨p, q, rfl⟩ : ∃ (p : Fin 5000) (q : Fin 96), j = ix2 p q := ⟨j 0, j 1, eq_ix2 j⟩
  show k3_pay1 (F := Ideal) (iblk3 V c 0 t) (iblk3 V c 1 t) (iblk3 V c 2 t) (iblk3 V c 3 t) (ix2 p q)
    = G3 (V c main_v70) (V c main_v58) (V c main_v12) (V c main_v31) (((cfg3.win 4).blk t).view.emb (ix2 p q))
  rw [pay3_apply]
  unfold G3
  have hn : (((cfg3.win 4).blk t).view.emb (ix2 p q) 0).val = 5000 * t.val + p.val := by
    show win3_4.index t (0 : Fin 2) * 5000 + 1 * p.val = 5000 * t.val + p.val
    rw [e0]; omega
  have hq : (((cfg3.win 4).blk t).view.emb (ix2 p q) 1).val = q.val := by
    show win3_4.index t (1 : Fin 2) * 96 + 1 * q.val = q.val
    rw [e1]; omega
  exact congrArg₂ (· + ·)
    (congrArg₂ (· + ·) (iblk3_0_apply V c t p q _ _ hn hq)
      (congrArg₂ (· * ·) (iblk3_1_apply V c t p q _ _ hn hq) (iblk3_2_apply V c t p _ hn)))
    (iblk3_3_apply V c t q _ hq)

/-- An index of the array is in point t's tile iff each coordinate is in the tile's range on its axis. -/
theorem mem_blk3 (t : Fin cfg3.N) (i : S100000x96.Idx) :
    i ∈ ((cfg3.win 4).blk t).view.set ↔ ∀ a : Fin 2, win3_4.index t a * S5000x96.size a ≤ (i a).val
      ∧ (i a).val < win3_4.index t a * S5000x96.size a + S5000x96.size a := by
  show i ∈ ((View.whole main_v71).slice (win3_4.rect t)).set ↔ _
  rw [View.set_slice_whole, Rect.mem_set_unit]
  exact Iff.rfl

/-- Every index is in the tile of the point its row divided by 5000 names. -/
theorem cover3 (i : S100000x96.Idx) : ∃ t : Fin cfg3.N, (cfg3.win 4).flush t = true ∧ i ∈ ((cfg3.win 4).blk t).view.set := by
  have hN : grid3.N = 20 := N_3
  have hi0 : (i 0).val < 100000 := idx2_lt0 i
  have hi1 : (i 1).val < 96 := idx2_lt1 i
  have ht : (i 0).val / 5000 < cfg3.N := by show (i 0).val / 5000 < grid3.N; rw [hN]; omega
  refine ⟨⟨(i 0).val / 5000, ht⟩, flush3_4 _, ?_⟩
  obtain ⟨-, -, -, -, -, -, -, -, e0, e1⟩ := idx_facts3 ⟨(i 0).val / 5000, ht⟩
  rw [mem_blk3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 96 ≤ (i 1).val
      ∧ (i 1).val < win3_4.index ⟨(i 0).val / 5000, ht⟩ (1 : Fin 2) * 96 + 96
    rw [e1]; omega

/-- The output array after the region is the combination. -/
theorem arr3_eq (c : Dev nD) :
    (dat3 V c).arrAt 4 cfg3.N = G3 (V c main_v70) (V c main_v58) (V c main_v12) (V c main_v31) :=
  (dat3 V c).arrAt_eq_of_cover 4 (G3 (V c main_v70) (V c main_v58) (V c main_v12) (V c main_v31))
    (fun t _ => flushed3_eq V c t) cover3

/-- … read at row n and column q (a, h, d and b name the four arrays the region finds). -/
theorem arr3_apply (c : Dev nD) (a h : S100000x96.Idx → EReal) (d : S100000x1.Idx → EReal) (b : S1x96.Idx → EReal)
    (ha : a = V c main_v70) (hh : h = V c main_v58) (hd : d = V c main_v12) (hb : b = V c main_v31)
    (n : Fin 100000) (q : Fin 96) :
    ((dat3 V c).arrAt 4 cfg3.N : S100000x96.Idx → EReal) (ix2 n q) = a (ix2 n q) + h (ix2 n q) * d (ix2 n 0) + b (ix2 0 q) := by
  subst ha; subst hh; subst hd; subst hb
  rw [arr3_eq]
  rfl

end Cert.KernelIdeal.Hand

end
-- ==== Proof.Ref.Sums.lean ====
/-
  Two facts about finite sums in the extended reals, used to join a whole-array sum
  with a tile-by-tile accumulation.

  * `tile_sum`: a sum over 100000 rows splits as a sum over 20 tiles of 5000 rows each,
    row `n` being row `n % 5000` of tile `n / 5000`.
  * `fold_sum`: an accumulator that starts at `z + P 0` and adds `P (n+1)` at step `n+1`
    holds `z + ∑ t ≤ n, P t` after step `n`.
-/
import Mathlib.Data.EReal.Basic
import Mathlib.Data.Fintype.BigOperators
import Mathlib.Logic.Equiv.Fin.Basic
import Mathlib.Algebra.BigOperators.Fin

namespace Cert.ReferenceIdeal.Hand

open scoped BigOperators

/-- The running value of an accumulator: it starts at `z + P 0` and at each later step adds the
next term, so after step `n` it holds `z` plus the first `n + 1` terms. -/
theorem fold_sum {ι : Type} (z : ι → EReal) (P : ℕ → ι → EReal) (a : ℕ → ι → EReal)
    (h0 : a 0 = fun i => z i + P 0 i)
    (hs : ∀ n, a (n + 1) = fun i => a n i + P (n + 1) i) (n : ℕ) (i : ι) :
    a n i = z i + ∑ t ∈ Finset.range (n + 1), P t i := by
  induction n with
  | zero =>
    rw [h0, Finset.sum_range_one]
  | succ m ih =>
    rw [hs m, Finset.sum_range_succ _ (m + 1), ← add_assoc, ← ih]

/-- A sum over the 100000 rows, taken tile by tile: 20 tiles of 5000 consecutive rows. The pair
`(t, r)` is row `5000 * t + r`, and this pairing is a bijection onto the rows. -/
theorem tile_sum (f : Fin 100000 → EReal) :
    (∑ t : Fin 20, ∑ r : Fin 5000, f ⟨5000 * t.val + r.val, by omega⟩) = ∑ n : Fin 100000, f n := by
  have e : (∑ n : Fin (20 * 5000), f n) = ∑ p : Fin 20 × Fin 5000, f (finProdFinEquiv p) :=
    (Fintype.sum_equiv finProdFinEquiv _ _ (fun _ => rfl)).symm
  have e' : (∑ n : Fin 100000, f n) = ∑ n : Fin (20 * 5000), f n := rfl
  rw [e', e, Fintype.sum_prod_type]
  refine Finset.sum_congr rfl fun t _ => Finset.sum_congr rfl fun r _ => ?_
  refine congrArg f (Fin.ext ?_)
  show 5000 * t.val + r.val = r.val + 5000 * t.val
  exact Nat.add_comm _ _

end Cert.ReferenceIdeal.Hand
-- ==== Proof.KI.Val4.lean ====
/-
  Fifth pallas_call, the value: after the region the output array holds, at graph g and column j, the sum over k of
  (the sum over the rows n of graph g of h[n, k]) divided by the clamped count of graph g, times Wlin[k, j], where h,
  the graph ids, the counts and Wlin are the arrays the region finds.
  The accumulator after point t holds the sums over the rows of tiles 0 … t; row n lies in tile n / 5000, so after the
  last point it holds the sums over all rows. Only the last point writes the output block back, and that block is the
  whole array.
-/
import proofs.«430643_j67972152427189_1_alg».proof.Proof.KI.Reg4
import proofs.«430643_j67972152427189_1_alg».proof.Proof.KI.Pay
import proofs.«430643_j67972152427189_1_alg».proof.Proof.Ref.Sums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The index maps over the grid: the tiles of h and of the graph ids sit at block row t, the counts, the projection
    matrix and the output at block (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The tile of h at point t, at (p, k), is h at row 5000·t + p. -/
theorem iblk4_0_apply (c : Dev nD) (t : Fin cfg4.N) (p : Fin 5000) (k : Fin 96) (n : Fin 100000)
    (hn : n.val = 5000 * t.val + p.val) :
    (iblk4 V c 0 t : S5000x96.Idx → EReal) (ix2 p k) = (V c main_v71 : S100000x96.Idx → EReal) (ix2 n k) := by
  obtain ⟨e0, e1, -⟩ := idx_facts4 t
  unfold iblk4
  rw [View.read_apply]
  show (V c main_v71 : S100000x96.Idx → EReal) _ = V c main_v71 _
  congr 1
  funext a
  apply Fin.ext
  match a with
  | ⟨0, _⟩ => show win4_0.index t (0 : Fin 2) * 5000 + 1 * p.val = n.val; rw [e0, hn]; omega
  | ⟨1, _⟩ => show win4_0.index t (1 : Fin 2) * 96 + 1 * k.val = k.val; rw [e1]; omega

/-- The tile of graph ids at point t, at row p, is the graph id of row 5000·t + p. -/
theorem iblk4_1_apply (c : Dev nD) (t : Fin cfg4.N) (p : Fin 5000) (n : Fin 100000)
    (hn : n.val = 5000 * t.val + p.val) :
    (iblk4 V c 1 t : S5000x1.Idx → BitVec 32) (ix2 p 0) = (V c main_v77 : S100000x1.Idx → BitVec 32) (ix2 n 0) := by
  obtain ⟨-, -, e0, e1, -⟩ := idx_facts4 t
  unfold iblk4
  rw [View.read_apply]
  show (V c main_v77 : S100000x1.Idx → BitVec 32) _ = V c main_v77 _
  congr 1
  funext a
  apply Fin.ext
  match a with
  | ⟨0, _⟩ => show win4_1.index t (0 : Fin 2) * 5000 + 1 * p.val = n.val; rw [e0, hn]; omega
  | ⟨1, _⟩ => show win4_1.index t (1 : Fin 2) * 1 + 1 * 0 = 0; rw [e1]

/-- The block of the counts at point t is the whole array of counts. -/
theorem iblk4_2_apply (c : Dev nD) (t : Fin cfg4.N) (g : Fin 256) :
    (iblk4 V c 2 t : S256x1.Idx → EReal) (ix2 g 0) = (V c main_v76 : S256x1.Idx → EReal) (ix2 g 0) := by
  obtain ⟨-, -, -, -, e0, e1, -⟩ := idx_facts4 t
  unfold iblk4
  rw [View.read_apply]
  show (V c main_v76 : S256x1.Idx → EReal) _ = V c main_v76 _
  congr 1
  funext a
  apply Fin.ext
  match a with
  | ⟨0, _⟩ => show win4_2.index t (0 : Fin 2) * 256 + 1 * g.val = g.val; rw [e0]; omega
  | ⟨1, _⟩ => show win4_2.index t (1 : Fin 2) * 1 + 1 * 0 = 0; rw [e1]

/-- The block of the projection matrix at point t is the whole matrix. -/
theorem iblk4_3_apply (c : Dev nD) (t : Fin cfg4.N) (k : Fin 96) (j : Fin 16) :
    (iblk4 V c 3 t : S96x16.Idx → EReal) (ix2 k j) = (V c main_arg9 : S96x16.Idx → EReal) (ix2 k j) := by
  obtain ⟨-, -, -, -, -, -, e0, e1, -⟩ := idx_facts4 t
  unfold iblk4
  rw [View.read_apply]
  show (V c main_arg9 : S96x16.Idx → EReal) _ = V c main_arg9 _
  congr 1
  funext a
  apply Fin.ext
  match a with
  | ⟨0, _⟩ => show win4_3.index t (0 : Fin 2) * 96 + 1 * k.val = k.val; rw [e0]; omega
  | ⟨1, _⟩ => show win4_3.index t (1 : Fin 2) * 16 + 1 * j.val = j.val; rw [e1]; omega

/-! ## The accumulator in closed form -/

/-- Row n's contribution to graph g's sum in column k: h[n, k] if row n belongs to graph g, else 0. -/
def term4 (c : Dev nD) (g : Fin 256) (k : Fin 96) (n : Fin 100000) : EReal :=
  (if (V c main_v77 : S100000x1.Idx → BitVec 32) (ix2 n 0) = BitVec.ofNat 32 g.val then (1 : EReal) else 0)
    * (V c main_v71 : S100000x96.Idx → EReal) (ix2 n k)

/-- Tile t's contribution: the sum of its 5000 rows' contributions (nothing past the twentieth tile). -/
def tile4 (c : Dev nD) (g : Fin 256) (k : Fin 96) (t : ℕ) : EReal :=
  if h : t < 20 then ∑ r : Fin 5000, term4 V c g k ⟨5000 * t + r.val, by have := r.isLt; omega⟩ else 0

/-- The one-hot product of the tile at point t is the tile's contribution. -/
theorem tile4_eq (c : Dev nD) (g : Fin 256) (k : Fin 96) (t : Fin cfg4.N) :
    (∑ r : Fin 5000, (if (iblk4 V c 1 t : S5000x1.Idx → BitVec 32) (ix2 r 0) = BitVec.ofNat 32 g.val then (1 : EReal) else 0)
        * (iblk4 V c 0 t : S5000x96.Idx → EReal) (ix2 r k)) = tile4 V c g k t.val := by
  have ht : t.val < 20 := lt_of_lt_of_eq t.isLt (show cfg4.N = 20 from N_4)
  unfold tile4
  rw [dif_pos ht]
  refine Finset.sum_congr rfl fun r _ => ?_
  unfold term4
  rw [iblk4_1_apply V c t r ⟨5000 * t.val + r.val, by have := r.isLt; omega⟩ rfl,
    iblk4_0_apply V c t r k ⟨5000 * t.val + r.val, by have := r.isLt; omega⟩ rfl]

/-- After point n the accumulator holds the contributions of tiles 0 … n. -/
theorem acc4_apply (c : Dev nD) (g : Fin 256) (k : Fin 96) :
    ∀ n : ℕ, n < 20 → (acc4 V c n : S256x96.Idx → EReal) (ix2 g k) = ∑ t ∈ Finset.range (n + 1), tile4 V c g k t
  | 0, _ => by
    rw [acc4_zero, pay4_acc_apply, pay4_zero', zero_add, Finset.sum_range_one]
    exact tile4_eq V c g k ⟨0, N4_pos⟩
  | n + 1, hn => by
    have hN : n + 1 < cfg4.N := lt_of_lt_of_eq hn (show cfg4.N = 20 from N_4).symm
    rw [acc4_succ V c n hN, pay4_acc_apply, acc4_apply c g k n (by omega), Finset.sum_range_succ _ (n + 1)]
    exact congrArg _ (tile4_eq V c g k ⟨n + 1, hN⟩)

/-- After the last point it holds the sum over all rows. -/
theorem acc4_last (c : Dev nD) (g : Fin 256) (k : Fin 96) :
    (acc4 V c 19 : S256x96.Idx → EReal) (ix2 g k) = ∑ n : Fin 100000, term4 V c g k n := by
  rw [acc4_apply V c g k 19 (by omega), Finset.sum_range (fun t => tile4 V c g k t),
    ← Cert.ReferenceIdeal.Hand.tile_sum (term4 V c g k)]
  refine Finset.sum_congr rfl fun t _ => ?_
  unfold tile4
  rw [dif_pos t.isLt]

/-! ## The output array -/

/-- The pooled and projected output, index by index. -/
def G4 (c : Dev nD) : S256x16.Idx → EReal := fun i =>
  ∑ k : Fin 96, Ideal.div (∑ n : Fin 100000, term4 V c (⟨(i 0).val, idx2_lt0 i⟩ : Fin 256) k n)
      (max ((V c main_v76 : S256x1.Idx → EReal) (ix2 (⟨(i 0).val, idx2_lt0 i⟩ : Fin 256) 0)) (Ideal.ofBits .f32 0x3F800000#32))
    * (V c main_arg9 : S96x16.Idx → EReal) (ix2 k (⟨(i 1).val, idx2_lt1 i⟩ : Fin 16))

theorem G4_apply (c : Dev nD) (g : Fin 256) (j : Fin 16) :
    G4 V c (ix2 g j) = ∑ k : Fin 96, Ideal.div (∑ n : Fin 100000, term4 V c g k n)
      (max ((V c main_v76 : S256x1.Idx → EReal) (ix2 g 0)) (Ideal.ofBits .f32 0x3F800000#32))
    * (V c main_arg9 : S96x16.Idx → EReal) (ix2 k j) := rfl

/-- What the last point writes back is the whole of the pooled output. -/
theorem flushed4_eq (c : Dev nD) (t : Fin cfg4.N) (hf : (cfg4.win 4).flush t = true) :
    (dat4 V c).flushed 4 t = ((cfg4.win 4).blk t).view.read (Elt Ideal) (G4 V c) := by
  have ht : t.val < 20 := lt_of_lt_of_eq t.isLt (show cfg4.N = 20 from N_4)
  have h19 : t.val = 19 := by have := (flush4_4 t).mp hf; omega
  show (cfg4.win 4).cut (grid4.coords t) ((dat4 V c).after 4 t) = _
  rw [after4_4]
  unfold out4_4
  obtain ⟨-, -, -, -, -, -, -, -, e0, e1⟩ := idx_facts4 t
  funext j
  obtain ⟨g, q, rfl⟩ : ∃ (g : Fin 256) (q : Fin 16), j = ix2 g q := ⟨j 0, j 1, eq_ix2 j⟩
  show k4_pay3 (F := Ideal) (acc4 V c t.val) (iblk4 V c 2 t) (iblk4 V c 3 t) (ix2 g q)
    = G4 V c (((cfg4.win 4).blk t).view.emb (ix2 g q))
  have he : ((cfg4.win 4).blk t).view.emb (ix2 g q) = (ix2 g q : S256x16.Idx) := funext fun a => Fin.ext (by
    match a with
    | ⟨0, _⟩ => show win4_4.index t (0 : Fin 2) * 256 + 1 * g.val = g.val; rw [e0]; omega
    | ⟨1, _⟩ => show win4_4.index t (1 : Fin 2) * 16 + 1 * q.val = q.val; rw [e1]; omega)
  rw [he, G4_apply, pay4_out_apply, h19]
  refine Finset.sum_congr rfl fun k _ => ?_
  rw [acc4_last, iblk4_2_apply, iblk4_3_apply]

/-- An index of the array is in point t's block iff each coordinate is in the block's range on its axis. -/
theorem mem_blk4 (t : Fin cfg4.N) (i : S256x16.Idx) :
    i ∈ ((cfg4.win 4).blk t).view.set ↔ ∀ a : Fin 2, win4_4.index t a * S256x16.size a ≤ (i a).val
      ∧ (i a).val < win4_4.index t a * S256x16.size a + S256x16.size a := by
  show i ∈ ((View.whole main_v78).slice (win4_4.rect t)).set ↔ _
  rw [View.set_slice_whole, Rect.mem_set_unit]
  exact Iff.rfl

/-- Every index is in the last point's block. -/
theorem cover4 (i : S256x16.Idx) : ∃ t : Fin cfg4.N, (cfg4.win 4).flush t = true ∧ i ∈ ((cfg4.win 4).blk t).view.set := by
  have hi0 : (i 0).val < 256 := idx2_lt0 i
  have hi1 : (i 1).val < 16 := idx2_lt1 i
  have ht : 19 < cfg4.N := lt_of_lt_of_eq (by omega : 19 < 20) (show cfg4.N = 20 from N_4).symm
  refine ⟨⟨19, ht⟩, (flush4_4 _).mpr rfl, ?_⟩
  obtain ⟨-, -, -, -, -, -, -, -, e0, e1⟩ := idx_facts4 ⟨19, ht⟩
  rw [mem_blk4]
  intro a
  match a with
  | ⟨0, _⟩ =>
    show win4_4.index ⟨19, ht⟩ (0 : Fin 2) * 256 ≤ (i 0).val ∧ (i 0).val < win4_4.index ⟨19, ht⟩ (0 : Fin 2) * 256 + 256
    rw [e0]; omega
  | ⟨1, _⟩ =>
    show win4_4.index ⟨19, ht⟩ (1 : Fin 2) * 16 ≤ (i 1).val ∧ (i 1).val < win4_4.index ⟨19, ht⟩ (1 : Fin 2) * 16 + 16
    rw [e1]; omega

/-- The output array after the region is the pooled and projected output. -/
theorem arr4_eq (c : Dev nD) : (dat4 V c).arrAt 4 cfg4.N = G4 V c :=
  (dat4 V c).arrAt_eq_of_cover 4 (G4 V c) (fun t hf => flushed4_eq V c t hf) cover4

/-- … read at graph g and column j. -/
theorem arr4_apply (c : Dev nD) (g : Fin 256) (j : Fin 16) :
    ((dat4 V c).arrAt 4 cfg4.N : S256x16.Idx → EReal) (ix2 g j)
      = ∑ k : Fin 96, Ideal.div (∑ n : Fin 100000,
            (if (V c main_v77 : S100000x1.Idx → BitVec 32) (ix2 n 0) = BitVec.ofNat 32 g.val then (1 : EReal) else 0)
              * (V c main_v71 : S100000x96.Idx → EReal) (ix2 n k))
          (max ((V c main_v76 : S256x1.Idx → EReal) (ix2 g 0)) (Ideal.ofBits .f32 0x3F800000#32))
        * (V c main_arg9 : S96x16.Idx → EReal) (ix2 k j) := by
  rw [arr4_eq]
  rfl

end Cert.KernelIdeal.Hand

end
-- ==== Proof.Ref.Layer.lean ====
/-
  The reference program's graph-convolution layer, named.

  The reference computes three layers of
      conv(x) = A(x·W) + (x·W) * dinv² + b,
  where dinv is the inverse square root of (in-degree + 1), A gathers the rows of x·W at the edge sources,
  scales each by dinv[src]·dinv[dst] and adds them up at the edge targets; a relu follows the first two layers;
  then the rows are averaged over each graph (a sum per graph divided by max(count, 1)) and multiplied by the
  last weight matrix. Part 1 names each of these pieces as a function, for every float model, spelt with the
  operations of the printed program in its order. Part 2 reads the pieces that do not depend on the edge list
  at an index, over the extended reals.
-/
import proofs.«430643_j67972152427189_1_alg».proof.ReferenceIdeal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Cert.ReferenceIdeal Idealize.ShloMosaic ValueIdx
open scoped BigOperators

variable [Facts₀]
open Facts₀

/-! ## Part 1: the pieces, for every float model -/

section Pieces
variable {F : FTy → Type} [FloatOps F]

/-- The edge sources: row 0 of the edge list. -/
def rSrc (ei : IVec S2x800000 32) : IVec S800000 32 :=
  shapeCast S800000 (extractStridedSlice S1x800000 ![0, 0] ei slices_S2x800000_S1x800000_0_0) shapeCasts_S1x800000_S800000

/-- The edge targets: row 1 of the edge list. -/
def rDst (ei : IVec S2x800000 32) : IVec S800000 32 :=
  shapeCast S800000 (extractStridedSlice S1x800000 ![1, 0] ei slices_S2x800000_S1x800000_1_0) shapeCasts_S1x800000_S800000

/-- A negative node number counts from the end: v < 0 ? v + 100000 : v. -/
def rNorm (v : IVec S800000 32) : IVec S800000 32 :=
  select (cmpi .slt v (broadcastInDim S800000 ![] bcast_S_S800000 (constantI S_ 32 0#32))) (addi v (broadcastInDim S800000 ![] bcast_S_S800000 (constantI S_ 32 100000#32))) v

/-- dinv = rsqrt(in-degree + 1): ones scattered at the edge targets, plus one, inverse square root. -/
def rDinv (ei : IVec S2x800000 32) : FVec F S100000 .f32 :=
  Host.rsqrt (addf (Host.scatterAdd scatter_S100000_S800000x1_S800000_n_0_0_1 (broadcastInDim S100000 ![] bcast_S_S100000 (constant (F := F) S_ .f32 0x00000000#32)) (broadcastInDim S800000x1 ![0] bcast_S800000_S800000x1_0 (rNorm (rDst ei))) (broadcastInDim S800000 ![] bcast_S_S800000 (constant (F := F) S_ .f32 0x3F800000#32))) (broadcastInDim S100000 ![] bcast_S_S100000 (constant (F := F) S_ .f32 0x3F800000#32)))

/-- The edge coefficient dinv[src] * dinv[dst]. -/
def rCoef (ei : IVec S2x800000 32) : FVec F S800000 .f32 :=
  mulf (Host.gather gather_S100000_S800000x1_S800000_n_0_n_n_0_1_1 (rDinv (F := F) ei) (broadcastInDim S800000x1 ![0] bcast_S800000_S800000x1_0 (rNorm (rSrc ei)))) (Host.gather gather_S100000_S800000x1_S800000_n_0_n_n_0_1_1 (rDinv (F := F) ei) (broadcastInDim S800000x1 ![0] bcast_S800000_S800000x1_0 (rNorm (rDst ei))))

/-- The aggregation: the rows of h at the edge sources, each scaled by its edge's coefficient, added up at the
    edge targets. -/
def rAgg (ei : IVec S2x800000 32) (h : FVec F S100000x96 .f32) : FVec F S100000x96 .f32 :=
  Host.scatterAdd scatter_S100000x96_S800000x1_S800000x96_1_0_0_1 (broadcastInDim S100000x96 ![] bcast_S_S100000x96 (constant (F := F) S_ .f32 0x00000000#32)) (broadcastInDim S800000x1 ![0] bcast_S800000_S800000x1_0 (rDst ei)) (mulf (Host.gather gather_S100000x96_S800000x1_S800000x96_1_0_n_n_0_1_196 h (broadcastInDim S800000x1 ![0] bcast_S800000_S800000x1_0 (rNorm (rSrc ei)))) (broadcastInDim S800000x96 ![0, 1] bcast_S800000x1_S800000x96_0_1 (broadcastInDim S800000x1 ![0] bcast_S800000_S800000x1_0 (rCoef (F := F) ei))))

/-- agg + h * dinv² + b, dinv² along the rows and b along the columns. -/
def rComb (agg h : FVec F S100000x96 .f32) (dinv : FVec F S100000 .f32) (b : FVec F S96 .f32) : FVec F S100000x96 .f32 :=
  addf (addf agg (mulf h (broadcastInDim S100000x96 ![0, 1] bcast_S100000x1_S100000x96_0_1 (broadcastInDim S100000x1 ![0] bcast_S100000_S100000x1_0 (mulf dinv dinv))))) (broadcastInDim S100000x96 ![0, 1] bcast_S1x96_S100000x96_0_1 (broadcastInDim S1x96 ![1] bcast_S96_S1x96_1 b))

/-- One graph-convolution layer. -/
def rConv (ei : IVec S2x800000 32) (x : FVec F S100000x96 .f32) (W : FVec F S96x96 .f32) (b : FVec F S96 .f32) : FVec F S100000x96 .f32 :=
  rComb (rAgg ei (Host.dotGeneral dot_S100000x96_S96x96_S100000x96_1_0_0_1_n_n none x W)) (Host.dotGeneral dot_S100000x96_S96x96_S100000x96_1_0_0_1_n_n none x W) (rDinv (F := F) ei) b

/-- relu: the maximum with zero. -/
def rRelu (x : FVec F S100000x96 .f32) : FVec F S100000x96 .f32 :=
  maximumf x (broadcastInDim S100000x96 ![] bcast_S_S100000x96 (constant (F := F) S_ .f32 0x00000000#32))

/-- The end of the pooling: each graph's sum divided by max(count, 1), times the last weight matrix. -/
def rPoolTail (sums : FVec F S256x96 .f32) (counts : FVec F S256 .f32) (Wl : FVec F S96x16 .f32) : FVec F S256x16 .f32 :=
  Host.dotGeneral dot_S256x96_S96x16_S256x16_1_0_0_1_n_n none (Host.divf sums (broadcastInDim S256x96 ![0, 1] bcast_S256x1_S256x96_0_1 (broadcastInDim S256x1 ![0] bcast_S256_S256x1_0 (maximumf counts (broadcastInDim S256 ![] bcast_S_S256 (constant (F := F) S_ .f32 0x3F800000#32)))))) Wl

/-- The mean pooling over the graphs and the last matrix product: the rows of h added up per graph, the rows
    counted per graph, then rPoolTail. -/
def rPool (h : FVec F S100000x96 .f32) (batch : IVec S100000 32) (Wl : FVec F S96x16 .f32) : FVec F S256x16 .f32 :=
  rPoolTail (Host.scatterAdd scatter_S256x96_S100000x1_S100000x96_1_0_0_1 (broadcastInDim S256x96 ![] bcast_S_S256x96 (constant (F := F) S_ .f32 0x00000000#32)) (broadcastInDim S100000x1 ![0] bcast_S100000_S100000x1_0 batch) h) (Host.scatterAdd scatter_S256_S100000x1_S100000_n_0_0_1 (broadcastInDim S256 ![] bcast_S_S256 (constant (F := F) S_ .f32 0x00000000#32)) (broadcastInDim S100000x1 ![0] bcast_S100000_S100000x1_0 batch) (broadcastInDim S100000 ![] bcast_S_S100000 (constant (F := F) S_ .f32 0x3F800000#32))) Wl

/-- The whole reference: three layers, a relu after the first two, the pooling. -/
def rOut (x : FVec F S100000x96 .f32) (ei : IVec S2x800000 32) (batch : IVec S100000 32)
    (W1 : FVec F S96x96 .f32) (b1 : FVec F S96 .f32) (W2 : FVec F S96x96 .f32) (b2 : FVec F S96 .f32)
    (W3 : FVec F S96x96 .f32) (b3 : FVec F S96 .f32) (Wl : FVec F S96x16 .f32) : FVec F S256x16 .f32 :=
  rPool (rConv ei (rRelu (rConv ei (rRelu (rConv ei x W1 b1)) W2 b2)) W3 b3) batch Wl

end Pieces

/-! ## Part 2: read at an index, over the extended reals -/

/-! ### The operand indices of the two matrix products -/

theorem mm_lhs0 (i : S100000x96.Idx) (q : dot_S100000x96_S96x96_S100000x96_1_0_0_1_n_n.contr.Idx) :
    (dot_S100000x96_S96x96_S100000x96_1_0_0_1_n_n.lhsIdx i q 0).val = (i 0).val := by
  unfold DotDims.lhsIdx
  rw [dif_neg (show ¬(0 : Fin S100000x96.rank) ∈ dot_S100000x96_S96x96_S100000x96_1_0_0_1_n_n.lhsBatch from List.not_mem_nil),
    dif_pos (show (0 : Fin S100000x96.rank) ∈ dot_S100000x96_S96x96_S100000x96_1_0_0_1_n_n.lhsNonContracting from List.mem_singleton.2 rfl)]
  rfl
theorem mm_lhs1 (i : S100000x96.Idx) (q : dot_S100000x96_S96x96_S100000x96_1_0_0_1_n_n.contr.Idx) :
    (dot_S100000x96_S96x96_S100000x96_1_0_0_1_n_n.lhsIdx i q 1).val = (q ⟨0, (Nat.one_pos : 0 < 1)⟩).val :=
  dot_S100000x96_S96x96_S100000x96_1_0_0_1_n_n.lhsIdx_val_of_single rfl i q
theorem mm_rhs0 (i : S100000x96.Idx) (q : dot_S100000x96_S96x96_S100000x96_1_0_0_1_n_n.contr.Idx) :
    (dot_S100000x96_S96x96_S100000x96_1_0_0_1_n_n.rhsIdx i q 0).val = (q ⟨0, (Nat.one_pos : 0 < 1)⟩).val :=
  dot_S100000x96_S96x96_S100000x96_1_0_0_1_n_n.rhsIdx_val_of_single rfl i q
theorem mm_rhs1 (i : S100000x96.Idx) (q : dot_S100000x96_S96x96_S100000x96_1_0_0_1_n_n.contr.Idx) :
    (dot_S100000x96_S96x96_S100000x96_1_0_0_1_n_n.rhsIdx i q 1).val = (i 1).val := by
  unfold DotDims.rhsIdx
  rw [dif_neg (show ¬(1 : Fin S96x96.rank) ∈ dot_S100000x96_S96x96_S100000x96_1_0_0_1_n_n.rhsBatch from List.not_mem_nil),
    dif_pos (show (1 : Fin S96x96.rank) ∈ dot_S100000x96_S96x96_S100000x96_1_0_0_1_n_n.rhsNonContracting from List.mem_singleton.2 rfl)]
  rfl

theorem pl_lhs0 (i : S256x16.Idx) (q : dot_S256x96_S96x16_S256x16_1_0_0_1_n_n.contr.Idx) :
    (dot_S256x96_S96x16_S256x16_1_0_0_1_n_n.lhsIdx i q 0).val = (i 0).val := by
  unfold DotDims.lhsIdx
  rw [dif_neg (show ¬(0 : Fin S256x96.rank) ∈ dot_S256x96_S96x16_S256x16_1_0_0_1_n_n.lhsBatch from List.not_mem_nil),
    dif_pos (show (0 : Fin S256x96.rank) ∈ dot_S256x96_S96x16_S256x16_1_0_0_1_n_n.lhsNonContracting from List.mem_singleton.2 rfl)]
  rfl
theorem pl_lhs1 (i : S256x16.Idx) (q : dot_S256x96_S96x16_S256x16_1_0_0_1_n_n.contr.Idx) :
    (dot_S256x96_S96x16_S256x16_1_0_0_1_n_n.lhsIdx i q 1).val = (q ⟨0, (Nat.one_pos : 0 < 1)⟩).val :=
  dot_S256x96_S96x16_S256x16_1_0_0_1_n_n.lhsIdx_val_of_single rfl i q
theorem pl_rhs0 (i : S256x16.Idx) (q : dot_S256x96_S96x16_S256x16_1_0_0_1_n_n.contr.Idx) :
    (dot_S256x96_S96x16_S256x16_1_0_0_1_n_n.rhsIdx i q 0).val = (q ⟨0, (Nat.one_pos : 0 < 1)⟩).val :=
  dot_S256x96_S96x16_S256x16_1_0_0_1_n_n.rhsIdx_val_of_single rfl i q
theorem pl_rhs1 (i : S256x16.Idx) (q : dot_S256x96_S96x16_S256x16_1_0_0_1_n_n.contr.Idx) :
    (dot_S256x96_S96x16_S256x16_1_0_0_1_n_n.rhsIdx i q 1).val = (i 1).val := by
  unfold DotDims.rhsIdx
  rw [dif_neg (show ¬(1 : Fin S96x16.rank) ∈ dot_S256x96_S96x16_S256x16_1_0_0_1_n_n.rhsBatch from List.not_mem_nil),
    dif_pos (show (1 : Fin S96x16.rank) ∈ dot_S256x96_S96x16_S256x16_1_0_0_1_n_n.rhsNonContracting from List.mem_singleton.2 rfl)]
  rfl

/-- The layer's matrix product at (n, q) is the sum over k of x[n, k] * W[k, q]. -/
theorem rMM_apply (x : FVec Ideal S100000x96 .f32) (W : FVec Ideal S96x96 .f32) (n : Fin 100000) (q : Fin 96) :
    Host.dotGeneral (F := Ideal) dot_S100000x96_S96x96_S100000x96_1_0_0_1_n_n none x W (ix2 n q) = ∑ k : Fin 96, x (ix2 n k) * W (ix2 k q) := by
  simp only [Host.dotGeneral]
  rw [Ideal.dotGeneral_apply, ← Equiv.sum_comp (ValueIdx.contrEquiv1 dot_S100000x96_S96x96_S100000x96_1_0_0_1_n_n 96 rfl rfl).symm]
  refine Finset.sum_congr rfl fun k _ => ?_
  have hk := ValueIdx.contrEquiv1_symm_val dot_S100000x96_S96x96_S100000x96_1_0_0_1_n_n 96 rfl rfl k
  have el : dot_S100000x96_S96x96_S100000x96_1_0_0_1_n_n.lhsIdx (ix2 n q) ((ValueIdx.contrEquiv1 dot_S100000x96_S96x96_S100000x96_1_0_0_1_n_n 96 rfl rfl).symm k) = ix2 n k := funext fun a => Fin.ext (by
    match a with
    | ⟨0, _⟩ => exact mm_lhs0 _ _
    | ⟨1, _⟩ => exact (mm_lhs1 _ _).trans hk)
  have er : dot_S100000x96_S96x96_S100000x96_1_0_0_1_n_n.rhsIdx (ix2 n q) ((ValueIdx.contrEquiv1 dot_S100000x96_S96x96_S100000x96_1_0_0_1_n_n 96 rfl rfl).symm k) = ix2 k q := funext fun a => Fin.ext (by
    match a with
    | ⟨0, _⟩ => exact (mm_rhs0 _ _).trans hk
    | ⟨1, _⟩ => exact mm_rhs1 _ _)
  rw [el, er]

/-- dinv² broadcast along the rows, read at (n, q). -/
theorem rowBcast_apply (y : FVec Ideal S100000 .f32) (n : Fin 100000) (q : Fin 96) :
    broadcastInDim S100000x96 ![0, 1] bcast_S100000x1_S100000x96_0_1 (broadcastInDim S100000x1 ![0] bcast_S100000_S100000x1_0 y) (ix2 n q) = y (ix1 n) := by
  rw [broadcastInDim_apply _ bcast_S100000x1_S100000x96_0_1 _ (ix2 n q) (ix2 n (0 : Fin 1)) (fun a => match a with
      | ⟨0, _⟩ => by show n.val = if (100000 : Nat) = 1 then 0 else n.val; rw [if_neg (by decide)]
      | ⟨1, _⟩ => by show 0 = if (1 : Nat) = 1 then 0 else q.val; rw [if_pos rfl]),
    broadcastInDim_apply _ bcast_S100000_S100000x1_0 _ (ix2 n (0 : Fin 1)) (ix1 n) (fun a => match a with
      | ⟨0, _⟩ => by show n.val = if (100000 : Nat) = 1 then 0 else n.val; rw [if_neg (by decide)])]

/-- The bias broadcast along the columns, read at (n, q). -/
theorem colBcast_apply (b : FVec Ideal S96 .f32) (n : Fin 100000) (q : Fin 96) :
    broadcastInDim S100000x96 ![0, 1] bcast_S1x96_S100000x96_0_1 (broadcastInDim S1x96 ![1] bcast_S96_S1x96_1 b) (ix2 n q) = b (ix1 q) := by
  rw [broadcastInDim_apply _ bcast_S1x96_S100000x96_0_1 _ (ix2 n q) (ix2 (0 : Fin 1) q) (fun a => match a with
      | ⟨0, _⟩ => by show 0 = if (1 : Nat) = 1 then 0 else n.val; rw [if_pos rfl]
      | ⟨1, _⟩ => by show q.val = if (96 : Nat) = 1 then 0 else q.val; rw [if_neg (by decide)]),
    broadcastInDim_apply _ bcast_S96_S1x96_1 _ (ix2 (0 : Fin 1) q) (ix1 q) (fun a => match a with
      | ⟨0, _⟩ => by show q.val = if (96 : Nat) = 1 then 0 else q.val; rw [if_neg (by decide)])]

/-- The layer's combination at (n, q): agg + h * dinv[n]² + b[q]. -/
theorem rComb_apply (agg h : FVec Ideal S100000x96 .f32) (dinv : FVec Ideal S100000 .f32) (b : FVec Ideal S96 .f32)
    (n : Fin 100000) (q : Fin 96) :
    rComb (F := Ideal) agg h dinv b (ix2 n q) = agg (ix2 n q) + h (ix2 n q) * (dinv (ix1 n) * dinv (ix1 n)) + b (ix1 q) := by
  unfold rComb
  rw [addf_apply, addf_apply, mulf_apply, rowBcast_apply, colBcast_apply, mulf_apply]

/-- relu at an index: the maximum with zero. -/
theorem rRelu_apply (x : FVec Ideal S100000x96 .f32) (i : S100000x96.Idx) :
    rRelu (F := Ideal) x i = max (x i) (Ideal.ofBits .f32 0x00000000#32) := by
  unfold rRelu
  rw [maximumf_apply, broadcastInDim_apply _ bcast_S_S100000x96 _ i ix0 (fun a => a.elim0), constant_apply]

/-- max(count, 1) broadcast along the rows of the per-graph sums, read at (g, k). -/
theorem cntBcast_apply (counts : FVec Ideal S256 .f32) (g : Fin 256) (k : Fin 96) :
    broadcastInDim S256x96 ![0, 1] bcast_S256x1_S256x96_0_1 (broadcastInDim S256x1 ![0] bcast_S256_S256x1_0 (maximumf counts (broadcastInDim S256 ![] bcast_S_S256 (constant (F := Ideal) S_ .f32 0x3F800000#32)))) (ix2 g k)
      = max (counts (ix1 g)) (Ideal.ofBits .f32 0x3F800000#32) := by
  rw [broadcastInDim_apply _ bcast_S256x1_S256x96_0_1 _ (ix2 g k) (ix2 g (0 : Fin 1)) (fun a => match a with
      | ⟨0, _⟩ => by show g.val = if (256 : Nat) = 1 then 0 else g.val; rw [if_neg (by decide)]
      | ⟨1, _⟩ => by show 0 = if (1 : Nat) = 1 then 0 else k.val; rw [if_pos rfl]),
    broadcastInDim_apply _ bcast_S256_S256x1_0 _ (ix2 g (0 : Fin 1)) (ix1 g) (fun a => match a with
      | ⟨0, _⟩ => by show g.val = if (256 : Nat) = 1 then 0 else g.val; rw [if_neg (by decide)]),
    maximumf_apply, broadcastInDim_apply _ bcast_S_S256 _ (ix1 g) ix0 (fun a => a.elim0), constant_apply]

/-- The end of the pooling at (g, j): the sum over k of (sums[g, k] / max(counts[g], 1)) * Wl[k, j]. -/
theorem rPoolTail_apply (sums : FVec Ideal S256x96 .f32) (counts : FVec Ideal S256 .f32) (Wl : FVec Ideal S96x16 .f32)
    (n : Fin 256) (q : Fin 16) :
    rPoolTail (F := Ideal) sums counts Wl (ix2 n q)
      = ∑ k : Fin 96, Ideal.div (sums (ix2 n k)) (max (counts (ix1 n)) (Ideal.ofBits .f32 0x3F800000#32)) * Wl (ix2 k q) := by
  unfold rPoolTail
  have hy : ∀ k : Fin 96, Host.divf sums (broadcastInDim S256x96 ![0, 1] bcast_S256x1_S256x96_0_1 (broadcastInDim S256x1 ![0] bcast_S256_S256x1_0 (maximumf counts (broadcastInDim S256 ![] bcast_S_S256 (constant (F := Ideal) S_ .f32 0x3F800000#32))))) (ix2 n k)
      = Ideal.div (sums (ix2 n k)) (max (counts (ix1 n)) (Ideal.ofBits .f32 0x3F800000#32)) := fun k => by
    rw [← cntBcast_apply counts n k]; rfl
  simp only [← hy]
  generalize Host.divf sums (broadcastInDim S256x96 ![0, 1] bcast_S256x1_S256x96_0_1 (broadcastInDim S256x1 ![0] bcast_S256_S256x1_0 (maximumf counts (broadcastInDim S256 ![] bcast_S_S256 (constant (F := Ideal) S_ .f32 0x3F800000#32))))) = y
  simp only [Host.dotGeneral]
  rw [Ideal.dotGeneral_apply, ← Equiv.sum_comp (ValueIdx.contrEquiv1 dot_S256x96_S96x16_S256x16_1_0_0_1_n_n 96 rfl rfl).symm]
  refine Finset.sum_congr rfl fun k _ => ?_
  have hk := ValueIdx.contrEquiv1_symm_val dot_S256x96_S96x16_S256x16_1_0_0_1_n_n 96 rfl rfl k
  have el : dot_S256x96_S96x16_S256x16_1_0_0_1_n_n.lhsIdx (ix2 n q) ((ValueIdx.contrEquiv1 dot_S256x96_S96x16_S256x16_1_0_0_1_n_n 96 rfl rfl).symm k) = ix2 n k := funext fun a => Fin.ext (by
    match a with
    | ⟨0, _⟩ => exact pl_lhs0 _ _
    | ⟨1, _⟩ => exact (pl_lhs1 _ _).trans hk)
  have er : dot_S256x96_S96x16_S256x16_1_0_0_1_n_n.rhsIdx (ix2 n q) ((ValueIdx.contrEquiv1 dot_S256x96_S96x16_S256x16_1_0_0_1_n_n 96 rfl rfl).symm k) = ix2 k q := funext fun a => Fin.ext (by
    match a with
    | ⟨0, _⟩ => exact (pl_rhs0 _ _).trans hk
    | ⟨1, _⟩ => exact pl_rhs1 _ _)
  rw [el, er]

end Cert.ReferenceIdeal.Hand

end
-- ==== Proof.Ref.Pool.lean ====
/-
  The reference's segment sum (an accumulating scatter of the node rows into one row per graph), read at an
  index: row `g`, column `k` of the result is the sum over all nodes `n` of the node row's column `k`,
  counted when node `n`'s graph id is `g`.

  The scatter lands update element `(n, k')` at operand element `(start, k')`, where `start` is the graph id
  of node `n` read as a signed integer and not clamped; an update whose start leaves `[0, 256)` is dropped.
  For `g < 256` the signed reading of a 32-bit word equals `g` exactly when the word is `g`, so the
  updates that land on `(g, k)` are exactly the `(n, k)` with `batch n = g`.
-/
import proofs.«430643_j67972152427189_1_alg».proof.ReferenceIdeal
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Basic
import Mathlib.Data.EReal.Basic

noncomputable section

namespace Cert.ReferenceIdeal.Hand

open Cert.ReferenceIdeal Cert.ReferenceIdeal.Facts₀ Idealize.ShloMosaic ValueIdx
open scoped BigOperators

/-- An update index lands on operand index `i` exactly when, on every operand axis, the start (read signed)
plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have e'' : (d.start j idx a + (d.window j a : Int)).toNat = (i a).val := congrArg Fin.val e'
      have := h a
      omega
    · intro e
      refine congrArg some (funext fun a => Fin.ext ?_)
      show (d.start j idx a + (d.window j a : Int)).toNat = (i a).val
      have := e a
      omega
  · rename_i h
    constructor
    · intro e; cases e
    · intro e
      refine absurd (fun a => ?_) h
      have := e a
      have := (i a).isLt
      constructor <;> omega

/-- For `g < 256`, a 32-bit word read as a signed integer is `g` exactly when the word is `g`. -/
theorem toInt_eq_iff (x : BitVec 32) (g : Nat) (hg : g < 256) :
    x.toInt = (g : Int) ↔ x = BitVec.ofNat 32 g := by
  have hg' : (BitVec.ofNat 32 g).toNat = g := by
    rw [BitVec.toNat_ofNat]; exact Nat.mod_eq_of_lt (by omega)
  constructor
  · intro e
    apply BitVec.eq_of_toNat_eq
    rw [hg']
    have hx := x.isLt
    rw [BitVec.toInt_eq_toNat_cond] at e
    split at e <;> omega
  · intro e
    subst e
    rw [BitVec.toInt_eq_toNat_cond, hg', if_pos (by omega)]

variable [Facts₀]

/-- The scatter's dimension numbers, for short. -/
local notation "dP" => scatter_S256x96_S100000x1_S100000x96_1_0_0_1

/-- On the graph axis the window coordinate is zero (that axis is inserted). -/
theorem pool_window0 (n : Fin 100000) (k' : Fin 96) : ScatterDims.window dP (ix2 n k') 0 = 0 := by
  unfold ScatterDims.window
  have hm : (0 : Fin 2) ∉ ScatterDims.sKept dP := (show (0 : Fin 2) ∉ ([1] : List (Fin 2)) by decide)
  rw [dif_neg hm]

/-- On the column axis the window coordinate is the update's column. -/
theorem pool_window1 (n : Fin 100000) (k' : Fin 96) : ScatterDims.window dP (ix2 n k') 1 = k'.val := by
  unfold ScatterDims.window
  have hm : (1 : Fin 2) ∈ ScatterDims.sKept dP := (show (1 : Fin 2) ∈ ([1] : List (Fin 2)) from List.mem_singleton.mpr rfl)
  rw [dif_pos hm]
  rfl

/-- On the column axis the start is zero (no scatter index names that axis). -/
theorem pool_start1 {w : Nat} (idx : IVec S100000x1 w) (n : Fin 100000) (k' : Fin 96) :
    ScatterDims.start dP (ix2 n k') idx 1 = 0 := by
  unfold ScatterDims.start
  have hm : (1 : Fin 2) ∉ ScatterDims.scatterDimsToOperandDims dP := (show (1 : Fin 2) ∉ ([0] : List (Fin 2)) by decide)
  rw [dif_neg hm]

/-- On the graph axis the start is the scatter index of the update's node, read signed. -/
theorem pool_start0 {w : Nat} (idx : IVec S100000x1 w) (n : Fin 100000) (k' : Fin 96) :
    ScatterDims.start dP (ix2 n k') idx 0 = (idx (ix2 n (0 : Fin 1))).toInt := by
  unfold ScatterDims.start
  have hm : (0 : Fin 2) ∈ ScatterDims.scatterDimsToOperandDims dP := (show (0 : Fin 2) ∈ ([0] : List (Fin 2)) from List.mem_singleton.mpr rfl)
  rw [dif_pos hm]
  refine congrArg (fun q => (idx q).toInt) (funext fun b => Fin.ext ?_)
  match b with
  | ⟨0, _⟩ => rfl
  | ⟨1, _⟩ => rfl

/-- Which updates land on `(g, k)`: those of column `k` whose node has graph id `g`. -/
theorem pool_lands (batch : IVec S100000 32) (n : Fin 100000) (k' k : Fin 96) (g : Fin 256) :
    ScatterDims.resultIdx? dP (ix2 n k') (broadcastInDim S100000x1 ![0] bcast_S100000_S100000x1_0 batch) = some (ix2 g k)
      ↔ (k' = k ∧ batch (ix1 n) = BitVec.ofNat 32 g.val) := by
  rw [resultIdx?_eq_some_iff, Fin.forall_fin_two, pool_start0, pool_start1, pool_window0, pool_window1]
  rw [broadcastInDim_apply _ bcast_S100000_S100000x1_0 batch (ix2 n (0 : Fin 1)) (ix1 n) (fun a => match a with
    | ⟨0, _⟩ => by show n.val = if (100000 : Nat) = 1 then 0 else n.val; rw [if_neg (by decide)])]
  show ((batch (ix1 n)).toInt + ((0 : Nat) : Int) = (g.val : Int) ∧ (0 : Int) + (k'.val : Int) = (k.val : Int)) ↔ _
  rw [Int.natCast_zero, Int.add_zero, Int.zero_add, toInt_eq_iff _ _ g.isLt, Int.natCast_inj, Fin.val_inj, and_comm]

/-- THE SEGMENT SUM READ AT `(g, k)`: from a zero operand, the accumulating scatter of the rows `h` by the graph ids
`batch` holds, at row `g` and column `k`, the sum over the nodes of `h n k` counted when `batch n = g`. -/
theorem pool_scatter_apply (batch : IVec S100000 32) (h : FVec Ideal S100000x96 .f32) (g : Fin 256) (k : Fin 96) :
    Host.scatterAdd (F := Ideal) scatter_S256x96_S100000x1_S100000x96_1_0_0_1
        (broadcastInDim S256x96 ![] bcast_S_S256x96 (constant (F := Ideal) S_ .f32 0x00000000#32))
        (broadcastInDim S100000x1 ![0] bcast_S100000_S100000x1_0 batch) h (ix2 g k)
      = ∑ n : Fin 100000, (if batch (ix1 n) = BitVec.ofNat 32 g.val then (1 : EReal) else 0) * h (ix2 n k) := by
  unfold Host.scatterAdd
  rw [Ideal.hostScatterAdd_def]
  unfold Ideal.hostScatterAdd
  rw [broadcastInDim_apply _ bcast_S_S256x96 _ (ix2 g k) ix0 (fun a => a.elim0), constant_apply,
    Ideal.ofBits_zero_f32, zero_add, Finset.sum_filter, sum_idx2]
  refine Finset.sum_congr rfl fun n _ => ?_
  rw [Finset.sum_eq_single k
    (fun k' _ hk => if_neg (fun e => hk ((pool_lands batch n k' k g).1 e).1))
    (fun hk => absurd (Finset.mem_univ k) hk)]
  by_cases hb : batch (ix1 n) = BitVec.ofNat 32 g.val
  · rw [if_pos ((pool_lands batch n k k g).2 ⟨rfl, hb⟩), if_pos hb, one_mul]
  · rw [if_neg (fun e => hb ((pool_lands batch n k k g).1 e).2), if_neg hb, zero_mul]

end Cert.ReferenceIdeal.Hand
-- ==== Proof.Bridge.Stages.lean ====
/-
  Each kernel region's value is the reference's own operation on the same arrays, over the extended reals.

  The kernel side names what each region leaves in its output array as a whole-array function of the arrays it
  finds (G0 … G3 for the three graph-convolution layers, G4 for the pooling). The reference computes the same
  numbers by whole-array operations: a matrix product; the combination agg + h · dinv² + b with dinv² broadcast
  along the rows and b along the columns; a relu; a per-graph sum, a division by max(count, 1) and a last matrix
  product. Both sides are read at an index (n, q) and the two readings are the same expression. The kernel passes
  dinv², the graph ids and the counts as columns and the bias as a one-row matrix; a column read at (n, 0) and a
  one-row matrix read at (0, q) are the vector at n and at q.
-/
import proofs.«430643_j67972152427189_1_alg».proof.Proof.KI.Val0
import proofs.«430643_j67972152427189_1_alg».proof.Proof.KI.Val1
import proofs.«430643_j67972152427189_1_alg».proof.Proof.KI.Val2
import proofs.«430643_j67972152427189_1_alg».proof.Proof.KI.Val3
import proofs.«430643_j67972152427189_1_alg».proof.Proof.Ref.Layer
import proofs.«430643_j67972152427189_1_alg».proof.Proof.Ref.Pool
import proofs.«430643_j67972152427189_1_alg».proof.Proof.Bridge.Host
import Idealize.ShloMosaic.Lib.ValueIdx
import Idealize.ShloMosaic.PureOps.Ideal.Laws
import Mathlib.Algebra.BigOperators.Group.Finset.Basic

noncomputable section

namespace Cert.Bridge

open Cert.ReferenceIdeal Cert.ReferenceIdeal.Facts₀ Cert.ReferenceIdeal.Hand Cert.KernelIdeal.Hand
open Idealize.ShloMosaic Idealize.ShloMosaic.ValueIdx
open scoped BigOperators

/-! ## The pooled output as a function of the arrays -/

/-- The pooled output, index by index: per graph `g` the rows whose graph id is `g` added up, divided by
max(count, 1), times the last weight matrix. The graph ids and the counts come as columns. -/
def G4 (hf : Cert.KernelIdeal.S100000x96.Idx → EReal) (bcol : Cert.KernelIdeal.S100000x1.Idx → BitVec 32)
    (ccol : Cert.KernelIdeal.S256x1.Idx → EReal) (wl : Cert.KernelIdeal.S96x16.Idx → EReal) :
    Cert.KernelIdeal.S256x16.Idx → EReal := fun i =>
  ∑ k : Fin 96,
    Ideal.div
      (∑ n : Fin 100000, (if bcol (ix2 n (0 : Fin 1)) = BitVec.ofNat 32 (i 0).val then (1 : EReal) else 0) * hf (ix2 n k))
      (max (ccol (ix2 (⟨(i 0).val, idx2_lt0 i⟩ : Fin 256) (0 : Fin 1))) (Ideal.ofBits .f32 0x3F800000#32))
    * wl (ix2 k (⟨(i 1).val, idx2_lt1 i⟩ : Fin 16))

theorem G4_apply (hf : Cert.KernelIdeal.S100000x96.Idx → EReal) (bcol : Cert.KernelIdeal.S100000x1.Idx → BitVec 32)
    (ccol : Cert.KernelIdeal.S256x1.Idx → EReal) (wl : Cert.KernelIdeal.S96x16.Idx → EReal) (g : Fin 256) (j : Fin 16) :
    G4 hf bcol ccol wl (ix2 g j)
      = ∑ k : Fin 96,
          Ideal.div
            (∑ n : Fin 100000, (if bcol (ix2 n (0 : Fin 1)) = BitVec.ofNat 32 g.val then (1 : EReal) else 0) * hf (ix2 n k))
            (max (ccol (ix2 g (0 : Fin 1))) (Ideal.ofBits .f32 0x3F800000#32))
          * wl (ix2 k j) := rfl

variable [hK : Cert.KernelIdeal.Facts₀] [hR : Cert.ReferenceIdeal.Facts₀]

/-! ## The three layers -/

/-- First region: the product of the node rows with the first weight matrix is the reference's matrix product. -/
theorem stage0 (x : FVec Ideal S100000x96 .f32) (w : FVec Ideal S96x96 .f32) :
    G0 x w = Host.dotGeneral (F := Ideal) dot_S100000x96_S96x96_S100000x96_1_0_0_1_n_n none x w := by
  funext i
  obtain ⟨n, q, rfl⟩ : ∃ (n : Fin 100000) (q : Fin 96), i = ix2 n q := ⟨i 0, i 1, eq_ix2 i⟩
  rw [G0_apply, rMM_apply]

/-- Last layer's region: aggregate plus self term plus bias, dinv² as a column and the bias as a row, is the
reference's combination. -/
theorem stage3 (agg h : FVec Ideal S100000x96 .f32) (dinv : FVec Ideal S100000 .f32) (b : FVec Ideal S96 .f32) :
    G3 agg h (shapeCast Cert.KernelIdeal.S100000x1 (mulf dinv dinv) Cert.KernelIdeal.Facts₀.shapeCasts_S100000_S100000x1)
        (shapeCast Cert.KernelIdeal.S1x96 b Cert.KernelIdeal.Facts₀.shapeCasts_S96_S1x96)
      = rComb agg h dinv b := by
  funext i
  obtain ⟨n, q, rfl⟩ : ∃ (n : Fin 100000) (q : Fin 96), i = ix2 n q := ⟨i 0, i 1, eq_ix2 i⟩
  rw [G3_apply, rComb_apply, col100000_apply, row96_apply, mulf_apply]

/-- Second region: the combination, a relu, and the product with the next weight matrix, all in one pass, is the
reference's matrix product of the relu of its combination. -/
theorem stage1 (agg h : FVec Ideal S100000x96 .f32) (dinv : FVec Ideal S100000 .f32) (b : FVec Ideal S96 .f32)
    (w : FVec Ideal S96x96 .f32) :
    G1 agg h (shapeCast Cert.KernelIdeal.S100000x1 (mulf dinv dinv) Cert.KernelIdeal.Facts₀.shapeCasts_S100000_S100000x1)
        (shapeCast Cert.KernelIdeal.S1x96 b Cert.KernelIdeal.Facts₀.shapeCasts_S96_S1x96) w
      = Host.dotGeneral (F := Ideal) dot_S100000x96_S96x96_S100000x96_1_0_0_1_n_n none (rRelu (rComb agg h dinv b)) w := by
  funext i
  obtain ⟨n, q, rfl⟩ : ∃ (n : Fin 100000) (q : Fin 96), i = ix2 n q := ⟨i 0, i 1, eq_ix2 i⟩
  rw [G1_apply, rMM_apply]
  refine Finset.sum_congr rfl fun k _ => ?_
  rw [rRelu_apply, rComb_apply, col100000_apply, row96_apply, mulf_apply]

/-- Third region: the same pass over the second layer. -/
theorem stage2 (agg h : FVec Ideal S100000x96 .f32) (dinv : FVec Ideal S100000 .f32) (b : FVec Ideal S96 .f32)
    (w : FVec Ideal S96x96 .f32) :
    G2 agg h (shapeCast Cert.KernelIdeal.S100000x1 (mulf dinv dinv) Cert.KernelIdeal.Facts₀.shapeCasts_S100000_S100000x1)
        (shapeCast Cert.KernelIdeal.S1x96 b Cert.KernelIdeal.Facts₀.shapeCasts_S96_S1x96) w
      = Host.dotGeneral (F := Ideal) dot_S100000x96_S96x96_S100000x96_1_0_0_1_n_n none (rRelu (rComb agg h dinv b)) w := by
  funext i
  obtain ⟨n, q, rfl⟩ : ∃ (n : Fin 100000) (q : Fin 96), i = ix2 n q := ⟨i 0, i 1, eq_ix2 i⟩
  rw [G2_apply, rMM_apply]
  refine Finset.sum_congr rfl fun k _ => ?_
  rw [rRelu_apply, rComb_apply, col100000_apply, row96_apply, mulf_apply]

/-! ## The pooling -/

/-- Last region: with the graph ids and the counts as columns, the pooled output is the end of the reference's
pooling applied to its per-graph sums (the accumulating scatter of the rows by graph id, from zero). -/
theorem stage4 (hf : FVec Ideal S100000x96 .f32) (batch : IVec S100000 32) (counts : FVec Ideal S256 .f32)
    (wl : FVec Ideal S96x16 .f32) :
    G4 hf (shapeCast Cert.KernelIdeal.S100000x1 batch Cert.KernelIdeal.Facts₀.shapeCasts_S100000_S100000x1)
        (shapeCast Cert.KernelIdeal.S256x1 counts Cert.KernelIdeal.Facts₀.shapeCasts_S256_S256x1) wl
      = rPoolTail (Host.scatterAdd (F := Ideal) scatter_S256x96_S100000x1_S100000x96_1_0_0_1
          (broadcastInDim S256x96 ![] bcast_S_S256x96 (constant (F := Ideal) S_ .f32 0x00000000#32))
          (broadcastInDim S100000x1 ![0] bcast_S100000_S100000x1_0 batch) hf) counts wl := by
  funext i
  obtain ⟨g, j, rfl⟩ : ∃ (g : Fin 256) (j : Fin 16), i = ix2 g j := ⟨i 0, i 1, eq_ix2 i⟩
  rw [G4_apply, rPoolTail_apply]
  refine Finset.sum_congr rfl fun k _ => ?_
  rw [pool_scatter_apply, col256_apply]
  simp only [col100000_apply]

/-- With the counts the reference's own (ones added up per graph id), the right side is the reference's pooling. -/
theorem stage4_pool (hf : FVec Ideal S100000x96 .f32) (batch : IVec S100000 32) (wl : FVec Ideal S96x16 .f32) :
    G4 hf (shapeCast Cert.KernelIdeal.S100000x1 batch Cert.KernelIdeal.Facts₀.shapeCasts_S100000_S100000x1)
        (shapeCast Cert.KernelIdeal.S256x1 (rCounts' (F := Ideal) batch) Cert.KernelIdeal.Facts₀.shapeCasts_S256_S256x1) wl
      = rPool hf batch wl :=
  stage4 hf batch (rCounts' (F := Ideal) batch) wl

end Cert.Bridge

end
-- ==== Proof.Bridge.Result.lean ====
/-
  The value of the kernel program's result at the exact extended reals: region by region, what a pallas_call
  leaves in its output array is the reference's own operation on the arrays it found, so the last valuation's
  result array is the reference's composed function of the arguments. The one place where the two programs
  differ — the reference normalises a negative destination index before counting degrees, the kernel's
  segment sum drops it — is closed by the precondition that no destination index is negative.
-/
import proofs.«430643_j67972152427189_1_alg».proof.Proof.KI.Run
import proofs.«430643_j67972152427189_1_alg».proof.Proof.KI.Inputs
import proofs.«430643_j67972152427189_1_alg».proof.Proof.KI.Val0
import proofs.«430643_j67972152427189_1_alg».proof.Proof.KI.Val1
import proofs.«430643_j67972152427189_1_alg».proof.Proof.KI.Val2
import proofs.«430643_j67972152427189_1_alg».proof.Proof.KI.Val3
import proofs.«430643_j67972152427189_1_alg».proof.Proof.KI.Val4
import proofs.«430643_j67972152427189_1_alg».proof.Proof.Bridge.Host
import proofs.«430643_j67972152427189_1_alg».proof.Proof.Bridge.Stages
import proofs.«430643_j67972152427189_1_alg».proof.Proof.Ref.Layer
import proofs.«430643_j67972152427189_1_alg».proof.Proof.Gen.ReferenceIdeal
import proofs.«430643_j67972152427189_1_alg».proof.Proof.Gen.Pre_finite_inputs

set_option maxRecDepth 16384

noncomputable section

namespace Cert.Bridge

open Cert.KernelIdeal Cert.KernelIdeal.Gen Cert.KernelIdeal.Hand
open Cert.ReferenceIdeal.Hand
open Idealize.ShloMosaic Idealize.ShloMosaic.TcCoe Idealize.SL.Sem ValueIdx

variable (m : (ℓ : Loc nD τ sig) → Buf (Elt Ideal) ℓ)

/-- The reference's reciprocal square-root degree is the bridge's spelling of it. -/
theorem rDinv_eq (ei : IVec S2x800000 32) : rDinv' (F := Ideal) ei = rDinv ei := rfl
/-- The reference's aggregation, at the reference's own scale, is the bridge's spelling of it. -/
theorem rAgg_eq (ei : IVec S2x800000 32) (h : FVec Ideal S100000x96 .f32) : rAgg' ei (rDinv ei) h = rAgg ei h := rfl
/-- The reference's node counts are the bridge's spelling of them. -/
theorem rConv_unfold (ei : IVec S2x800000 32) (x : FVec Ideal S100000x96 .f32) (w : FVec Ideal S96x96 .f32) (b : FVec Ideal S96 .f32) :
    rConv ei x w b = rComb (rAgg ei (Host.dotGeneral (F := Ideal) Cert.ReferenceIdeal.dot_S100000x96_S96x96_S100000x96_1_0_0_1_n_n none x w))
      (Host.dotGeneral (F := Ideal) Cert.ReferenceIdeal.dot_S100000x96_S96x96_S100000x96_1_0_0_1_n_n none x w) (rDinv ei) b := rfl

section
variable (c : Dev nD)

/-- The first region's output is the reference's first feature matmul. -/
theorem h1_eq : W2 m c (Proc.devRef .tc main_v32) = (Host.dotGeneral (F := Ideal) (φ₁ := .f32) (φ₂ := .f32) Cert.ReferenceIdeal.dot_S100000x96_S96x96_S100000x96_1_0_0_1_n_n none (m ((c : Thread nD τ).loc main_arg0) : FVec Ideal S100000x96 .f32) (m ((c : Thread nD τ).loc main_arg3) : FVec Ideal S96x96 .f32)) := by
  refine (W2_arr m c 2).trans ?_
  rw [arr0_eq, in0_x, in0_w]
  exact stage0 _ _

variable (hdst : ∀ e, IntOp.cmpi .sge (kDst (m ((c : Thread nD τ).loc main_arg1) : IVec S2x800000 32) e) 0#32 = 1#1)
include hdst

theorem dinv_eq : kDinv (F := Ideal) (m ((c : Thread nD τ).loc main_arg1) : IVec S2x800000 32) = rDinv (m ((c : Thread nD τ).loc main_arg1) : IVec S2x800000 32) := (kDinv_eq _ hdst).trans (rDinv_eq _)

/-- The second region's output is the reference's second feature matmul of the rectified first layer. -/
theorem h2_eq : W4 m c (Proc.devRef .tc main_v45) = (Host.dotGeneral (F := Ideal) (φ₁ := .f32) (φ₂ := .f32) Cert.ReferenceIdeal.dot_S100000x96_S96x96_S100000x96_1_0_0_1_n_n none (rRelu (rConv (m ((c : Thread nD τ).loc main_arg1) : IVec S2x800000 32) (m ((c : Thread nD τ).loc main_arg0) : FVec Ideal S100000x96 .f32) (m ((c : Thread nD τ).loc main_arg3) : FVec Ideal S96x96 .f32) (m ((c : Thread nD τ).loc main_arg4) : FVec Ideal S96 .f32))) (m ((c : Thread nD τ).loc main_arg5) : FVec Ideal S96x96 .f32)) := by
  refine (W4_arr m c 5).trans ?_
  rw [arr1_eq, in1_agg, in1_h, in1_d2, in1_b, in1_w, h1_eq, dinv_eq m c hdst, kAgg_eq, rAgg_eq, stage1]
  rfl

/-- The third region's output is the reference's third feature matmul of the rectified second layer. -/
theorem h3_eq : W6 m c (Proc.devRef .tc main_v58) = (Host.dotGeneral (F := Ideal) (φ₁ := .f32) (φ₂ := .f32) Cert.ReferenceIdeal.dot_S100000x96_S96x96_S100000x96_1_0_0_1_n_n none (rRelu (rConv (m ((c : Thread nD τ).loc main_arg1) : IVec S2x800000 32) (rRelu (rConv (m ((c : Thread nD τ).loc main_arg1) : IVec S2x800000 32) (m ((c : Thread nD τ).loc main_arg0) : FVec Ideal S100000x96 .f32) (m ((c : Thread nD τ).loc main_arg3) : FVec Ideal S96x96 .f32) (m ((c : Thread nD τ).loc main_arg4) : FVec Ideal S96 .f32))) (m ((c : Thread nD τ).loc main_arg5) : FVec Ideal S96x96 .f32) (m ((c : Thread nD τ).loc main_arg6) : FVec Ideal S96 .f32))) (m ((c : Thread nD τ).loc main_arg7) : FVec Ideal S96x96 .f32)) := by
  refine (W6_arr m c 5).trans ?_
  rw [arr2_eq, in2_agg, in2_h, in2_d2, in2_b, in2_w, h2_eq m c hdst, dinv_eq m c hdst, kAgg_eq, rAgg_eq, stage2]
  rfl

/-- The fourth region's output is the reference's third layer. -/
theorem hf_eq : W8 m c (Proc.devRef .tc main_v71) = (rConv (F := Ideal) (m ((c : Thread nD τ).loc main_arg1) : IVec S2x800000 32) (rRelu (rConv (m ((c : Thread nD τ).loc main_arg1) : IVec S2x800000 32) (rRelu (rConv (m ((c : Thread nD τ).loc main_arg1) : IVec S2x800000 32) (m ((c : Thread nD τ).loc main_arg0) : FVec Ideal S100000x96 .f32) (m ((c : Thread nD τ).loc main_arg3) : FVec Ideal S96x96 .f32) (m ((c : Thread nD τ).loc main_arg4) : FVec Ideal S96 .f32))) (m ((c : Thread nD τ).loc main_arg5) : FVec Ideal S96x96 .f32) (m ((c : Thread nD τ).loc main_arg6) : FVec Ideal S96 .f32))) (m ((c : Thread nD τ).loc main_arg7) : FVec Ideal S96x96 .f32) (m ((c : Thread nD τ).loc main_arg8) : FVec Ideal S96 .f32)) := by
  refine (W8_arr m c 4).trans ?_
  rw [arr3_eq, in3_agg, in3_h, in3_d2, in3_b, h3_eq m c hdst, dinv_eq m c hdst, kAgg_eq, rAgg_eq, stage3]
  rfl

set_option maxHeartbeats 1000000 in
/-- The program's result is the reference's composed function of the arguments. -/
theorem out_eq : W10 m c (Proc.devRef .tc main_v78) = rOut (F := Ideal) (m ((c : Thread nD τ).loc main_arg0) : FVec Ideal S100000x96 .f32) (m ((c : Thread nD τ).loc main_arg1) : IVec S2x800000 32) (m ((c : Thread nD τ).loc main_arg2) : IVec S100000 32) (m ((c : Thread nD τ).loc main_arg3) : FVec Ideal S96x96 .f32) (m ((c : Thread nD τ).loc main_arg4) : FVec Ideal S96 .f32) (m ((c : Thread nD τ).loc main_arg5) : FVec Ideal S96x96 .f32) (m ((c : Thread nD τ).loc main_arg6) : FVec Ideal S96 .f32) (m ((c : Thread nD τ).loc main_arg7) : FVec Ideal S96x96 .f32) (m ((c : Thread nD τ).loc main_arg8) : FVec Ideal S96 .f32) (m ((c : Thread nD τ).loc main_arg9) : FVec Ideal S96x16 .f32) := by
  refine (W10_arr m c 4).trans ?_
  have key : ((dat4 (VV9 m) c).arrAt 4 cfg4.N : S256x16.Idx → EReal)
      = Cert.Bridge.G4 (VV9 m c main_v71) (VV9 m c main_v77) (VV9 m c main_v76) (VV9 m c main_arg9) := by
    funext i
    obtain ⟨g, j, rfl⟩ : ∃ (g : Fin 256) (j : Fin 16), i = ix2 g j := ⟨i 0, i 1, eq_ix2 i⟩
    rw [arr4_apply, Cert.Bridge.G4_apply]
  refine key.trans ?_
  rw [in4_h, in4_batch, in4_counts, in4_w]
  rw [hf_eq m c hdst]
  refine (stage4_pool _ _ _).trans ?_
  rfl

end

end Cert.Bridge

end
-- ==== Proof.Ref.Res.lean ====
/-
  The reference program's result, as the run states it, is rOut of the arguments: the three layers, the two
  relus and the pooling, unfolded, are the printed program's composed term.
-/
import proofs.«430643_j67972152427189_1_alg».proof.Proof.Gen.ReferenceIdeal.Run
import proofs.«430643_j67972152427189_1_alg».proof.Proof.Ref.Layer

set_option maxRecDepth 65536

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The reference's result buffer after its run is rOut of the ten arguments' contents at launch. -/
theorem res_eq (m : (ℓ : Loc nD τ sig) → Buf (Elt F) ℓ) (c : Dev nD) :
    Cert.ReferenceIdeal.Value.res_main_v165 (F := F) m c
      = rOut (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v165 rOut rPool rPoolTail rConv rComb rAgg rCoef rDinv rNorm rSrc rDst rRelu
  rfl

end Cert.ReferenceIdeal.Hand

end
-- ==== Proof.lean ====
/-
  The certificate of a three-layer graph convolution with mean pooling: five pallas_calls (a feature matmul, two
  fused epilogue-and-matmul layers, an epilogue, and a pooled projection accumulated tile by tile through a scratch
  buffer) against a plain reference.
  Frames: each kernel program's entry function is run as a chain of host stretches and regions; every region's
  body is executed symbolically at a generic grid point, and the argument arrays are read back unchanged through
  the chain of valuations (Proof/KI for the idealized program, Proof/K the same text for the word-level one).
  The reference is a host program: its frame is its run with the result dropped.
  Value: at the exact extended reals each region's output array is the reference's own operation on the same
  arrays — a tile of a matrix product is the rows of the product, the one-hot matmul accumulated over the row tiles
  is the segment sum — so the kernel's result is the reference's composed function of the arguments. The two
  programs count node degrees differently at a negative destination index (the reference normalises it, the
  kernel's segment sum drops it); the precondition that destination indices are non-negative makes them agree.
  The idealization rewrote nothing, so the preservation claim is trivial.
-/
import proofs.«430643_j67972152427189_1_alg».proof.Defs
import proofs.«430643_j67972152427189_1_alg».proof.Proof.Gen.Kernel
import proofs.«430643_j67972152427189_1_alg».proof.Proof.Gen.KernelIdeal
import proofs.«430643_j67972152427189_1_alg».proof.Proof.Gen.ReferenceIdeal
import proofs.«430643_j67972152427189_1_alg».proof.Proof.Gen.Pre_finite_inputs
import proofs.«430643_j67972152427189_1_alg».proof.Proof.K.Run
import proofs.«430643_j67972152427189_1_alg».proof.Proof.KI.Run
import proofs.«430643_j67972152427189_1_alg».proof.Proof.Bridge.Result
import proofs.«430643_j67972152427189_1_alg».proof.Proof.Ref.Res
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, run from memories that agree on the arguments, end with the same result: the kernel
    program's last valuation holds the reference's composed function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W10 m c (Proc.devRef .tc Cert.KernelIdeal.main_v78), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  have hdst := Cert.Bridge.dst_nonneg _ _ _ _ _ _ _ _ _ _ (hpre c)
  obtain ⟨a0, a1, a2, a3, a4, a5, a6, a7, a8, a9⟩ := hagree c
  rw [Cert.ReferenceIdeal.Hand.res_eq, a0, a1, a2, a3, a4, a5, a6, a7, a8, a9]
  exact (Cert.Bridge.out_eq m c hdst).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
